-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2000000 : Shape := ⟨1, ![2000000]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S500000 .f32) (main_arg1 : FVec F S2000000 .f32) (main_arg2 : IVec S2000000 32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_c_2 : IVec S_ 32 := constantI S_ 32 4294467296#32
  let main_v9 : IVec S2000000 32 := broadcastInDim S2000000 ![] bcast_S_S2000000 main_c_2
  let main_v10 : IVec S2000000 1 := cmpi .sge main_arg2 main_v9
  let main_c_3 : IVec S_ 1 := constantI S_ 1 1#1
  let main_v11 : IVec S_ 1 := (fun x v => Host.reduce IntOp.andi x v reducesTo_S2000000_S_d0 h_S_) main_v10 main_c_3
  let main_v12 : IVec S_ 1 := andi main_v8 main_v11
  let main_c_4 : IVec S_ 32 := constantI S_ 32 500000#32
  let main_v13 : IVec S2000000 32 := broadcastInDim S2000000 ![] bcast_S_S2000000 main_c_4
  let main_v14 : IVec S2000000 1 := cmpi .slt main_arg2 main_v13
  let main_c_5 : IVec S_ 1 := constantI S_ 1 1#1
  let main_v15 : IVec S_ 1 := (fun x v => Host.reduce IntOp.andi x v reducesTo_S2000000_S_d0 h_S_) main_v14 main_c_5
  fn_part1 (F := F) main_v12 main_v15
-- ==== Kernel.lean ====
abbrev S500000 : Shape := ⟨1, ![500000]⟩
abbrev S2000000 : Shape := ⟨1, ![2000000]⟩
abbrev S1x42 : Shape := ⟨2, ![1, 42]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x42 : Shape := ⟨2, ![2000000, 42]⟩
abbrev S8192 : Shape := ⟨1, ![8192]⟩
abbrev S8192x42 : Shape := ⟨2, ![8192, 42]⟩
abbrev S8192x1 : Shape := ⟨2, ![8192, 1]⟩

abbrev nBuf : Space → Nat
  | .hbm => 28
  | .vmem => 8
  | .smem => 0
  | _ => 0

abbrev bufTy : (tb : Table) → Fin (tcTables nBuf tb) → BufTy
  | .hbm, ⟨0, _⟩ => ⟨S500000, .f32⟩
  | .hbm, ⟨1, _⟩ => ⟨S2000000, .f32⟩
  | .hbm, ⟨2, _⟩ => ⟨S2000000, .i32⟩
  | .hbm, ⟨3, _⟩ => ⟨S1x42, .f32⟩
  | .hbm, ⟨4, _⟩ => ⟨S1x42, .f32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S1, .i32⟩
  | .hbm, ⟨14, _⟩ => ⟨S_, .i32⟩
  | .hbm, ⟨15, _⟩ => ⟨S2000000x1, .i32⟩
  | .hbm, ⟨16, _⟩ => ⟨S2000000x1, .i1⟩
  | .hbm, ⟨17, _⟩ => ⟨S1x1, .i32⟩
  | .hbm, ⟨18, _⟩ => ⟨S2000000x1, .i32⟩
  | .hbm, ⟨19, _⟩ => ⟨S2000000x1, .i1⟩
  | .hbm, ⟨20, _⟩ => ⟨S2000000x1, .i1⟩
  | .hbm, ⟨21, _⟩ => ⟨S_, .i1⟩
  | .hbm, ⟨22, _⟩ => ⟨S2000000, .i1⟩
  | .hbm, ⟨23, _⟩ => ⟨S2000000, .f32⟩
  | .hbm, ⟨24, _⟩ => ⟨S_, .f32⟩
  | .hbm, ⟨25, _⟩ => ⟨S2000000, .f32⟩
  | .hbm, ⟨26, _⟩ => ⟨S2000000, .f32⟩
  | .hbm, ⟨27, _⟩ => ⟨S2000000x42, .f32⟩
  | .local _ .vmem, ⟨0, _⟩ => ⟨S1x42, .f32⟩
  | .local _ .vmem, ⟨1, _⟩ => ⟨S1x42, .f32⟩
  | .local _ .vmem, ⟨2, _⟩ => ⟨S8192, .f32⟩
  | .local _ .vmem, ⟨3, _⟩ => ⟨S8192, .f32⟩
  | .local _ .vmem, ⟨4, _⟩ => ⟨S8192, .f32⟩
  | .local _ .vmem, ⟨5, _⟩ => ⟨S8192, .f32⟩
  | .local _ .vmem, ⟨6, _⟩ => ⟨S8192x42, .f32⟩
  | .local _ .vmem, ⟨7, _⟩ => ⟨S8192x42, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v0 : Ref sig .tc := ⟨.hbm, 26, rfl⟩
abbrev main_v1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x42 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x42 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x42 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  inb_S1x42_S1x42_0_0 : ∀ a, (![0, 0] : Fin 2 → Nat) a + S1x42.size a ≤ S1x42.size a
  h_S1x42 : 0 < S1x42.numel
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  iota_S8192x42_d1_w32 : S8192x42.Iotas .tc 32 [1]
  natLt_1_32 : 1 < 32
  broadcasts_S8192x1_S8192x42 : S8192x1.Broadcasts S8192x42
  broadcasts_S1x42_S8192x42 : S1x42.Broadcasts S8192x42
  shapeCasts_S8192x1_S8192x1 : S8192x1.ShapeCasts S8192x1
  inb_S8192x42_S8192x42_0_0 : ∀ a, (![0, 0] : Fin 2 → Nat) a + S8192x42.size a ≤ S8192x42.size a
  h_S8192x42 : 0 < S8192x42.numel
  gather_S500000_S2000000x1_S2000000_n_0_n_n_0_1_1_wf : GatherDims.WF S500000 S2000000x1 S2000000 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x42.size a ≤ S1x42.size a
  hwx0_0 : ∀ i : grid0.Coords, EltTy.bits .f32 = 32 ∨ (Rect.block (s := S1x42) S1x42.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x42.size a ≤ S1x42.size a
  hwx0_1 : ∀ i : grid0.Coords, EltTy.bits .f32 = 32 ∨ (Rect.block (s := S1x42) S1x42.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192.size a < S2000000.size a
  hwx0_2 : ∀ i : grid0.Coords, EltTy.bits .f32 = 32 ∨ (Rect.unit (s := S2000000) (fun a => cc0_transform_2 i a * S8192.size a) (fun a => (Pipeline.Clip.of (cc0_transform_2 i a) (S8192.size a) (S2000000.size a)).extent (S8192.size a)) fun a => Pipeline.Clip.inb (Pipeline.Clip.ok_of (hstart0_2 i a))).WholeWords (EltTy.packing .f32)
  hwxs0_2 : ∀ i : grid0.Coords, EltTy.bits .f32 = 32 ∨ (Rect.unit (s := S8192) (fun _ => 0) (fun a => (Pipeline.Clip.of (cc0_transform_2 i a) (S8192.size a) (S2000000.size a)).extent (S8192.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8192.size a < S2000000.size a
  hwx0_3 : ∀ i : grid0.Coords, EltTy.bits .f32 = 32 ∨ (Rect.unit (s := S2000000) (fun a => cc0_transform_3 i a * S8192.size a) (fun a => (Pipeline.Clip.of (cc0_transform_3 i a) (S8192.size a) (S2000000.size a)).extent (S8192.size a)) fun a => Pipeline.Clip.inb (Pipeline.Clip.ok_of (hstart0_3 i a))).WholeWords (EltTy.packing .f32)
  hwxs0_3 : ∀ i : grid0.Coords, EltTy.bits .f32 = 32 ∨ (Rect.unit (s := S8192) (fun _ => 0) (fun a => (Pipeline.Clip.of (cc0_transform_3 i a) (S8192.size a) (S2000000.size a)).extent (S8192.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S8192x42.size a < S2000000x42.size a
  hwx0_4 : ∀ i : grid0.Coords, EltTy.bits .f32 = 32 ∨ (Rect.unit (s := S2000000x42) (fun a => cc0_transform_4 i a * S8192x42.size a) (fun a => (Pipeline.Clip.of (cc0_transform_4 i a) (S8192x42.size a) (S2000000x42.size a)).extent (S8192x42.size a)) fun a => Pipeline.Clip.inb (Pipeline.Clip.ok_of (hstart0_4 i a))).WholeWords (EltTy.packing .f32)
  hwxs0_4 : ∀ i : grid0.Coords, EltTy.bits .f32 = 32 ∨ (Rect.unit (s := S8192x42) (fun _ => 0) (fun a => (Pipeline.Clip.of (cc0_transform_4 i a) (S8192x42.size a) (S2000000x42.size a)).extent (S8192x42.size a)) fun a => (Nat.zero_add _).trans_le (Pipeline.Clip.extent_le (Pipeline.Clip.ok_of (hstart0_4 i a)))).WholeWords (EltTy.packing .f32)

variable [Facts₀]

def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf

abbrev win0_0 : Pipeline.Window sig grid0 :=
  Pipeline.Window.ofSpec (Memref.whole main_cst) S1x42.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_cst_0) S1x42.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S8192.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg1) S8192.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v1) S8192x42.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000 : Shape := ⟨1, ![500000]⟩
abbrev S2000000 : Shape := ⟨1, ![2000000]⟩
abbrev S7x6 : Shape := ⟨2, ![7, 6]⟩
abbrev S_ : Shape := ⟨0, ![]⟩
abbrev S500000x1x1 : Shape := ⟨3, ![500000, 1, 1]⟩
abbrev S1x7x6 : Shape := ⟨3, ![1, 7, 6]⟩
abbrev S500000x7x6 : Shape := ⟨3, ![500000, 7, 6]⟩
abbrev S500000x1x6 : Shape := ⟨3, ![500000, 1, 6]⟩
abbrev S500000x6 : Shape := ⟨2, ![500000, 6]⟩
abbrev S500000x42 : Shape := ⟨2, ![500000, 42]⟩
abbrev S2000000x1 : Shape := ⟨2, ![2000000, 1]⟩
abbrev S2000000x42 : Shape := ⟨2, ![2000000, 42]⟩
abbrev S2000000x7 : Shape := ⟨2, ![2000000, 7]⟩
abbrev S2000000x7x6 : Shape := ⟨3, ![2000000, 7, 6]⟩

abbrev nBuf : Space → Nat
  | .hbm => 197
  | .vmem => 0
  | .smem => 0
  | _ => 0

abbrev hbmTy0_0 (i : Nat) : BufTy := match i % 128 with
  | 0 => ⟨S500000, .f32⟩
  | 1 => ⟨S2000000, .f32⟩
  | 2 => ⟨S2000000, .i32⟩
  | 3 => ⟨S7x6, .f32⟩
  | 4 => ⟨S7x6, .f32⟩
  | 5 => ⟨S_, .f32⟩
  | 6 => ⟨S500000, .f32⟩
  | 7 => ⟨S500000, .f32⟩
  | 8 => ⟨S500000x1x1, .f32⟩
  | 9 => ⟨S1x7x6, .f32⟩
  | 10 => ⟨S500000x7x6, .f32⟩
  | 11 => ⟨S500000x7x6, .f32⟩
  | 12 => ⟨S500000x7x6, .f32⟩
  | 13 => ⟨S500000x7x6, .f32⟩
  | 14 => ⟨S500000x7x6, .f32⟩
  | 15 => ⟨S500000x7x6, .f32⟩
  | 16 => ⟨S500000x1x6, .f32⟩
  | 17 => ⟨S500000x6, .f32⟩
  | 18 => ⟨S500000x7x6, .f32⟩
  | 19 => ⟨S500000x7x6, .f32⟩
  | 20 => ⟨S500000x7x6, .f32⟩
  | 21 => ⟨S500000x7x6, .f32⟩
  | 22 => ⟨S500000x1x6, .f32⟩
  | 23 => ⟨S500000x6, .f32⟩
  | 24 => ⟨S_, .f32⟩
  | 25 => ⟨S500000x7x6, .f32⟩
  | 26 => ⟨S500000x7x6, .f32⟩
  | 27 => ⟨S500000x7x6, .f32⟩
  | 28 => ⟨S500000x7x6, .f32⟩
  | 29 => ⟨S500000x1x6, .f32⟩
  | 30 => ⟨S500000x6, .f32⟩
  | 31 => ⟨S_, .f32⟩
  | 32 => ⟨S500000x7x6, .f32⟩
  | 33 => ⟨S500000x7x6, .f32⟩
  | 34 => ⟨S500000x7x6, .f32⟩
  | 35 => ⟨S500000x7x6, .f32⟩
  | 36 => ⟨S500000x1x6, .f32⟩
  | 37 => ⟨S500000x6, .f32⟩
  | 38 => ⟨S_, .f32⟩
  | 39 => ⟨S500000x7x6, .f32⟩
  | 40 => ⟨S500000x7x6, .f32⟩
  | 41 => ⟨S500000x7x6, .f32⟩
  | 42 => ⟨S500000x7x6, .f32⟩
  | 43 => ⟨S500000x1x6, .f32⟩
  | 44 => ⟨S500000x6, .f32⟩
  | 45 => ⟨S_, .f32⟩
  | 46 => ⟨S500000x7x6, .f32⟩
  | 47 => ⟨S500000x7x6, .f32⟩
  | 48 => ⟨S500000x7x6, .f32⟩
  | 49 => ⟨S500000x7x6, .f32⟩
  | 50 => ⟨S500000x1x6, .f32⟩
  | 51 => ⟨S500000x6, .f32⟩
  | 52 => ⟨S_, .f32⟩
  | 53 => ⟨S500000x7x6, .f32⟩
  | 54 => ⟨S500000x7x6, .f32⟩
  | 55 => ⟨S500000x7x6, .f32⟩
  | 56 => ⟨S500000x7x6, .f32⟩
  | 57 => ⟨S500000x1x6, .f32⟩
  | 58 => ⟨S500000x6, .f32⟩
  | 59 => ⟨S500000x1x6, .f32⟩
  | 60 => ⟨S500000x1x6, .f32⟩
  | 61 => ⟨S500000x1x6, .f32⟩
  | 62 => ⟨S500000x1x6, .f32⟩
  | 63 => ⟨S500000x1x6, .f32⟩
  | 64 => ⟨S500000x1x6, .f32⟩
  | 65 => ⟨S500000x1x6, .f32⟩
  | 66 => ⟨S500000x7x6, .f32⟩
  | 67 => ⟨S1x7x6, .f32⟩
  | 68 => ⟨S500000x7x6, .f32⟩
  | 69 => ⟨S500000x7x6, .f32⟩
  | 70 => ⟨S500000, .f32⟩
  | 71 => ⟨S500000, .f32⟩
  | 72 => ⟨S500000, .f32⟩
  | 73 => ⟨S_, .f32⟩
  | 74 => ⟨S500000, .f32⟩
  | 75 => ⟨S500000, .f32⟩
  | 76 => ⟨S_, .f32⟩
  | 77 => ⟨S500000, .f32⟩
  | 78 => ⟨S500000, .f32⟩
  | 79 => ⟨S500000, .f32⟩
  | 80 => ⟨S500000, .f32⟩
  | 81 => ⟨S500000, .f32⟩
  | 82 => ⟨S_, .f32⟩
  | 83 => ⟨S500000, .f32⟩
  | 84 => ⟨S500000, .f32⟩
  | 85 => ⟨S500000, .f32⟩
  | 86 => ⟨S500000, .f32⟩
  | 87 => ⟨S500000, .f32⟩
  | 88 => ⟨S500000, .f32⟩
  | 89 => ⟨S500000, .f32⟩
  | 90 => ⟨S_, .f32⟩
  | 91 => ⟨S500000, .f32⟩
  | 92 => ⟨S500000, .f32⟩
  | 93 => ⟨S500000, .f32⟩
  | 94 => ⟨S500000x1x1, .f32⟩
  | 95 => ⟨S500000x7x6, .f32⟩
  | 96 => ⟨S500000x7x6, .f32⟩
  | 97 => ⟨S500000x42, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x42, .f32⟩
  | 107 => ⟨S2000000, .f32⟩
  | 108 => ⟨S_, .f32⟩
  | 109 => ⟨S2000000, .f32⟩
  | 110 => ⟨S_, .f32⟩
  | 111 => ⟨S2000000, .f32⟩
  | 112 => ⟨S2000000, .f32⟩
  | 113 => ⟨S_, .f32⟩
  | 114 => ⟨S2000000, .f32⟩
  | 115 => ⟨S2000000, .f32⟩
  | 116 => ⟨S_, .f32⟩
  | 117 => ⟨S2000000, .f32⟩
  | 118 => ⟨S2000000, .f32⟩
  | 119 => ⟨S2000000, .f32⟩
  | 120 => ⟨S_, .f32⟩
  | 121 => ⟨S2000000, .f32⟩
  | 122 => ⟨S2000000, .f32⟩
  | 123 => ⟨S2000000, .f32⟩
  | 124 => ⟨S_, .f32⟩
  | 125 => ⟨S2000000, .f32⟩
  | 126 => ⟨S2000000, .f32⟩
  | 127 => ⟨S_, .f32⟩
  | _ => ⟨S500000, .f32⟩

abbrev hbmTy0_1 (i : Nat) : BufTy := match i % 128 with
  | 0 => ⟨S2000000, .f32⟩
  | 1 => ⟨S2000000, .f32⟩
  | 2 => ⟨S_, .f32⟩
  | 3 => ⟨S2000000, .f32⟩
  | 4 => ⟨S2000000, .f32⟩
  | 5 => ⟨S2000000, .f32⟩
  | 6 => ⟨S_, .f32⟩
  | 7 => ⟨S2000000, .f32⟩
  | 8 => ⟨S2000000, .f32⟩
  | 9 => ⟨S2000000, .f32⟩
  | 10 => ⟨S_, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S_, .f32⟩
  | 17 => ⟨S2000000, .f32⟩
  | 18 => ⟨S2000000, .f32⟩
  | 19 => ⟨S2000000, .f32⟩
  | 20 => ⟨S_, .f32⟩
  | 21 => ⟨S2000000, .f32⟩
  | 22 => ⟨S2000000, .f32⟩
  | 23 => ⟨S2000000, .f32⟩
  | 24 => ⟨S_, .f32⟩
  | 25 => ⟨S2000000, .f32⟩
  | 26 => ⟨S2000000, .f32⟩
  | 27 => ⟨S_, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S_, .f32⟩
  | 35 => ⟨S2000000, .f32⟩
  | 36 => ⟨S2000000, .f32⟩
  | 37 => ⟨S2000000, .f32⟩
  | 38 => ⟨S_, .f32⟩
  | 39 => ⟨S2000000, .f32⟩
  | 40 => ⟨S2000000, .f32⟩
  | 41 => ⟨S_, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S2000000, .f32⟩
  | 52 => ⟨S_, .f32⟩
  | 53 => ⟨S2000000, .f32⟩
  | 54 => ⟨S2000000, .f32⟩
  | 55 => ⟨S_, .f32⟩
  | 56 => ⟨S2000000, .f32⟩
  | 57 => ⟨S2000000, .f32⟩
  | 58 => ⟨S2000000x1, .f32⟩
  | 59 => ⟨S2000000x1, .f32⟩
  | 60 => ⟨S2000000x1, .f32⟩
  | 61 => ⟨S2000000x1, .f32⟩
  | 62 => ⟨S2000000x1, .f32⟩
  | 63 => ⟨S2000000x1, .f32⟩
  | 64 => ⟨S2000000x1, .f32⟩
  | 65 => ⟨S2000000x7, .f32⟩
  | 66 => ⟨S2000000x7x6, .f32⟩
  | 67 => ⟨S2000000x42, .f32⟩
  | 68 => ⟨S2000000x42, .f32⟩
  | _ => ⟨S500000, .f32⟩

abbrev hbmTy (i : Nat) : BufTy := match i / 128 with
  | 0 => hbmTy0_0 i
  | 1 => hbmTy0_1 i
  | _ => ⟨S500000, .f32⟩

abbrev bufTy : (tb : Table) → Fin (tcTables nBuf tb) → BufTy
  | .hbm, ⟨i, _⟩ => hbmTy i
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_cst_8 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_9 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_10 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_c : Ref sig .tc := ⟨.hbm, 98, rfl⟩
abbrev main_v83 : Ref sig .tc := ⟨.hbm, 99, rfl⟩
abbrev main_v84 : Ref sig .tc := ⟨.hbm, 100, rfl⟩
abbrev main_c_11 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_12 : Ref sig .tc := ⟨.hbm, 108, rfl⟩
abbrev main_v91 : Ref sig .tc := ⟨.hbm, 109, rfl⟩
abbrev main_cst_13 : Ref sig .tc := ⟨.hbm, 110, rfl⟩
abbrev main_v92 : Ref sig .tc := ⟨.hbm, 111, rfl⟩
abbrev main_v93 : Ref sig .tc := ⟨.hbm, 112, rfl⟩
abbrev main_cst_14 : Ref sig .tc := ⟨.hbm, 113, rfl⟩
abbrev main_v94 : Ref sig .tc := ⟨.hbm, 114, rfl⟩
abbrev main_v95 : Ref sig .tc := ⟨.hbm, 115, rfl⟩
abbrev main_cst_15 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_16 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_17 : Ref sig .tc := ⟨.hbm, 124, rfl⟩
abbrev main_v102 : Ref sig .tc := ⟨.hbm, 125, rfl⟩
abbrev main_v103 : Ref sig .tc := ⟨.hbm, 126, rfl⟩
abbrev main_cst_18 : Ref sig .tc := ⟨.hbm, 127, rfl⟩
abbrev main_v104 : Ref sig .tc := ⟨.hbm, 128, rfl⟩
abbrev main_v105 : Ref sig .tc := ⟨.hbm, 129, rfl⟩
abbrev main_cst_19 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_20 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_21 : Ref sig .tc := ⟨.hbm, 138, rfl⟩
abbrev main_v112 : Ref sig .tc := ⟨.hbm, 139, rfl⟩
abbrev main_v113 : Ref sig .tc := ⟨.hbm, 140, rfl⟩
abbrev main_cst_22 : Ref sig .tc := ⟨.hbm, 141, rfl⟩
abbrev main_v114 : Ref sig .tc := ⟨.hbm, 142, rfl⟩
abbrev main_v115 : Ref sig .tc := ⟨.hbm, 143, rfl⟩
abbrev main_cst_23 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_24 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_25 : Ref sig .tc := ⟨.hbm, 152, rfl⟩
abbrev main_v122 : Ref sig .tc := ⟨.hbm, 153, rfl⟩
abbrev main_v123 : Ref sig .tc := ⟨.hbm, 154, rfl⟩
abbrev main_cst_26 : Ref sig .tc := ⟨.hbm, 155, rfl⟩
abbrev main_v124 : Ref sig .tc := ⟨.hbm, 156, rfl⟩
abbrev main_v125 : Ref sig .tc := ⟨.hbm, 157, rfl⟩
abbrev main_cst_27 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_28 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_29 : Ref sig .tc := ⟨.hbm, 166, rfl⟩
abbrev main_v132 : Ref sig .tc := ⟨.hbm, 167, rfl⟩
abbrev main_v133 : Ref sig .tc := ⟨.hbm, 168, rfl⟩
abbrev main_cst_30 : Ref sig .tc := ⟨.hbm, 169, rfl⟩
abbrev main_v134 : Ref sig .tc := ⟨.hbm, 170, rfl⟩
abbrev main_v135 : Ref sig .tc := ⟨.hbm, 171, rfl⟩
abbrev main_cst_31 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_cst_32 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_33 : Ref sig .tc := ⟨.hbm, 180, rfl⟩
abbrev main_v142 : Ref sig .tc := ⟨.hbm, 181, rfl⟩
abbrev main_v143 : Ref sig .tc := ⟨.hbm, 182, rfl⟩
abbrev main_cst_34 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1x1_0 : S500000.BroadcastsInDim S500000x1x1 (![0] : Fin 1 → Fin S500000x1x1.rank)
  bcast_S7x6_S1x7x6_1_2 : S7x6.BroadcastsInDim S1x7x6 (![1, 2] : Fin 2 → Fin S1x7x6.rank)
  bcast_S500000x1x1_S500000x7x6_0_1_2 : S500000x1x1.BroadcastsInDim S500000x7x6 (![0, 1, 2] : Fin 3 → Fin S500000x7x6.rank)
  bcast_S1x7x6_S500000x7x6_0_1_2 : S1x7x6.BroadcastsInDim S500000x7x6 (![0, 1, 2] : Fin 3 → Fin S500000x7x6.rank)
  slices_S500000x7x6_S500000x1x6_0_0_0 : S500000x7x6.Slices ![0, 0, 0] S500000x1x6
  shapeCasts_S500000x1x6_S500000x6 : S500000x1x6.ShapeCasts S500000x6
  slices_S500000x7x6_S500000x1x6_0_1_0 : S500000x7x6.Slices ![0, 1, 0] S500000x1x6
  bcast_S_S500000x7x6 : S_.BroadcastsInDim S500000x7x6 (![] : Fin 0 → Fin S500000x7x6.rank)
  slices_S500000x7x6_S500000x1x6_0_2_0 : S500000x7x6.Slices ![0, 2, 0] S500000x1x6
  slices_S500000x7x6_S500000x1x6_0_3_0 : S500000x7x6.Slices ![0, 3, 0] S500000x1x6
  slices_S500000x7x6_S500000x1x6_0_4_0 : S500000x7x6.Slices ![0, 4, 0] S500000x1x6
  slices_S500000x7x6_S500000x1x6_0_5_0 : S500000x7x6.Slices ![0, 5, 0] S500000x1x6
  slices_S500000x7x6_S500000x1x6_0_6_0 : S500000x7x6.Slices ![0, 6, 0] S500000x1x6
  bcast_S500000x6_S500000x1x6_0_2 : S500000x6.BroadcastsInDim S500000x1x6 (![0, 2] : Fin 2 → Fin S500000x1x6.rank)
  concatenates_S500000x1x6_S500000x1x6_S500000x1x6_S500000x1x6_S500000x1x6_S500000x1x6_S500000x1x6_S500000x7x6_d1 : Shape.Concatenates [S500000x1x6, S500000x1x6, S500000x1x6, S500000x1x6, S500000x1x6, S500000x1x6, S500000x1x6] S500000x7x6 1
  shapeCasts_S500000x7x6_S500000x42 : S500000x7x6.ShapeCasts S500000x42
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x1_S2000000x1_S2000000x1_S2000000x1_S2000000x7_d1 : Shape.Concatenates [S2000000x1, S2000000x1, S2000000x1, S2000000x1, S2000000x1, S2000000x1, S2000000x1] S2000000x7 1
  bcast_S2000000x7_S2000000x7x6_0_1 : S2000000x7.BroadcastsInDim S2000000x7x6 (![0, 1] : Fin 2 → Fin S2000000x7x6.rank)
  shapeCasts_S2000000x7x6_S2000000x42 : S2000000x7x6.ShapeCasts S2000000x42
  gather_S500000x42_S2000000x1_S2000000x42_1_0_n_n_0_1_142_wf : GatherDims.WF S500000x42 S2000000x1 S2000000x42 [1] [0] [] [0] [] 1 ![1, 42]

variable [Facts₀]

def gather_S500000x42_S2000000x1_S2000000x42_1_0_n_n_0_1_142 : GatherDims S500000x42 S2000000x1 S2000000x42 where
  offsetDims := [1]
  collapsedSliceDims := [0]
  operandBatchingDims := []
  startIndicesBatchingDims := []
  startIndexMap := [0]
  indexVectorDim := 1
  sliceSizes := ![1, 42]
  wf := gather_S500000x42_S2000000x1_S2000000x42_1_0_n_n_0_1_142_wf

class Facts : Prop extends Facts₀ where

variable [Facts]
-- ==== Proof.LibKeepdims.lean ====
/-
  Column forms of the keepdims layout operations read at an index given by coordinates: a vector `[a]` viewed as a
  column `[a, 1]`, and a column `[a, 1]` laid along every column of an `[a, b]` matrix.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.BodyK.lean ====
/-
  The frame of the idealized kernel program, and what its one region leaves in the result array.

  The region has 245 points over 2,000,000 rows in blocks of 8192, so the last block of the gathered distances, of the
  angles and of the result overhangs the arrays by 1152 rows. The body loads the two 1x42 tables and the two 8192-row
  blocks whole and stores ONE 8192x42 value, `outOf`, which is ROW-WISE in the two row blocks: entry (r, l) depends on
  the tables and on row r of each block only (`outOf_local`). Hence whatever words sit in the overhanging rows of the
  input staging buffers, the rows of the result block that are written back are the same.
-/
import proofs.«404429_j65481071394972_3_alg».proof.Proof.Gen.Kernel.Frame
import proofs.«404429_j65481071394972_3_alg».proof.Proof.Gen.Kernel.Skeleton
import proofs.«404429_j65481071394972_3_alg».proof.Proof.LibKeepdims
import Idealize.ShloMosaic.Lib.Pipeline.Kit
import Idealize.ShloMosaic.Lib.Pipeline.Value
import Idealize.ShloMosaic.Lib.Tactic
import Idealize.ShloMosaic.Lib.ValueIdx

set_option maxRecDepth 16384

noncomputable section

namespace Cert.Kernel.Body

open Cert.Kernel Cert.Kernel.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the body stores -/

/-- The value the body stores into the result block, as a function of the four values it loads: the table of
    zeros `v0`, the table of normalisers `v1`, the block of gathered distances `v2` and the block of angles `v4`. -/
def outOf (v0 v1 : Vec F S1x42 .f32) (v2 v4 : Vec F S8192 .f32) : FVec F S8192x42 .f32 :=
  k0_pay1 k0_pay3
    (k0_pay13 (k0_pay4 v2)
      (k0_pay11 v1 k0_pay3 (k0_pay5 v0 v2) (k0_pay6 v0 v2) (k0_pay7 v0 v2) (k0_pay8 v0 v2) k0_pay9 (k0_pay10 (F := F)))
      (k0_pay12 (k0_pay4 v2)) (Scalar.ofBits .f32 0x41A80000#32))
    (k0_pay14 (k0_pay2 v4))
    (k0_pay20 (k0_pay14 (k0_pay2 v4)) (k0_pay17 (k0_pay2 v4)))
    (k0_pay21 k0_pay3 (k0_pay14 (k0_pay2 v4)) (k0_pay16 (k0_pay2 v4) k0_pay3) (k0_pay17 (k0_pay2 v4)) (k0_pay18 k0_pay3)
      (Scalar.ofBits .f32 0x3F217B01#32))
    (k0_pay22 (k0_pay14 (k0_pay2 v4)) (k0_pay17 (k0_pay2 v4)))
    (k0_pay23 k0_pay3) (Scalar.ofBits .f32 0x3F6F83A7#32)

/-! ## The payloads read at an index

Every payload is built from pointwise operations, splats, the cast of a row block [8192] to a column [8192, 1], a
column laid along the 42 columns, a [1, 42] table laid along the 8192 rows, and the column number. So entry (r, l)
of a matrix payload is a function of entry (r, l) of its matrix operands, entry (r, 0) of its column operands and
entry (0, l) of the tables. This is stated below as congruences: operands that agree at rows r and r' give payloads
that agree at (r, l) and (r', l). -/

section Read

/-- A [1, 42] table laid along 8192 rows reads, at (r, l), the table's entry l. -/
theorem bcastTable_apply {α : Type} (v : S1x42.Idx → α) (h : S1x42.Broadcasts S8192x42) (r : Fin 8192) (l : Fin 42) :
    broadcastTo S8192x42 v h (ix2 r l) = v (ix2 (0 : Fin 1) l) := by
  refine broadcastTo_apply v h (ix2 r l) (ix2 (0 : Fin 1) l) fun ax => ?_
  match ax with
  | ⟨0, _⟩ => rfl
  | ⟨1, _⟩ => rfl

/-- The group number of column l (the column number divided by six, rounded down) is the same on every row. -/
theorem pay3_congr (r r' : Fin 8192) (l : Fin 42) : k0_pay3 (ix2 r l) = k0_pay3 (ix2 r' l) := by
  unfold k0_pay3
  simp only [select, subi, divsi, cmpi, andi, remsi, extui, broadcast, iota_single_apply]
  rfl

theorem pay9_congr (r r' : Fin 8192) (l : Fin 42) : k0_pay9 (ix2 r l) = k0_pay9 (ix2 r' l) := by
  unfold k0_pay9
  simp only [cmpi, broadcast, pay3_congr r r' l]

theorem pay10_congr (r r' : Fin 8192) (l : Fin 42) : k0_pay10 (F := F) (ix2 r l) = k0_pay10 (F := F) (ix2 r' l) := rfl

variable {r r' : Fin 8192} {l : Fin 42}

/-! ### The payloads of the row blocks themselves -/

theorem pay4_congr {v2 v2' : Vec F S8192 .f32} (h2 : v2 (ix1 r) = v2' (ix1 r')) :
    k0_pay4 v2 (ix2 r (0 : Fin 1)) = k0_pay4 v2' (ix2 r' (0 : Fin 1)) := by
  unfold k0_pay4
  simp only [divf, broadcast, shapeCast_self, Cert.LibKeepdims.shapeCast_a_a1_apply, h2]

theorem pay2_congr {v4 v4' : Vec F S8192 .f32} (h4 : v4 (ix1 r) = v4' (ix1 r')) :
    k0_pay2 v4 (ix2 r (0 : Fin 1)) = k0_pay2 v4' (ix2 r' (0 : Fin 1)) := by
  unfold k0_pay2
  simp only [Cert.LibKeepdims.shapeCast_a_a1_apply, h4]

theorem pay5_congr (v0 : Vec F S1x42 .f32) {v2 v2' : Vec F S8192 .f32} (h2 : v2 (ix1 r) = v2' (ix1 r')) :
    k0_pay5 v0 v2 (ix2 r l) = k0_pay5 v0 v2' (ix2 r' l) := by
  unfold k0_pay5
  simp only [mulf, bcastTable_apply, Cert.LibKeepdims.broadcastTo_a1_ab_apply, pay4_congr h2]

theorem pay6_congr (v0 : Vec F S1x42 .f32) {v2 v2' : Vec F S8192 .f32} (h2 : v2 (ix1 r) = v2' (ix1 r')) :
    k0_pay6 v0 v2 (ix2 r l) = k0_pay6 v0 v2' (ix2 r' l) := by
  unfold k0_pay6
  simp only [sin, pay5_congr (l := l) v0 h2]

theorem pay7_congr (v0 : Vec F S1x42 .f32) {v2 v2' : Vec F S8192 .f32} (h2 : v2 (ix1 r) = v2' (ix1 r')) :
    k0_pay7 v0 v2 (ix2 r l) = k0_pay7 v0 v2' (ix2 r' l) := by
  unfold k0_pay7
  simp only [cos, pay5_congr (l := l) v0 h2]

theorem pay8_congr (v0 : Vec F S1x42 .f32) {v2 v2' : Vec F S8192 .f32} (h2 : v2 (ix1 r) = v2' (ix1 r')) :
    k0_pay8 v0 v2 (ix2 r l) = k0_pay8 v0 v2' (ix2 r' l) := by
  unfold k0_pay8
  simp only [divf, pay5_congr (l := l) v0 h2, pay6_congr (l := l) v0 h2]

/-! ### The column payloads -/

theorem pay12_congr {v33 v33' : FVec F S8192x1 .f32} (h33 : v33 (ix2 r (0 : Fin 1)) = v33' (ix2 r' (0 : Fin 1))) :
    k0_pay12 v33 (ix2 r (0 : Fin 1)) = k0_pay12 v33' (ix2 r' (0 : Fin 1)) := by
  unfold k0_pay12
  simp only [mulf, h33]

theorem pay14_congr {v6 v6' : FVec F S8192x1 .f32} (h6 : v6 (ix2 r (0 : Fin 1)) = v6' (ix2 r' (0 : Fin 1))) :
    k0_pay14 v6 (ix2 r (0 : Fin 1)) = k0_pay14 v6' (ix2 r' (0 : Fin 1)) := by
  unfold k0_pay14
  simp only [cos, h6]

theorem pay17_congr {v6 v6' : FVec F S8192x1 .f32} (h6 : v6 (ix2 r (0 : Fin 1)) = v6' (ix2 r' (0 : Fin 1))) :
    k0_pay17 v6 (ix2 r (0 : Fin 1)) = k0_pay17 v6' (ix2 r' (0 : Fin 1)) := by
  unfold k0_pay17 k0_pay15
  simp only [mulf, subf, divf, broadcast, pay14_congr h6]

theorem pay19_congr {v110 v110' v134 v134' : FVec F S8192x1 .f32}
    (h110 : v110 (ix2 r (0 : Fin 1)) = v110' (ix2 r' (0 : Fin 1)))
    (h134 : v134 (ix2 r (0 : Fin 1)) = v134' (ix2 r' (0 : Fin 1))) :
    k0_pay19 v110 v134 (ix2 r (0 : Fin 1)) = k0_pay19 v110' v134' (ix2 r' (0 : Fin 1)) := by
  unfold k0_pay19
  simp only [mulf, subf, divf, broadcast, h110, h134]

theorem pay20_congr {v110 v110' v134 v134' : FVec F S8192x1 .f32}
    (h110 : v110 (ix2 r (0 : Fin 1)) = v110' (ix2 r' (0 : Fin 1)))
    (h134 : v134 (ix2 r (0 : Fin 1)) = v134' (ix2 r' (0 : Fin 1))) :
    k0_pay20 v110 v134 (ix2 r (0 : Fin 1)) = k0_pay20 v110' v134' (ix2 r' (0 : Fin 1)) := by
  unfold k0_pay20
  simp only [mulf, subf, divf, broadcast, h110, h134, pay19_congr h110 h134]

theorem pay22_congr {v110 v110' v134 v134' : FVec F S8192x1 .f32}
    (h110 : v110 (ix2 r (0 : Fin 1)) = v110' (ix2 r' (0 : Fin 1)))
    (h134 : v134 (ix2 r (0 : Fin 1)) = v134' (ix2 r' (0 : Fin 1))) :
    k0_pay22 v110 v134 (ix2 r (0 : Fin 1)) = k0_pay22 v110' v134' (ix2 r' (0 : Fin 1)) := by
  unfold k0_pay22
  simp only [mulf, subf, divf, broadcast, h110, h134, pay19_congr h110 h134, pay20_congr h110 h134]

/-! ### The matrix payloads -/

theorem pay18_congr {v31 v31' : IVec S8192x42 32} (h31 : v31 (ix2 r l) = v31' (ix2 r' l)) :
    k0_pay18 v31 (ix2 r l) = k0_pay18 v31' (ix2 r' l) := by
  unfold k0_pay18
  simp only [cmpi, broadcast, h31]

theorem pay23_congr {v31 v31' : IVec S8192x42 32} (h31 : v31 (ix2 r l) = v31' (ix2 r' l)) :
    k0_pay23 v31 (ix2 r l) = k0_pay23 v31' (ix2 r' l) := by
  unfold k0_pay23
  simp only [cmpi, broadcast, h31]

theorem pay16_congr {v6 v6' : FVec F S8192x1 .f32} {v31 v31' : IVec S8192x42 32}
    (h6 : v6 (ix2 r (0 : Fin 1)) = v6' (ix2 r' (0 : Fin 1))) (h31 : v31 (ix2 r l) = v31' (ix2 r' l)) :
    k0_pay16 v6 v31 (ix2 r l) = k0_pay16 v6' v31' (ix2 r' l) := by
  unfold k0_pay16 k0_pay15
  simp only [select, cmpi, mulf, broadcast, shapeCast_self, Cert.LibKeepdims.broadcastTo_a1_ab_apply, h31,
    pay14_congr h6]

theorem pay13_congr {v33 v33' v90 v90' : FVec F S8192x1 .f32} {v87 v87' : FVec F S8192x42 .f32} (cst_18 : F .f32)
    (h33 : v33 (ix2 r (0 : Fin 1)) = v33' (ix2 r' (0 : Fin 1))) (h87 : v87 (ix2 r l) = v87' (ix2 r' l))
    (h90 : v90 (ix2 r (0 : Fin 1)) = v90' (ix2 r' (0 : Fin 1))) :
    k0_pay13 v33 v87 v90 cst_18 (ix2 r l) = k0_pay13 v33' v87' v90' cst_18 (ix2 r' l) := by
  unfold k0_pay13
  simp only [mulf, subf, addf, broadcast, Cert.LibKeepdims.broadcastTo_a1_ab_apply, h33, h87, h90]

theorem pay11_congr (v1 : Vec F S1x42 .f32) {v31 v31' : IVec S8192x42 32} {v36 v36' v37 v37' v38 v38' v39 v39' : FVec F S8192x42 .f32}
    {v41 v41' : IVec S8192x42 1} {v42 v42' : FVec F S8192x42 .f32}
    (h31 : v31 (ix2 r l) = v31' (ix2 r' l)) (h36 : v36 (ix2 r l) = v36' (ix2 r' l)) (h37 : v37 (ix2 r l) = v37' (ix2 r' l))
    (h38 : v38 (ix2 r l) = v38' (ix2 r' l)) (h39 : v39 (ix2 r l) = v39' (ix2 r' l)) (h41 : v41 (ix2 r l) = v41' (ix2 r' l))
    (h42 : v42 (ix2 r l) = v42' (ix2 r' l)) :
    k0_pay11 v1 v31 v36 v37 v38 v39 v41 v42 (ix2 r l) = k0_pay11 v1 v31' v36' v37' v38' v39' v41' v42' (ix2 r' l) := by
  unfold k0_pay11
  simp only [select, mulf, divf, subf, cmpi, broadcast, bcastTable_apply, h31, h36, h37, h38, h39, h41, h42]

theorem pay21_congr {v31 v31' : IVec S8192x42 32} {v110 v110' v134 v134' : FVec F S8192x1 .f32} {v126 v126' : FVec F S8192x42 .f32}
    {v136 v136' : IVec S8192x42 1} (cst_32 : F .f32)
    (h31 : v31 (ix2 r l) = v31' (ix2 r' l)) (h110 : v110 (ix2 r (0 : Fin 1)) = v110' (ix2 r' (0 : Fin 1)))
    (h126 : v126 (ix2 r l) = v126' (ix2 r' l)) (h134 : v134 (ix2 r (0 : Fin 1)) = v134' (ix2 r' (0 : Fin 1)))
    (h136 : v136 (ix2 r l) = v136' (ix2 r' l)) :
    k0_pay21 v31 v110 v126 v134 v136 cst_32 (ix2 r l) = k0_pay21 v31' v110' v126' v134' v136' cst_32 (ix2 r' l) := by
  unfold k0_pay21
  simp only [select, mulf, cmpi, broadcast, shapeCast_self, Cert.LibKeepdims.broadcastTo_a1_ab_apply, h31, h126, h134, h136,
    pay19_congr h110 h134, pay20_congr h110 h134]

theorem pay1_congr {v31 v31' : IVec S8192x42 32} {v109 v109' v171 v171' : FVec F S8192x42 .f32}
    {v110 v110' v164 v164' v179 v179' : FVec F S8192x1 .f32} {v181 v181' : IVec S8192x42 1} (cst_47 : F .f32)
    (h31 : v31 (ix2 r l) = v31' (ix2 r' l)) (h109 : v109 (ix2 r l) = v109' (ix2 r' l))
    (h110 : v110 (ix2 r (0 : Fin 1)) = v110' (ix2 r' (0 : Fin 1))) (h164 : v164 (ix2 r (0 : Fin 1)) = v164' (ix2 r' (0 : Fin 1)))
    (h171 : v171 (ix2 r l) = v171' (ix2 r' l)) (h179 : v179 (ix2 r (0 : Fin 1)) = v179' (ix2 r' (0 : Fin 1)))
    (h181 : v181 (ix2 r l) = v181' (ix2 r' l)) :
    k0_pay1 v31 v109 v110 v164 v171 v179 v181 cst_47 (ix2 r l) = k0_pay1 v31' v109' v110' v164' v171' v179' v181' cst_47 (ix2 r' l) := by
  unfold k0_pay1
  simp only [select, mulf, subf, divf, cmpi, broadcast, shapeCast_self, Cert.LibKeepdims.broadcastTo_a1_ab_apply, h31, h109, h110,
    h164, h171, h179, h181]

end Read

/-- The stored value read at (r, l) and at (r', l), for row blocks that agree at rows r and r'. -/
theorem outOf_congr (v0 v1 : Vec F S1x42 .f32) {v2 v2' v4 v4' : Vec F S8192 .f32} {r r' : Fin 8192} (l : Fin 42)
    (h2 : v2 (ix1 r) = v2' (ix1 r')) (h4 : v4 (ix1 r) = v4' (ix1 r')) :
    outOf v0 v1 v2 v4 (ix2 r l) = outOf v0 v1 v2' v4' (ix2 r' l) := by
  have e3 := pay3_congr r r' l
  have e2 := pay2_congr h4
  have e4 := pay4_congr h2
  have e14 := pay14_congr e2
  have e17 := pay17_congr e2
  unfold outOf
  exact pay1_congr _ e3
    (pay13_congr _ e4
      (pay11_congr v1 e3 (pay5_congr v0 h2) (pay6_congr v0 h2) (pay7_congr v0 h2) (pay8_congr v0 h2) (pay9_congr r r' l)
        (pay10_congr r r' l))
      (pay12_congr e4))
    e14 (pay20_congr e14 e17) (pay21_congr _ e3 e14 (pay16_congr e2 e3) e17 (pay18_congr e3)) (pay22_congr e14 e17)
    (pay23_congr e3)

/-- ROW-LOCALITY: entry `(r, l)` of the stored value depends on the two row blocks at row `r` only. -/
theorem outOf_local (v0 v1 : Vec F S1x42 .f32) (v2 v2' v4 v4' : Vec F S8192 .f32) (r : Fin 8192) (l : Fin 42)
    (h2 : v2 (ix1 r) = v2' (ix1 r)) (h4 : v4 (ix1 r) = v4' (ix1 r)) :
    outOf v0 v1 v2 v4 (ix2 r l) = outOf v0 v1 v2' v4' (ix2 r l) :=
  outOf_congr v0 v1 l h2 h4

/-- ROW-UNIFORMITY: entry `(r, l)` is entry `(0, l)` of the value stored for blocks constant at row `r`'s entries. -/
theorem outOf_row (v0 v1 : Vec F S1x42 .f32) (v2 v4 : Vec F S8192 .f32) (r : Fin 8192) (l : Fin 42) :
    outOf v0 v1 v2 v4 (ix2 r l) = outOf v0 v1 (fun _ => v2 (ix1 r)) (fun _ => v4 (ix1 r)) (ix2 (0 : Fin 8192) l) :=
  outOf_congr v0 v1 l rfl rfl

/-! ## The body's run -/

set_option maxHeartbeats 1000000 in
/-- The kernel body on whole staging memrefs, the four inputs' at read contents x0 … x3 and the result's at anything:
    it runs to the continuation holding the inputs' as they were and the result's at the stored value outOf of them. -/
theorem sound_kernel (c : Dev nD) (E : Set ℕ) (i : grid0.Coords)
    (arg1 : Memref sig .tc .vmem S1x42 .f32) (harg1 : arg1.IsWhole) (arg2 : Memref sig .tc .vmem S1x42 .f32) (harg2 : arg2.IsWhole)
    (arg3 : Memref sig .tc .vmem S8192 .f32) (harg3 : arg3.IsWhole) (arg4 : Memref sig .tc .vmem S8192 .f32) (harg4 : arg4.IsWhole)
    (arg5 : Memref sig .tc .vmem S8192x42 .f32) (harg5 : arg5.IsWhole)
    (x0 x1 : Vec F S1x42 .f32) (x2 x3 : Vec F S8192 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outOf x0 x1 x2 x3)) -∗ K ⟨⟩))
      ⊢ wp frame (wpE (defs₀ (F := F)) Variants.none c none) E
          (cc0__basis_kernel i arg1 harg1 arg2 harg2 arg3 harg3 arg4 harg4 arg5 harg5) K := by
  simp only [cc0__basis_kernel_eq_skeleton]; unfold cc0__basis_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  have hz2 : (![0, 0] : Fin 2 → Nat) = fun _ => 0 := funext fun a => by fin_cases a <;> rfl
  have hz1 : (![0] : Fin 1 → Nat) = fun _ => 0 := funext fun a => by fin_cases a <;> rfl
  rw [View.read_writes_eq_canon _ _ _
      (fun y => ⟨_, List.mem_singleton_self _, View.mem_set_unit_zero hz2 inb_S8192x42_S8192x42_0_0 y⟩),
    View.canon_unit_zero hz2]
  -- the four loads are through the whole buffers: they read the contents
  show outOf (View.ld (arg1.view.read (Elt F) f0) (Rect.unit (s := S1x42) ![0, 0] S1x42.size inb_S1x42_S1x42_0_0))
      (View.ld (arg2.view.read (Elt F) f1) (Rect.unit (s := S1x42) ![0, 0] S1x42.size inb_S1x42_S1x42_0_0))
      (View.ld (arg3.view.read (Elt F) f2) (Rect.unit (s := S8192) ![0] S8192.size inb_S8192_S8192_0))
      (View.ld (arg4.view.read (Elt F) f3) (Rect.unit (s := S8192) ![0] S8192.size inb_S8192_S8192_0)) = _
  rw [View.ld_unit_zero hz2, View.ld_unit_zero hz2, View.ld_unit_zero hz1, View.ld_unit_zero hz1]

/-! ## The proof data -/

variable (m : (ℓ : Loc nD τ sig) → Buf (Elt F) ℓ) (ρ : Dev nD → PrngReg)

/-- The block of gathered distances at point `t`, filled out past the array's end with the zero word; -/
def dgblk (c : Dev nD) (t : Fin cfg0.N) : S8192.Idx → Elt F .f32 :=
  win0_2.fill (grid0.coords t) (fun _ => Scalar.ofBits .f32 0#32) (iblk m c 2 t)
/-- the block of angles likewise; -/
def angblk (c : Dev nD) (t : Fin cfg0.N) : S8192.Idx → Elt F .f32 :=
  win0_3.fill (grid0.coords t) (fun _ => Scalar.ofBits .f32 0#32) (iblk m c 3 t)
/-- and what the body stores from them. -/
def outblk (c : Dev nD) (t : Fin cfg0.N) : S8192x42.Idx → Elt F .f32 :=
  outOf (iblk m c 0 t) (iblk m c 1 t) (dgblk m c t) (angblk m c t)

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => dgblk m c t
    | ⟨3, _⟩ => angblk m c t
    | ⟨4, _⟩ => outblk m c t
  Φ _ := Pipeline.ΦA spec0 c
  q _ := fullShare
  owed _ := 0

/-- The kernel's variants: none. -/
abbrev 𝒱₀ : Variants := Variants.none

/-! ## What the body finds and leaves in each window's buffer -/

/-- What the body leaves, window by window (the proof data's match reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = dgblk m c t := by dsimp only [dats]
theorem after0_3 (c : Dev nD) (t : Fin cfg0.N) : (dats m 0 c).after 3 t = angblk m c t := by dsimp only [dats]
theorem after0_4 (c : Dev nD) (t : Fin cfg0.N) : (dats m 0 c).after 4 t = outblk m c t := by dsimp only [dats]

/-- The two tables' buffers hold the tables at every point, fetched there or not. -/
theorem before0_0 (c : Dev nD) (t : Fin cfg0.N) (d) : (dats m 0 c).before 0 t d = iblk m c 0 t :=
  before0_0_of m (dats m 0 c) rfl (fun _ => rfl) t d
theorem before0_1 (c : Dev nD) (t : Fin cfg0.N) (d) : (dats m 0 c).before 1 t d = iblk m c 1 t :=
  before0_1_of m (dats m 0 c) rfl (fun _ => rfl) t d

/-- The two row blocks' buffers are fetched at every point: each holds its block on the rows inside the array and
    anything on the rows past the array's end. -/
theorem before0_2 (c : Dev nD) (t : Fin cfg0.N) (d) :
    (dats m 0 c).before 2 t d = win0_2.fill (grid0.coords t) d (iblk m c 2 t) := by
  rw [Dat.before_fetched _ 2 t (fetch0_2 t)]
  unfold Dat.fetched Dat.blockOf iblk
  dsimp only [dats]
theorem before0_3 (c : Dev nD) (t : Fin cfg0.N) (d) :
    (dats m 0 c).before 3 t d = win0_3.fill (grid0.coords t) d (iblk m c 3 t) := by
  rw [Dat.before_fetched _ 3 t (fetch0_3 t)]
  unfold Dat.fetched Dat.blockOf iblk
  dsimp only [dats]

/-- The result's buffer is written back at every point and never fetched: the body finds anything there. -/
theorem before0_4 (c : Dev nD) (t : Fin cfg0.N) (d) : (dats m 0 c).before 4 t d = d := by
  refine Dat.before_out_reset _ 4 rfl t ?_ d
  by_cases ht : t.val = 0
  · exact .inl ht
  · exact .inr ⟨ht, flush0_4 _⟩

/-! ## The rows written back are rows fetched -/

/-- The row blocks' windows and the result's window have blocks of 8192 rows over 2,000,000 rows at the same block
    index: their transfers move the same number of rows. -/
theorem xsize_2_eq_4 (i : grid0.Coords) : win0_2.xsize i 0 = win0_4.xsize i 0 := rfl
theorem xsize_3_eq_4 (i : grid0.Coords) : win0_3.xsize i 0 = win0_4.xsize i 0 := rfl

/-- On the part a transfer moves, a filled block does not depend on what it was filled out with. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- A row of the part of the result block that is written back is a row of the fetched part of the block of
    gathered distances, -/
theorem moved_2_of_4 (i : grid0.Coords) (j : (win0_4.xblock i).Idx) :
    win0_2.moved i (ix1 (win0_4.xinj i j 0)) = true :=
  (win0_2.moved_iff i _).mpr fun a => by
    match a with
    | ⟨0, _⟩ => exact (xsize_2_eq_4 i).symm ▸ (j 0).isLt
/-- and of the block of angles. -/
theorem moved_3_of_4 (i : grid0.Coords) (j : (win0_4.xblock i).Idx) :
    win0_3.moved i (ix1 (win0_4.xinj i j 0)) = true :=
  (win0_3.moved_iff i _).mpr fun a => by
    match a with
    | ⟨0, _⟩ => exact (xsize_3_eq_4 i).symm ▸ (j 0).isLt

/-- So, whatever words the two row blocks' buffers hold on the rows past the array's end, the rows of the stored value
    that are written back are those of outblk: the stored value is row-wise in the two blocks (outOf_local). -/
theorem cut_outOf (c : Dev nD) (t : Fin cfg0.N) (d2 d3 : S8192.Idx → Elt F .f32) :
    win0_4.cut (grid0.coords t)
        (outOf (iblk m c 0 t) (iblk m c 1 t) (win0_2.fill (grid0.coords t) d2 (iblk m c 2 t))
          (win0_3.fill (grid0.coords t) d3 (iblk m c 3 t)))
      = win0_4.cut (grid0.coords t) (outblk m c t) := by
  funext j
  show outOf _ _ _ _ (win0_4.xinj (grid0.coords t) j) = outOf _ _ (dgblk m c t) (angblk m c t) (win0_4.xinj (grid0.coords t) j)
  rw [eq_ix2 (win0_4.xinj (grid0.coords t) j)]
  exact outOf_local _ _ _ _ _ _ _ _
    (fill_eq_of_moved win0_2 _ _ _ _ (moved_2_of_4 _ j)) (fill_eq_of_moved win0_3 _ _ _ _ (moved_3_of_4 _ j))

/-- The library's body obligation, from the body's run at the point's staging buffers: the tables' buffers arrive holding
    the tables, the two row blocks' holding their blocks filled out with anything past the array's end, the result's
    holding anything; the first four leave as they came and the result's holding the stored value, whose rows inside the
    array are outblk's (cut_outOf) — all the three loose windows' obligations ask. -/
theorem body_obligation (c : Dev nD) : BodyObligationLoose (dats m 0 c) (defs₀ (F := F)) 𝒱₀ () Set.univ := fun t => by
  rw [bigSep_W0, bigSep_W0]
  -- no point is idle; windows 2, 3 and 4 are loose (the matches reduce)
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4,
    after0_0, after0_1, after0_2, after0_3, after0_4]
  iapply (sound_kernel (F := F) c Set.univ (grid0.coords t) _ _ _ _ _ _ _ _ _ _ (iblk m c 0 t) (iblk m c 1 t)
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]; · iexact H0
  isplitl [H1]; · iexact H1
  isplitl [H2]
  · iexists d2
    rw [show win0_2.cut (grid0.coords t) (dgblk m c t) = iblk m c 2 t from win0_2.cut_fill _ _ _]
    iexact H2
  isplitl [H3]
  · iexists d3
    rw [show win0_3.cut (grid0.coords t) (angblk m c t) = iblk m c 3 t from win0_3.cut_fill _ _ _]
    iexact H3
  · iexists outOf (iblk m c 0 t) (iblk m c 1 t) (win0_2.fill (grid0.coords t) d2 (iblk m c 2 t))
      (win0_3.fill (grid0.coords t) d3 (iblk m c 3 t))
    rw [win0_4.fill_congr_cut (grid0.coords t) (cut_outOf m c t d2 d3)]
    iexact H4

/-- The proof data's arrays are the contents the region finds. -/
theorem A_eq (c : Dev nD) (w : Fin cfg0.W) : (dats m 0 c).A w = V m c (Pipeline.arrRef spec0 w) := by
  dsimp only [dats]

set_option backward.isDefEq.respectTransparency.types false in
/-- THE FRAME RUN. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := body_obligation m) (hshare := fun c => (dats m 0 c).share_full fun _ => rfl)
    (howed := fun _ _ => rfl) (V := V m) (hmain := hmain m 𝒱₀) (hA := A_eq m) (hΦ := fun _ _ => rfl)

end Cert.Kernel.Body

end
-- ==== Proof.BodyKI.lean ====
/-
  The frame of the idealized kernel program, and what its one region leaves in the result array.

  The region has 245 points over 2,000,000 rows in blocks of 8192, so the last block of the gathered distances, of the
  angles and of the result overhangs the arrays by 1152 rows. The body loads the two 1x42 tables and the two 8192-row
  blocks whole and stores ONE 8192x42 value, `outOf`, which is ROW-WISE in the two row blocks: entry (r, l) depends on
  the tables and on row r of each block only (`outOf_local`). Hence whatever words sit in the overhanging rows of the
  input staging buffers, the rows of the result block that are written back are the same.
-/
import proofs.«404429_j65481071394972_3_alg».proof.Proof.Gen.KernelIdeal.Frame
import proofs.«404429_j65481071394972_3_alg».proof.Proof.Gen.KernelIdeal.Skeleton
import proofs.«404429_j65481071394972_3_alg».proof.Proof.LibKeepdims
import Idealize.ShloMosaic.Lib.Pipeline.Kit
import Idealize.ShloMosaic.Lib.Pipeline.Value
import Idealize.ShloMosaic.Lib.Tactic
import Idealize.ShloMosaic.Lib.ValueIdx

set_option maxRecDepth 16384

noncomputable section

namespace Cert.KernelIdeal.Body

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the body stores -/

/-- The value the body stores into the result block, as a function of the four values it loads: the table of
    zeros `v0`, the table of normalisers `v1`, the block of gathered distances `v2` and the block of angles `v4`. -/
def outOf (v0 v1 : Vec F S1x42 .f32) (v2 v4 : Vec F S8192 .f32) : FVec F S8192x42 .f32 :=
  k0_pay1 k0_pay3
    (k0_pay13 (k0_pay4 v2)
      (k0_pay11 v1 k0_pay3 (k0_pay5 v0 v2) (k0_pay6 v0 v2) (k0_pay7 v0 v2) (k0_pay8 v0 v2) k0_pay9 (k0_pay10 (F := F)))
      (k0_pay12 (k0_pay4 v2)) (Scalar.ofBits .f32 0x41A80000#32))
    (k0_pay14 (k0_pay2 v4))
    (k0_pay20 (k0_pay14 (k0_pay2 v4)) (k0_pay17 (k0_pay2 v4)))
    (k0_pay21 k0_pay3 (k0_pay14 (k0_pay2 v4)) (k0_pay16 (k0_pay2 v4) k0_pay3) (k0_pay17 (k0_pay2 v4)) (k0_pay18 k0_pay3)
      (Scalar.ofBits .f32 0x3F217B01#32))
    (k0_pay22 (k0_pay14 (k0_pay2 v4)) (k0_pay17 (k0_pay2 v4)))
    (k0_pay23 k0_pay3) (Scalar.ofBits .f32 0x3F6F83A7#32)

/-! ## The payloads read at an index

Every payload is built from pointwise operations, splats, the cast of a row block [8192] to a column [8192, 1], a
column laid along the 42 columns, a [1, 42] table laid along the 8192 rows, and the column number. So entry (r, l)
of a matrix payload is a function of entry (r, l) of its matrix operands, entry (r, 0) of its column operands and
entry (0, l) of the tables. This is stated below as congruences: operands that agree at rows r and r' give payloads
that agree at (r, l) and (r', l). -/

section Read

/-- A [1, 42] table laid along 8192 rows reads, at (r, l), the table's entry l. -/
theorem bcastTable_apply {α : Type} (v : S1x42.Idx → α) (h : S1x42.Broadcasts S8192x42) (r : Fin 8192) (l : Fin 42) :
    broadcastTo S8192x42 v h (ix2 r l) = v (ix2 (0 : Fin 1) l) := by
  refine broadcastTo_apply v h (ix2 r l) (ix2 (0 : Fin 1) l) fun ax => ?_
  match ax with
  | ⟨0, _⟩ => rfl
  | ⟨1, _⟩ => rfl

/-- The group number of column l (the column number divided by six, rounded down) is the same on every row. -/
theorem pay3_congr (r r' : Fin 8192) (l : Fin 42) : k0_pay3 (ix2 r l) = k0_pay3 (ix2 r' l) := by
  unfold k0_pay3
  simp only [select, subi, divsi, cmpi, andi, remsi, extui, broadcast, iota_single_apply]
  rfl

theorem pay9_congr (r r' : Fin 8192) (l : Fin 42) : k0_pay9 (ix2 r l) = k0_pay9 (ix2 r' l) := by
  unfold k0_pay9
  simp only [cmpi, broadcast, pay3_congr r r' l]

theorem pay10_congr (r r' : Fin 8192) (l : Fin 42) : k0_pay10 (F := F) (ix2 r l) = k0_pay10 (F := F) (ix2 r' l) := rfl

variable {r r' : Fin 8192} {l : Fin 42}

/-! ### The payloads of the row blocks themselves -/

theorem pay4_congr {v2 v2' : Vec F S8192 .f32} (h2 : v2 (ix1 r) = v2' (ix1 r')) :
    k0_pay4 v2 (ix2 r (0 : Fin 1)) = k0_pay4 v2' (ix2 r' (0 : Fin 1)) := by
  unfold k0_pay4
  simp only [divf, broadcast, shapeCast_self, Cert.LibKeepdims.shapeCast_a_a1_apply, h2]

theorem pay2_congr {v4 v4' : Vec F S8192 .f32} (h4 : v4 (ix1 r) = v4' (ix1 r')) :
    k0_pay2 v4 (ix2 r (0 : Fin 1)) = k0_pay2 v4' (ix2 r' (0 : Fin 1)) := by
  unfold k0_pay2
  simp only [Cert.LibKeepdims.shapeCast_a_a1_apply, h4]

theorem pay5_congr (v0 : Vec F S1x42 .f32) {v2 v2' : Vec F S8192 .f32} (h2 : v2 (ix1 r) = v2' (ix1 r')) :
    k0_pay5 v0 v2 (ix2 r l) = k0_pay5 v0 v2' (ix2 r' l) := by
  unfold k0_pay5
  simp only [mulf, bcastTable_apply, Cert.LibKeepdims.broadcastTo_a1_ab_apply, pay4_congr h2]

theorem pay6_congr (v0 : Vec F S1x42 .f32) {v2 v2' : Vec F S8192 .f32} (h2 : v2 (ix1 r) = v2' (ix1 r')) :
    k0_pay6 v0 v2 (ix2 r l) = k0_pay6 v0 v2' (ix2 r' l) := by
  unfold k0_pay6
  simp only [sin, pay5_congr (l := l) v0 h2]

theorem pay7_congr (v0 : Vec F S1x42 .f32) {v2 v2' : Vec F S8192 .f32} (h2 : v2 (ix1 r) = v2' (ix1 r')) :
    k0_pay7 v0 v2 (ix2 r l) = k0_pay7 v0 v2' (ix2 r' l) := by
  unfold k0_pay7
  simp only [cos, pay5_congr (l := l) v0 h2]

theorem pay8_congr (v0 : Vec F S1x42 .f32) {v2 v2' : Vec F S8192 .f32} (h2 : v2 (ix1 r) = v2' (ix1 r')) :
    k0_pay8 v0 v2 (ix2 r l) = k0_pay8 v0 v2' (ix2 r' l) := by
  unfold k0_pay8
  simp only [divf, pay5_congr (l := l) v0 h2, pay6_congr (l := l) v0 h2]

/-! ### The column payloads -/

theorem pay12_congr {v33 v33' : FVec F S8192x1 .f32} (h33 : v33 (ix2 r (0 : Fin 1)) = v33' (ix2 r' (0 : Fin 1))) :
    k0_pay12 v33 (ix2 r (0 : Fin 1)) = k0_pay12 v33' (ix2 r' (0 : Fin 1)) := by
  unfold k0_pay12
  simp only [mulf, h33]

theorem pay14_congr {v6 v6' : FVec F S8192x1 .f32} (h6 : v6 (ix2 r (0 : Fin 1)) = v6' (ix2 r' (0 : Fin 1))) :
    k0_pay14 v6 (ix2 r (0 : Fin 1)) = k0_pay14 v6' (ix2 r' (0 : Fin 1)) := by
  unfold k0_pay14
  simp only [cos, h6]

theorem pay17_congr {v6 v6' : FVec F S8192x1 .f32} (h6 : v6 (ix2 r (0 : Fin 1)) = v6' (ix2 r' (0 : Fin 1))) :
    k0_pay17 v6 (ix2 r (0 : Fin 1)) = k0_pay17 v6' (ix2 r' (0 : Fin 1)) := by
  unfold k0_pay17 k0_pay15
  simp only [mulf, subf, divf, broadcast, pay14_congr h6]

theorem pay19_congr {v110 v110' v134 v134' : FVec F S8192x1 .f32}
    (h110 : v110 (ix2 r (0 : Fin 1)) = v110' (ix2 r' (0 : Fin 1)))
    (h134 : v134 (ix2 r (0 : Fin 1)) = v134' (ix2 r' (0 : Fin 1))) :
    k0_pay19 v110 v134 (ix2 r (0 : Fin 1)) = k0_pay19 v110' v134' (ix2 r' (0 : Fin 1)) := by
  unfold k0_pay19
  simp only [mulf, subf, divf, broadcast, h110, h134]

theorem pay20_congr {v110 v110' v134 v134' : FVec F S8192x1 .f32}
    (h110 : v110 (ix2 r (0 : Fin 1)) = v110' (ix2 r' (0 : Fin 1)))
    (h134 : v134 (ix2 r (0 : Fin 1)) = v134' (ix2 r' (0 : Fin 1))) :
    k0_pay20 v110 v134 (ix2 r (0 : Fin 1)) = k0_pay20 v110' v134' (ix2 r' (0 : Fin 1)) := by
  unfold k0_pay20
  simp only [mulf, subf, divf, broadcast, h110, h134, pay19_congr h110 h134]

theorem pay22_congr {v110 v110' v134 v134' : FVec F S8192x1 .f32}
    (h110 : v110 (ix2 r (0 : Fin 1)) = v110' (ix2 r' (0 : Fin 1)))
    (h134 : v134 (ix2 r (0 : Fin 1)) = v134' (ix2 r' (0 : Fin 1))) :
    k0_pay22 v110 v134 (ix2 r (0 : Fin 1)) = k0_pay22 v110' v134' (ix2 r' (0 : Fin 1)) := by
  unfold k0_pay22
  simp only [mulf, subf, divf, broadcast, h110, h134, pay19_congr h110 h134, pay20_congr h110 h134]

/-! ### The matrix payloads -/

theorem pay18_congr {v31 v31' : IVec S8192x42 32} (h31 : v31 (ix2 r l) = v31' (ix2 r' l)) :
    k0_pay18 v31 (ix2 r l) = k0_pay18 v31' (ix2 r' l) := by
  unfold k0_pay18
  simp only [cmpi, broadcast, h31]

theorem pay23_congr {v31 v31' : IVec S8192x42 32} (h31 : v31 (ix2 r l) = v31' (ix2 r' l)) :
    k0_pay23 v31 (ix2 r l) = k0_pay23 v31' (ix2 r' l) := by
  unfold k0_pay23
  simp only [cmpi, broadcast, h31]

theorem pay16_congr {v6 v6' : FVec F S8192x1 .f32} {v31 v31' : IVec S8192x42 32}
    (h6 : v6 (ix2 r (0 : Fin 1)) = v6' (ix2 r' (0 : Fin 1))) (h31 : v31 (ix2 r l) = v31' (ix2 r' l)) :
    k0_pay16 v6 v31 (ix2 r l) = k0_pay16 v6' v31' (ix2 r' l) := by
  unfold k0_pay16 k0_pay15
  simp only [select, cmpi, mulf, broadcast, shapeCast_self, Cert.LibKeepdims.broadcastTo_a1_ab_apply, h31,
    pay14_congr h6]

theorem pay13_congr {v33 v33' v90 v90' : FVec F S8192x1 .f32} {v87 v87' : FVec F S8192x42 .f32} (cst_18 : F .f32)
    (h33 : v33 (ix2 r (0 : Fin 1)) = v33' (ix2 r' (0 : Fin 1))) (h87 : v87 (ix2 r l) = v87' (ix2 r' l))
    (h90 : v90 (ix2 r (0 : Fin 1)) = v90' (ix2 r' (0 : Fin 1))) :
    k0_pay13 v33 v87 v90 cst_18 (ix2 r l) = k0_pay13 v33' v87' v90' cst_18 (ix2 r' l) := by
  unfold k0_pay13
  simp only [mulf, subf, addf, broadcast, Cert.LibKeepdims.broadcastTo_a1_ab_apply, h33, h87, h90]

theorem pay11_congr (v1 : Vec F S1x42 .f32) {v31 v31' : IVec S8192x42 32} {v36 v36' v37 v37' v38 v38' v39 v39' : FVec F S8192x42 .f32}
    {v41 v41' : IVec S8192x42 1} {v42 v42' : FVec F S8192x42 .f32}
    (h31 : v31 (ix2 r l) = v31' (ix2 r' l)) (h36 : v36 (ix2 r l) = v36' (ix2 r' l)) (h37 : v37 (ix2 r l) = v37' (ix2 r' l))
    (h38 : v38 (ix2 r l) = v38' (ix2 r' l)) (h39 : v39 (ix2 r l) = v39' (ix2 r' l)) (h41 : v41 (ix2 r l) = v41' (ix2 r' l))
    (h42 : v42 (ix2 r l) = v42' (ix2 r' l)) :
    k0_pay11 v1 v31 v36 v37 v38 v39 v41 v42 (ix2 r l) = k0_pay11 v1 v31' v36' v37' v38' v39' v41' v42' (ix2 r' l) := by
  unfold k0_pay11
  simp only [select, mulf, divf, subf, cmpi, broadcast, bcastTable_apply, h31, h36, h37, h38, h39, h41, h42]

theorem pay21_congr {v31 v31' : IVec S8192x42 32} {v110 v110' v134 v134' : FVec F S8192x1 .f32} {v126 v126' : FVec F S8192x42 .f32}
    {v136 v136' : IVec S8192x42 1} (cst_32 : F .f32)
    (h31 : v31 (ix2 r l) = v31' (ix2 r' l)) (h110 : v110 (ix2 r (0 : Fin 1)) = v110' (ix2 r' (0 : Fin 1)))
    (h126 : v126 (ix2 r l) = v126' (ix2 r' l)) (h134 : v134 (ix2 r (0 : Fin 1)) = v134' (ix2 r' (0 : Fin 1)))
    (h136 : v136 (ix2 r l) = v136' (ix2 r' l)) :
    k0_pay21 v31 v110 v126 v134 v136 cst_32 (ix2 r l) = k0_pay21 v31' v110' v126' v134' v136' cst_32 (ix2 r' l) := by
  unfold k0_pay21
  simp only [select, mulf, cmpi, broadcast, shapeCast_self, Cert.LibKeepdims.broadcastTo_a1_ab_apply, h31, h126, h134, h136,
    pay19_congr h110 h134, pay20_congr h110 h134]

theorem pay1_congr {v31 v31' : IVec S8192x42 32} {v109 v109' v171 v171' : FVec F S8192x42 .f32}
    {v110 v110' v164 v164' v179 v179' : FVec F S8192x1 .f32} {v181 v181' : IVec S8192x42 1} (cst_47 : F .f32)
    (h31 : v31 (ix2 r l) = v31' (ix2 r' l)) (h109 : v109 (ix2 r l) = v109' (ix2 r' l))
    (h110 : v110 (ix2 r (0 : Fin 1)) = v110' (ix2 r' (0 : Fin 1))) (h164 : v164 (ix2 r (0 : Fin 1)) = v164' (ix2 r' (0 : Fin 1)))
    (h171 : v171 (ix2 r l) = v171' (ix2 r' l)) (h179 : v179 (ix2 r (0 : Fin 1)) = v179' (ix2 r' (0 : Fin 1)))
    (h181 : v181 (ix2 r l) = v181' (ix2 r' l)) :
    k0_pay1 v31 v109 v110 v164 v171 v179 v181 cst_47 (ix2 r l) = k0_pay1 v31' v109' v110' v164' v171' v179' v181' cst_47 (ix2 r' l) := by
  unfold k0_pay1
  simp only [select, mulf, subf, divf, cmpi, broadcast, shapeCast_self, Cert.LibKeepdims.broadcastTo_a1_ab_apply, h31, h109, h110,
    h164, h171, h179, h181]

end Read

/-- The stored value read at (r, l) and at (r', l), for row blocks that agree at rows r and r'. -/
theorem outOf_congr (v0 v1 : Vec F S1x42 .f32) {v2 v2' v4 v4' : Vec F S8192 .f32} {r r' : Fin 8192} (l : Fin 42)
    (h2 : v2 (ix1 r) = v2' (ix1 r')) (h4 : v4 (ix1 r) = v4' (ix1 r')) :
    outOf v0 v1 v2 v4 (ix2 r l) = outOf v0 v1 v2' v4' (ix2 r' l) := by
  have e3 := pay3_congr r r' l
  have e2 := pay2_congr h4
  have e4 := pay4_congr h2
  have e14 := pay14_congr e2
  have e17 := pay17_congr e2
  unfold outOf
  exact pay1_congr _ e3
    (pay13_congr _ e4
      (pay11_congr v1 e3 (pay5_congr v0 h2) (pay6_congr v0 h2) (pay7_congr v0 h2) (pay8_congr v0 h2) (pay9_congr r r' l)
        (pay10_congr r r' l))
      (pay12_congr e4))
    e14 (pay20_congr e14 e17) (pay21_congr _ e3 e14 (pay16_congr e2 e3) e17 (pay18_congr e3)) (pay22_congr e14 e17)
    (pay23_congr e3)

/-- ROW-LOCALITY: entry `(r, l)` of the stored value depends on the two row blocks at row `r` only. -/
theorem outOf_local (v0 v1 : Vec F S1x42 .f32) (v2 v2' v4 v4' : Vec F S8192 .f32) (r : Fin 8192) (l : Fin 42)
    (h2 : v2 (ix1 r) = v2' (ix1 r)) (h4 : v4 (ix1 r) = v4' (ix1 r)) :
    outOf v0 v1 v2 v4 (ix2 r l) = outOf v0 v1 v2' v4' (ix2 r l) :=
  outOf_congr v0 v1 l h2 h4

/-- ROW-UNIFORMITY: entry `(r, l)` is entry `(0, l)` of the value stored for blocks constant at row `r`'s entries. -/
theorem outOf_row (v0 v1 : Vec F S1x42 .f32) (v2 v4 : Vec F S8192 .f32) (r : Fin 8192) (l : Fin 42) :
    outOf v0 v1 v2 v4 (ix2 r l) = outOf v0 v1 (fun _ => v2 (ix1 r)) (fun _ => v4 (ix1 r)) (ix2 (0 : Fin 8192) l) :=
  outOf_congr v0 v1 l rfl rfl

/-! ## The body's run -/

set_option maxHeartbeats 1000000 in
/-- The kernel body on whole staging memrefs, the four inputs' at read contents x0 … x3 and the result's at anything:
    it runs to the continuation holding the inputs' as they were and the result's at the stored value outOf of them. -/
theorem sound_kernel (c : Dev nD) (E : Set ℕ) (i : grid0.Coords)
    (arg1 : Memref sig .tc .vmem S1x42 .f32) (harg1 : arg1.IsWhole) (arg2 : Memref sig .tc .vmem S1x42 .f32) (harg2 : arg2.IsWhole)
    (arg3 : Memref sig .tc .vmem S8192 .f32) (harg3 : arg3.IsWhole) (arg4 : Memref sig .tc .vmem S8192 .f32) (harg4 : arg4.IsWhole)
    (arg5 : Memref sig .tc .vmem S8192x42 .f32) (harg5 : arg5.IsWhole)
    (x0 x1 : Vec F S1x42 .f32) (x2 x3 : Vec F S8192 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outOf x0 x1 x2 x3)) -∗ K ⟨⟩))
      ⊢ wp frame (wpE (defs₀ (F := F)) Variants.none c none) E
          (cc0__basis_kernel i arg1 harg1 arg2 harg2 arg3 harg3 arg4 harg4 arg5 harg5) K := by
  simp only [cc0__basis_kernel_eq_skeleton]; unfold cc0__basis_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  have hz2 : (![0, 0] : Fin 2 → Nat) = fun _ => 0 := funext fun a => by fin_cases a <;> rfl
  have hz1 : (![0] : Fin 1 → Nat) = fun _ => 0 := funext fun a => by fin_cases a <;> rfl
  rw [View.read_writes_eq_canon _ _ _
      (fun y => ⟨_, List.mem_singleton_self _, View.mem_set_unit_zero hz2 inb_S8192x42_S8192x42_0_0 y⟩),
    View.canon_unit_zero hz2]
  -- the four loads are through the whole buffers: they read the contents
  show outOf (View.ld (arg1.view.read (Elt F) f0) (Rect.unit (s := S1x42) ![0, 0] S1x42.size inb_S1x42_S1x42_0_0))
      (View.ld (arg2.view.read (Elt F) f1) (Rect.unit (s := S1x42) ![0, 0] S1x42.size inb_S1x42_S1x42_0_0))
      (View.ld (arg3.view.read (Elt F) f2) (Rect.unit (s := S8192) ![0] S8192.size inb_S8192_S8192_0))
      (View.ld (arg4.view.read (Elt F) f3) (Rect.unit (s := S8192) ![0] S8192.size inb_S8192_S8192_0)) = _
  rw [View.ld_unit_zero hz2, View.ld_unit_zero hz2, View.ld_unit_zero hz1, View.ld_unit_zero hz1]

/-! ## The proof data -/

variable (m : (ℓ : Loc nD τ sig) → Buf (Elt F) ℓ) (ρ : Dev nD → PrngReg)

/-- The block of gathered distances at point `t`, filled out past the array's end with the zero word; -/
def dgblk (c : Dev nD) (t : Fin cfg0.N) : S8192.Idx → Elt F .f32 :=
  win0_2.fill (grid0.coords t) (fun _ => Scalar.ofBits .f32 0#32) (iblk m c 2 t)
/-- the block of angles likewise; -/
def angblk (c : Dev nD) (t : Fin cfg0.N) : S8192.Idx → Elt F .f32 :=
  win0_3.fill (grid0.coords t) (fun _ => Scalar.ofBits .f32 0#32) (iblk m c 3 t)
/-- and what the body stores from them. -/
def outblk (c : Dev nD) (t : Fin cfg0.N) : S8192x42.Idx → Elt F .f32 :=
  outOf (iblk m c 0 t) (iblk m c 1 t) (dgblk m c t) (angblk m c t)

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => dgblk m c t
    | ⟨3, _⟩ => angblk m c t
    | ⟨4, _⟩ => outblk m c t
  Φ _ := Pipeline.ΦA spec0 c
  q _ := fullShare
  owed _ := 0

/-- The kernel's variants: none. -/
abbrev 𝒱₀ : Variants := Variants.none

/-! ## What the body finds and leaves in each window's buffer -/

/-- What the body leaves, window by window (the proof data's match reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = dgblk m c t := by dsimp only [dats]
theorem after0_3 (c : Dev nD) (t : Fin cfg0.N) : (dats m 0 c).after 3 t = angblk m c t := by dsimp only [dats]
theorem after0_4 (c : Dev nD) (t : Fin cfg0.N) : (dats m 0 c).after 4 t = outblk m c t := by dsimp only [dats]

/-- The two tables' buffers hold the tables at every point, fetched there or not. -/
theorem before0_0 (c : Dev nD) (t : Fin cfg0.N) (d) : (dats m 0 c).before 0 t d = iblk m c 0 t :=
  before0_0_of m (dats m 0 c) rfl (fun _ => rfl) t d
theorem before0_1 (c : Dev nD) (t : Fin cfg0.N) (d) : (dats m 0 c).before 1 t d = iblk m c 1 t :=
  before0_1_of m (dats m 0 c) rfl (fun _ => rfl) t d

/-- The two row blocks' buffers are fetched at every point: each holds its block on the rows inside the array and
    anything on the rows past the array's end. -/
theorem before0_2 (c : Dev nD) (t : Fin cfg0.N) (d) :
    (dats m 0 c).before 2 t d = win0_2.fill (grid0.coords t) d (iblk m c 2 t) := by
  rw [Dat.before_fetched _ 2 t (fetch0_2 t)]
  unfold Dat.fetched Dat.blockOf iblk
  dsimp only [dats]
theorem before0_3 (c : Dev nD) (t : Fin cfg0.N) (d) :
    (dats m 0 c).before 3 t d = win0_3.fill (grid0.coords t) d (iblk m c 3 t) := by
  rw [Dat.before_fetched _ 3 t (fetch0_3 t)]
  unfold Dat.fetched Dat.blockOf iblk
  dsimp only [dats]

/-- The result's buffer is written back at every point and never fetched: the body finds anything there. -/
theorem before0_4 (c : Dev nD) (t : Fin cfg0.N) (d) : (dats m 0 c).before 4 t d = d := by
  refine Dat.before_out_reset _ 4 rfl t ?_ d
  by_cases ht : t.val = 0
  · exact .inl ht
  · exact .inr ⟨ht, flush0_4 _⟩

/-! ## The rows written back are rows fetched -/

/-- The row blocks' windows and the result's window have blocks of 8192 rows over 2,000,000 rows at the same block
    index: their transfers move the same number of rows. -/
theorem xsize_2_eq_4 (i : grid0.Coords) : win0_2.xsize i 0 = win0_4.xsize i 0 := rfl
theorem xsize_3_eq_4 (i : grid0.Coords) : win0_3.xsize i 0 = win0_4.xsize i 0 := rfl

/-- On the part a transfer moves, a filled block does not depend on what it was filled out with. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- A row of the part of the result block that is written back is a row of the fetched part of the block of
    gathered distances, -/
theorem moved_2_of_4 (i : grid0.Coords) (j : (win0_4.xblock i).Idx) :
    win0_2.moved i (ix1 (win0_4.xinj i j 0)) = true :=
  (win0_2.moved_iff i _).mpr fun a => by
    match a with
    | ⟨0, _⟩ => exact (xsize_2_eq_4 i).symm ▸ (j 0).isLt
/-- and of the block of angles. -/
theorem moved_3_of_4 (i : grid0.Coords) (j : (win0_4.xblock i).Idx) :
    win0_3.moved i (ix1 (win0_4.xinj i j 0)) = true :=
  (win0_3.moved_iff i _).mpr fun a => by
    match a with
    | ⟨0, _⟩ => exact (xsize_3_eq_4 i).symm ▸ (j 0).isLt

/-- So, whatever words the two row blocks' buffers hold on the rows past the array's end, the rows of the stored value
    that are written back are those of outblk: the stored value is row-wise in the two blocks (outOf_local). -/
theorem cut_outOf (c : Dev nD) (t : Fin cfg0.N) (d2 d3 : S8192.Idx → Elt F .f32) :
    win0_4.cut (grid0.coords t)
        (outOf (iblk m c 0 t) (iblk m c 1 t) (win0_2.fill (grid0.coords t) d2 (iblk m c 2 t))
          (win0_3.fill (grid0.coords t) d3 (iblk m c 3 t)))
      = win0_4.cut (grid0.coords t) (outblk m c t) := by
  funext j
  show outOf _ _ _ _ (win0_4.xinj (grid0.coords t) j) = outOf _ _ (dgblk m c t) (angblk m c t) (win0_4.xinj (grid0.coords t) j)
  rw [eq_ix2 (win0_4.xinj (grid0.coords t) j)]
  exact outOf_local _ _ _ _ _ _ _ _
    (fill_eq_of_moved win0_2 _ _ _ _ (moved_2_of_4 _ j)) (fill_eq_of_moved win0_3 _ _ _ _ (moved_3_of_4 _ j))

/-- The library's body obligation, from the body's run at the point's staging buffers: the tables' buffers arrive holding
    the tables, the two row blocks' holding their blocks filled out with anything past the array's end, the result's
    holding anything; the first four leave as they came and the result's holding the stored value, whose rows inside the
    array are outblk's (cut_outOf) — all the three loose windows' obligations ask. -/
theorem body_obligation (c : Dev nD) : BodyObligationLoose (dats m 0 c) (defs₀ (F := F)) 𝒱₀ () Set.univ := fun t => by
  rw [bigSep_W0, bigSep_W0]
  -- no point is idle; windows 2, 3 and 4 are loose (the matches reduce)
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4,
    after0_0, after0_1, after0_2, after0_3, after0_4]
  iapply (sound_kernel (F := F) c Set.univ (grid0.coords t) _ _ _ _ _ _ _ _ _ _ (iblk m c 0 t) (iblk m c 1 t)
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]; · iexact H0
  isplitl [H1]; · iexact H1
  isplitl [H2]
  · iexists d2
    rw [show win0_2.cut (grid0.coords t) (dgblk m c t) = iblk m c 2 t from win0_2.cut_fill _ _ _]
    iexact H2
  isplitl [H3]
  · iexists d3
    rw [show win0_3.cut (grid0.coords t) (angblk m c t) = iblk m c 3 t from win0_3.cut_fill _ _ _]
    iexact H3
  · iexists outOf (iblk m c 0 t) (iblk m c 1 t) (win0_2.fill (grid0.coords t) d2 (iblk m c 2 t))
      (win0_3.fill (grid0.coords t) d3 (iblk m c 3 t))
    rw [win0_4.fill_congr_cut (grid0.coords t) (cut_outOf m c t d2 d3)]
    iexact H4

/-- The proof data's arrays are the contents the region finds. -/
theorem A_eq (c : Dev nD) (w : Fin cfg0.W) : (dats m 0 c).A w = V m c (Pipeline.arrRef spec0 w) := by
  dsimp only [dats]

set_option backward.isDefEq.respectTransparency.types false in
/-- THE FRAME RUN. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := body_obligation m) (hshare := fun c => (dats m 0 c).share_full fun _ => rfl)
    (howed := fun _ _ => rfl) (V := V m) (hmain := hmain m 𝒱₀) (hA := A_eq m) (hΦ := fun _ _ => rfl)

end Cert.KernelIdeal.Body

end
-- ==== Proof.KValue.lean ====
/-
  What the region leaves in the result array: ONE function of the arrays it finds. Row `a` of the result depends on the
  two tables and on entry `a` of the gathered distances and of the angles only, so it is the stored value of blocks
  constant at those two entries, read at row 0 (`KG`). Every row of the array lies in the block of the point
  `a / 8192`, inside the part of that block that is written back.
-/
import proofs.«404429_j65481071394972_3_alg».proof.Proof.BodyKI

set_option maxRecDepth 16384

noncomputable section

namespace Cert.KernelIdeal.KValue

open Cert.KernelIdeal Cert.KernelIdeal.Gen Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The result as one function of the two tables, the gathered distances and the angles. -/
def KG (z n : Vec F S1x42 .f32) (dg ang : Vec F S2000000 .f32) : FVec F S2000000x42 .f32 :=
  fun i => outOf z n (fun _ => dg (ix1 (i 0))) (fun _ => ang (ix1 (i 0))) (ix2 (0 : Fin 8192) (i 1))

/-! ## The index maps at a point of the grid -/

/-- At point `t` the two row windows and the result window sit at block `t`, the two tables at block 0. -/
theorem idx_facts : ∀ t : Fin cfg0.N,
    win0_4.index t (0 : Fin 2) = t.val ∧ win0_4.index t (1 : Fin 2) = 0
    ∧ win0_2.index t (0 : Fin 1) = t.val ∧ win0_3.index t (0 : Fin 1) = t.val
    ∧ win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The part of a row block at point `t` that lies inside its array has `min 8192 (2000000 - 8192 t)` rows, and the
    result block keeps its 42 lanes. -/
theorem xs_facts : ∀ t : Fin cfg0.N,
    win0_4.xsize (grid0.coords t) (0 : Fin 2) = min 8192 (2000000 - t.val * 8192)
    ∧ win0_4.xsize (grid0.coords t) (1 : Fin 2) = 42
    ∧ win0_2.xsize (grid0.coords t) (0 : Fin 1) = min 8192 (2000000 - t.val * 8192)
    ∧ win0_3.xsize (grid0.coords t) (0 : Fin 1) = min 8192 (2000000 - t.val * 8192) :=
  (by decide +kernel : ∀ t : Fin grid0.N, _)

/-! ## The blocks the body loads, read at an entry -/

/-- An entry of the block of gathered distances at point `t` is the array's entry the block's rectangle sends it to; -/
theorem iblk2_apply (c : Dev nD) (t : Fin cfg0.N) (x : ((cfg0.win 2).xblock (cfg0.grid.coords t)).Idx) :
    iblk m c 2 t x = V m c main_v0 (((cfg0.win 2).blk t).view.emb x) := by
  unfold iblk
  rw [View.read_apply]
  exact cast_eq _ _

/-- an entry of the block of angles likewise. -/
theorem iblk3_apply (c : Dev nD) (t : Fin cfg0.N) (x : ((cfg0.win 3).xblock (cfg0.grid.coords t)).Idx) :
    iblk m c 3 t x = V m c main_arg1 (((cfg0.win 3).blk t).view.emb x) := by
  unfold iblk
  rw [View.read_apply]
  exact cast_eq _ _

/-- The block of the table of zeros at any point is the whole table; -/
theorem tab0_eq (c : Dev nD) (t : Fin cfg0.N) : (iblk m c 0 t : Vec F S1x42 .f32) = V m c main_cst := by
  obtain ⟨-, -, -, -, e0, e1, -⟩ := idx_facts t
  funext y
  unfold iblk
  rw [View.read_apply]
  refine (cast_eq _ _).trans (congrArg (V m c main_cst) (funext fun a => Fin.ext ?_))
  match a with
  | ⟨0, _⟩ => show win0_0.index t (0 : Fin 2) * 1 + 1 * (y 0).val = (y 0).val; rw [e0]; omega
  | ⟨1, _⟩ => show win0_0.index t (1 : Fin 2) * 42 + 1 * (y 1).val = (y 1).val; rw [e1]; omega

/-- the block of the table of normalisers likewise. -/
theorem tab1_eq (c : Dev nD) (t : Fin cfg0.N) : (iblk m c 1 t : Vec F S1x42 .f32) = V m c main_cst_0 := by
  obtain ⟨-, -, -, -, -, -, e0, e1⟩ := idx_facts t
  funext y
  unfold iblk
  rw [View.read_apply]
  refine (cast_eq _ _).trans (congrArg (V m c main_cst_0) (funext fun a => Fin.ext ?_))
  match a with
  | ⟨0, _⟩ => show win0_1.index t (0 : Fin 2) * 1 + 1 * (y 0).val = (y 0).val; rw [e0]; omega
  | ⟨1, _⟩ => show win0_1.index t (1 : Fin 2) * 42 + 1 * (y 1).val = (y 1).val; rw [e1]; omega

/-- Row `r` of the block of gathered distances at point `t`, a row inside the array, is entry `8192 t + r` of the
    array of gathered distances; -/
theorem dgblk_apply (c : Dev nD) (t : Fin cfg0.N) (r : Fin 8192) (a : Fin 2000000)
    (hr : r.val < min 8192 (2000000 - t.val * 8192)) (ha : a.val = t.val * 8192 + r.val) :
    dgblk m c t (ix1 r) = V m c main_v0 (ix1 a) := by
  obtain ⟨-, -, e2, -⟩ := idx_facts t
  obtain ⟨-, -, x2, -⟩ := xs_facts t
  have hmv : win0_2.moved (grid0.coords t) (ix1 r) = true :=
    (win0_2.moved_iff (grid0.coords t) (ix1 r)).mpr fun b => by
      match b with
      | ⟨0, _⟩ => show r.val < win0_2.xsize (grid0.coords t) (0 : Fin 1); rw [x2]; exact hr
  unfold dgblk Window.fill
  rw [dif_pos hmv, iblk2_apply]
  refine congrArg (V m c main_v0) (funext fun b => Fin.ext ?_)
  match b with
  | ⟨0, _⟩ => show win0_2.index t (0 : Fin 1) * 8192 + 1 * r.val = a.val; rw [e2, ha]; omega

/-- row `r` of the block of angles is entry `8192 t + r` of the array of angles. -/
theorem angblk_apply (c : Dev nD) (t : Fin cfg0.N) (r : Fin 8192) (a : Fin 2000000)
    (hr : r.val < min 8192 (2000000 - t.val * 8192)) (ha : a.val = t.val * 8192 + r.val) :
    angblk m c t (ix1 r) = V m c main_arg1 (ix1 a) := by
  obtain ⟨-, -, -, e3, -⟩ := idx_facts t
  obtain ⟨-, -, -, x3⟩ := xs_facts t
  have hmv : win0_3.moved (grid0.coords t) (ix1 r) = true :=
    (win0_3.moved_iff (grid0.coords t) (ix1 r)).mpr fun b => by
      match b with
      | ⟨0, _⟩ => show r.val < win0_3.xsize (grid0.coords t) (0 : Fin 1); rw [x3]; exact hr
  unfold angblk Window.fill
  rw [dif_pos hmv, iblk3_apply]
  refine congrArg (V m c main_arg1) (funext fun b => Fin.ext ?_)
  match b with
  | ⟨0, _⟩ => show win0_3.index t (0 : Fin 1) * 8192 + 1 * r.val = a.val; rw [e3, ha]; omega

/-! ## What point `t` writes back -/

/-- Entry `(r, l)` of what the body stores at point `t`, for a row `r` inside the array, is entry `(8192 t + r, l)` of
    `KG` of the arrays the region finds. -/
theorem outblk_apply (c : Dev nD) (t : Fin cfg0.N) (r : Fin 8192) (l : Fin 42) (a : Fin 2000000)
    (hr : r.val < min 8192 (2000000 - t.val * 8192)) (ha : a.val = t.val * 8192 + r.val) :
    outblk m c t (ix2 r l)
      = KG (V m c main_cst) (V m c main_cst_0) (V m c main_v0) (V m c main_arg1) (ix2 a l) := by
  unfold outblk
  rw [outOf_row (iblk m c 0 t) (iblk m c 1 t) (dgblk m c t) (angblk m c t) r l, tab0_eq, tab1_eq,
    dgblk_apply m c t r a hr ha, angblk_apply m c t r a hr ha]
  rfl

/-- WHAT POINT `t` WRITES BACK is block `t` of `KG` of the arrays the region finds: row `r` of the part written back is
    row `8192 t + r` of the array, and the lanes are the array's. -/
theorem flushed4_eq (c : Dev nD) (t : Fin cfg0.N) :
    (dats m 0 c).flushed 4 t
      = ((cfg0.win 4).blk t).view.read (Elt F)
          (KG (V m c main_cst) (V m c main_cst_0) (V m c main_v0) (V m c main_arg1)) := by
  obtain ⟨e40, e41, -⟩ := idx_facts t
  obtain ⟨x40, x41, -⟩ := xs_facts t
  funext j
  have hj0 : (j (0 : Fin 2)).val < win0_4.xsize (grid0.coords t) (0 : Fin 2) := (j (0 : Fin 2)).isLt
  have hj1 : (j (1 : Fin 2)).val < win0_4.xsize (grid0.coords t) (1 : Fin 2) := (j (1 : Fin 2)).isLt
  rw [x40] at hj0
  rw [x41] at hj1
  have hx : win0_4.xinj (grid0.coords t) j
      = ix2 (⟨(j (0 : Fin 2)).val, by omega⟩ : Fin 8192) (⟨(j (1 : Fin 2)).val, hj1⟩ : Fin 42) := by
    funext b
    match b with
    | ⟨0, _⟩ => rfl
    | ⟨1, _⟩ => rfl
  have hk : ((cfg0.win 4).blk t).view.emb j
      = ix2 (⟨t.val * 8192 + (j (0 : Fin 2)).val, by omega⟩ : Fin 2000000) (⟨(j (1 : Fin 2)).val, hj1⟩ : Fin 42) := by
    funext b; apply Fin.ext
    match b with
    | ⟨0, _⟩ =>
      show win0_4.index t (0 : Fin 2) * 8192 + 1 * (j (0 : Fin 2)).val = t.val * 8192 + (j (0 : Fin 2)).val
      rw [e40]; omega
    | ⟨1, _⟩ =>
      show win0_4.index t (1 : Fin 2) * 42 + 1 * (j (1 : Fin 2)).val = (j (1 : Fin 2)).val
      rw [e41]; omega
  show outblk m c t (win0_4.xinj (grid0.coords t) j) = _
  rw [View.read_apply, hx, hk]
  exact (outblk_apply m c t _ _ _ hj0 rfl).trans (cast_eq _ _).symm

/-! ## The blocks cover the array -/

/-- An entry of the result array is in point `t`'s block iff, on each axis, its coordinate is in the range of the
    part of the block that lies inside the array. -/
theorem mem_blk4 (t : Fin cfg0.N) (i : S2000000x42.Idx) :
    i ∈ ((cfg0.win 4).blk t).view.set
      ↔ ∀ a : Fin 2, win0_4.index t a * S8192x42.size a ≤ (i a).val
          ∧ (i a).val < win0_4.index t a * S8192x42.size a + win0_4.xsize (grid0.coords t) a := by
  show i ∈ ((View.whole main_v1).slice (win0_4.rect t)).set ↔ _
  rw [View.set_slice_whole, Rect.mem_set_unit]
  exact Iff.rfl

/-- Row `a` of the result array lies in the block of the point `a / 8192`, which is written back. -/
theorem cover4 (i : S2000000x42.Idx) :
    ∃ t : Fin cfg0.N, (cfg0.win 4).flush t = true ∧ i ∈ ((cfg0.win 4).blk t).view.set := by
  have hi0 : (i (0 : Fin 2)).val < 2000000 := (i (0 : Fin 2)).isLt
  have hi1 : (i (1 : Fin 2)).val < 42 := (i (1 : Fin 2)).isLt
  obtain ⟨t, ht⟩ : ∃ t : Fin cfg0.N, t.val = (i (0 : Fin 2)).val / 8192 :=
    ⟨⟨(i (0 : Fin 2)).val / 8192, by rw [show cfg0.N = 245 from N_0]; omega⟩, rfl⟩
  obtain ⟨e40, e41, -⟩ := idx_facts t
  obtain ⟨x40, x41, -⟩ := xs_facts t
  refine ⟨t, flush0_4 t, ?_⟩
  rw [mem_blk4]
  intro a
  match a with
  | ⟨0, _⟩ =>
    show win0_4.index t (0 : Fin 2) * 8192 ≤ (i (0 : Fin 2)).val
      ∧ (i (0 : Fin 2)).val < win0_4.index t (0 : Fin 2) * 8192 + win0_4.xsize (grid0.coords t) (0 : Fin 2)
    rw [e40, x40, ht]; omega
  | ⟨1, _⟩ =>
    show win0_4.index t (1 : Fin 2) * 42 ≤ (i (1 : Fin 2)).val
      ∧ (i (1 : Fin 2)).val < win0_4.index t (1 : Fin 2) * 42 + win0_4.xsize (grid0.coords t) (1 : Fin 2)
    rw [e41, x41]; omega

/-- The result array after the last write-back. -/
theorem final4 (c : Dev nD) :
    (dats m 0 c).arrAt 4 cfg0.N = KG (V m c main_cst) (V m c main_cst_0) (V m c main_v0) (V m c main_arg1) :=
  (dats m 0 c).arrAt_eq_of_cover 4 (KG (V m c main_cst) (V m c main_cst_0) (V m c main_v0) (V m c main_arg1))
    (fun t _ => flushed4_eq m c t) cover4

/-- THE RUN WITH ITS VALUE: every weakly fair execution of @main terminates, the result array at `KG` of what the region
    finds, the three arguments unchanged. -/
theorem run_value :
    θ_run defs (onTc (τ := τ) (main (F := F))) ⟨m, fun _ => 0, ρ⟩ (fun r => ∀ c : Dev nD,
      r.2.mem ((c.tc : Thread nD τ).loc main_v1)
        = KG (V m c main_cst) (V m c main_cst_0) (V m c main_v0) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 4).trans ((final4 m c).trans
        (congrArg (KG (V m c main_cst) (V m c main_cst_0) (V m c main_v0)) (V_main_arg1 m c))),
      ((h c).2 main_arg0 (Pipeline.mem_restRefs_of main_arg0 (by decide) (by decide))).trans (V_main_arg0 m c),
      ((h c).1 3).trans (((dats m 0 c).arrAt_in 3 rfl _).trans (V_main_arg1 m c)),
      ((h c).2 main_arg2 (Pipeline.mem_restRefs_of main_arg2 (by decide) (by decide))).trans (V_main_arg2 m c)⟩)
    (run_main m ρ)

end Cert.KernelIdeal.KValue

end
-- ==== Proof.Spec.lean ====
/-
  The entry both programs compute, over the extended reals.

  For a distance `x`, an angle `θ`, and the column's zero `z` and normaliser `n` of the Bessel table, the entry of
  column `6·l + k` is
      N · j_l(z · x/5) · u(x/5) · c_l · P_l(cos θ),
  with `j_l` the spherical Bessel functions by the upward recurrence from `j_0 = sin t / t` and
  `j_1 = sin t / t² − cos t / t`, `u(s) = 1 − 21 s⁵ + 35 s⁶ − 15 s⁷` the polynomial envelope, and `c_l · P_l` the
  normalised Legendre polynomials by Bonnet's recurrence. Every operation is the extended reals' own, in the order and
  association both programs use; a float literal stays the value of its word. The two programs differ in one place:
  one multiplies the Bessel part by the envelope on the right, the other on the left (`cellR_eq_cellK`).
-/
import Idealize.ShloMosaic.PureOps.Ideal
import Idealize.ShloMosaic.Lib.ValueIdx

noncomputable section

namespace Cert.Spec

open Idealize.ShloMosaic

/-- The value of an f32 word. -/
abbrev lit (w : BitVec 32) : EReal := Ideal.ofBits .f32 w

/-- `j_0 … j_6` at `t`, by the upward recurrence `j_{l+1} = (2l+1)/t · j_l − j_{l−1}`. -/
def bes (t : EReal) : Fin 7 → EReal :=
  let s := Ideal.sin t
  let c := Ideal.cos t
  let j0 := Ideal.div s t
  let j1 := Ideal.div s (t * t) - Ideal.div c t
  let j2 := Ideal.div (lit 0x40400000#32) t * j1 - j0
  let j3 := Ideal.div (lit 0x40A00000#32) t * j2 - j1
  let j4 := Ideal.div (lit 0x40E00000#32) t * j3 - j2
  let j5 := Ideal.div (lit 0x41100000#32) t * j4 - j3
  let j6 := Ideal.div (lit 0x41300000#32) t * j5 - j4
  ![j0, j1, j2, j3, j4, j5, j6]

/-- The envelope `u(s) = 1 − 21 s⁵ + 35 s⁶ − 15 s⁷`, the powers as the products `s·(s²·s²)`, `s²·(s²·s²)`,
    `(s·s²)·(s²·s²)`. -/
def env (s : EReal) : EReal :=
  let q := s * s
  ((lit 0x3F800000#32 - lit 0x41A80000#32 * (s * (q * q))) + lit 0x420C0000#32 * (q * (q * q)))
    - lit 0x41700000#32 * ((s * q) * (q * q))

/-- `c_l · P_l(ct)` for `l = 0 … 6`: `P_0 = 1`, `P_1 = ct`, `P_{l} = ((2l−1)·ct·P_{l−1} − (l−1)·P_{l−2}) / l`. -/
def leg (ct : EReal) : Fin 7 → EReal :=
  let one := lit 0x3F800000#32
  let p2 := Ideal.div ((lit 0x40400000#32 * ct) * ct - one * one) (lit 0x40000000#32)
  let p3 := Ideal.div ((lit 0x40A00000#32 * ct) * p2 - lit 0x40000000#32 * ct) (lit 0x40400000#32)
  let p4 := Ideal.div ((lit 0x40E00000#32 * ct) * p3 - lit 0x40400000#32 * p2) (lit 0x40800000#32)
  let p5 := Ideal.div ((lit 0x41100000#32 * ct) * p4 - lit 0x40800000#32 * p3) (lit 0x40A00000#32)
  let p6 := Ideal.div ((lit 0x41300000#32 * ct) * p5 - lit 0x40A00000#32 * p4) (lit 0x40C00000#32)
  ![one * lit 0x3E906EBB#32, ct * lit 0x3EFA2A1C#32, p2 * lit 0x3F217B01#32, p3 * lit 0x3F3F10F8#32,
    p4 * lit 0x3F58A618#32, p5 * lit 0x3F6F83A7#32, p6 * lit 0x3F823092#32]

/-- The scaled distance `x / 5`. -/
def scaled (x : EReal) : EReal := Ideal.div x (lit 0x40A00000#32)

/-- The radial factor with the envelope on the right: `(j_l(s·z) · n) · u(s)`. -/
def radK (z n x : EReal) (l : Fin 7) : EReal := (bes (scaled x * z) l * n) * env (scaled x)
/-- The radial factor with the envelope on the left: `u(s) · (j_l(s·z) · n)`. -/
def radR (z n x : EReal) (l : Fin 7) : EReal := env (scaled x) * (bes (scaled x * z) l * n)

theorem radR_eq_radK (z n x : EReal) (l : Fin 7) : radR z n x l = radK z n x l := mul_comm _ _

/-- The angular factor. -/
def angf (θ : EReal) (l : Fin 7) : EReal := leg (Ideal.cos θ) l

/-- The entry, the radial factor in either order. -/
def cellK (z n x θ : EReal) (l : Fin 7) : EReal := radK z n x l * angf θ l
def cellR (z n x θ : EReal) (l : Fin 7) : EReal := radR z n x l * angf θ l

theorem cellR_eq_cellK (z n x θ : EReal) (l : Fin 7) : cellR z n x θ l = cellK z n x θ l := by
  unfold cellR cellK; rw [radR_eq_radK]

/-- A start index as both programs normalise it: a negative index wraps by the table's length, 500000. -/
def nrm (w : BitVec 32) : BitVec 32 := Scalar.select (IntOp.cmpi .slt w 0#32) (IntOp.addi w 500000#32) w

/-- The table row position `a` reads: its normalised start index, read signed and clamped into the table. -/
def rowOf (kj : (⟨1, ![2000000]⟩ : Shape).Idx → BitVec 32) (a : Fin 2000000) : Fin 500000 :=
  ⟨min (nrm (kj (ValueIdx.ix1 a))).toInt.toNat (500000 - 1), by omega⟩

/-- The Bessel family of a column `j` of the 42: `j / 6`. -/
def fam (j : Fin 42) : Fin 7 := ⟨j.val / 6, by have := j.isLt; omega⟩

end Cert.Spec

end
-- ==== Proof.Prefix.lean ====
/-
  What the region finds in the arrays the host operations before it write: the two 1x42 tables are their literals, and
  the gathered distances are, position by position, the distance at the row the position's start index names —
  provided every start index lies in [-500000, 500000): then the normalised index lies in [0, 499999], the range test
  of the gather passes at every position, and the fill value is never selected.
-/
import proofs.«404429_j65481071394972_3_alg».proof.Proof.Gen.KernelIdeal.Frame
import proofs.«404429_j65481071394972_3_alg».proof.Proof.Gen.Pre_finite_inputs
import proofs.«404429_j65481071394972_3_alg».proof.Proof.Spec
import Idealize.ShloMosaic.Lib.StableHlo.Predicate
import Idealize.ShloMosaic.Lib.StableHlo.Run
import Idealize.ShloMosaic.Lib.ReduceAll
import Idealize.ShloMosaic.Lib.ValueIdx

set_option maxRecDepth 16384

noncomputable section

namespace Cert.KernelIdeal.Prefix

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- The table of zeros as the region finds it. -/
theorem V_cst (c : Dev nD) : V m c main_cst = fun i => FloatOps.ofBits .f32 (lit0 (S1x42.rowMajor i)) := by
  dsimp only [Gen.V]
  simp only [Gen.hostOps0, Gen.hostOps0_1, List.flatten_cons, List.flatten_nil, List.append_nil, List.cons_append,
    List.nil_append]
  after_results
  rfl

/-- The table of normalisers as the region finds it. -/
theorem V_cst_0 (c : Dev nD) : V m c main_cst_0 = fun i => FloatOps.ofBits .f32 (lit1 (S1x42.rowMajor i)) := by
  dsimp only [Gen.V]
  simp only [Gen.hostOps0, Gen.hostOps0_1, List.flatten_cons, List.flatten_nil, List.append_nil, List.cons_append,
    List.nil_append]
  after_results
  rfl

/-! ## Words: the precondition's bounds and the normalised start index -/

theorem toInt_lo : (4294467296#32 : BitVec 32).toInt = -500000 := by decide
theorem toInt_hi : (500000#32 : BitVec 32).toInt = 500000 := by decide
theorem toInt_top : (499999#32 : BitVec 32).toInt = 499999 := by decide
theorem toInt_zero32 : (0#32 : BitVec 32).toInt = 0 := by decide

theorem select_of_one {α : Type} {b : BitVec 1} (h : b = 1#1) (x y : α) : Scalar.select b x y = x := if_pos h
theorem select_of_ne_one {α : Type} {b : BitVec 1} (h : ¬b = 1#1) (x y : α) : Scalar.select b x y = y := if_neg h

/-- A start index in [-500000, 500000) normalises into [0, 499999]: a negative one is moved up by 500000 without
    wrapping, a nonnegative one is kept. -/
theorem nrm_toInt (w : BitVec 32) (hlo : -500000 ≤ w.toInt) (hhi : w.toInt < 500000) :
    0 ≤ (Cert.Spec.nrm w).toInt ∧ (Cert.Spec.nrm w).toInt ≤ 499999 := by
  unfold Cert.Spec.nrm
  by_cases hneg : w.toInt < 0
  · have hc : IntOp.cmpi .slt w 0#32 = 1#1 := IntOp.cmpi_slt.2 (by rw [toInt_zero32]; exact hneg)
    rw [select_of_one hc]
    have e : (IntOp.addi w 500000#32).toInt = w.toInt + 500000 := by
      show (w + 500000#32).toInt = _
      rw [BitVec.toInt_add, toInt_hi]
      exact Int.bmod_eq_of_le (by omega) (by omega)
    rw [e]; omega
  · have hc : ¬IntOp.cmpi .slt w 0#32 = 1#1 := fun h => hneg (by have := IntOp.cmpi_slt.1 h; rwa [toInt_zero32] at this)
    rw [select_of_ne_one hc]; omega

/-- The range test of the take passes on a normalised index. -/
theorem range_test (w : BitVec 32) (hlo : -500000 ≤ w.toInt) (hhi : w.toInt < 500000) :
    IntOp.andi (IntOp.cmpi .sge (Cert.Spec.nrm w) 0#32) (IntOp.cmpi .sle (Cert.Spec.nrm w) 499999#32) = 1#1 := by
  obtain ⟨h0, h1⟩ := nrm_toInt w hlo hhi
  exact IntOp.andi_eq_one.2 ⟨IntOp.cmpi_sge.2 (by rw [toInt_zero32]; exact h0), IntOp.cmpi_sle.2 (by rw [toInt_top]; exact h1)⟩

/-! ## An and-reduction of ones -/

theorem andi_one_one : IntOp.andi 1#1 1#1 = 1#1 := by decide

theorem foldl_andi_ones {ι : Type} (f : ι → BitVec 1) (hf : ∀ n, f n = 1#1) :
    ∀ l : List ι, l.foldl (fun r n => IntOp.andi r (f n)) 1#1 = 1#1
  | [] => rfl
  | a :: l => by rw [List.foldl_cons, hf a, andi_one_one]; exact foldl_andi_ones f hf l

/-- A reduction by and, from 1, of an array of ones is 1 at every result position. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  unfold Host.reduce
  rw [hinit]
  exact foldl_andi_ones (fun n => x (s.rowMajor.symm n)) (fun n => hx _) _

/-! ## Indices -/

theorem ofFin_eq_ix1 {n : Nat} (p : Fin n) : Shape.Idx.ofFin p = ix1 p := by
  funext d; match d with | ⟨0, _⟩ => rfl

/-- An index of an [n × 1] column is (its row, 0). -/
theorem eq_ixP {n : Nat} (i : (⟨2, ![n, 1]⟩ : Shape).Idx) : i = StableHlo.Predicate.ixP (i 0) := by
  funext b
  match b with
  | ⟨0, _⟩ => rfl
  | ⟨1, _⟩ => exact Fin.ext (by have := idx2_lt1 i; show (i 1).val = 0; omega)

/-! ## The take, operation by operation -/

section Take

variable (kj : IVec S2000000 32)

/-- The start indices normalised. -/
def nidx : IVec S2000000 32 :=
  select (cmpi .slt kj (broadcastInDim S2000000 ![] bcast_S_S2000000 (constantI S_ 32 0#32)))
    (addi kj (broadcastInDim S2000000 ![] bcast_S_S2000000 (constantI S_ 32 500000#32))) kj

theorem nidx_apply (i : S2000000.Idx) : nidx kj i = Cert.Spec.nrm (kj i) := rfl

/-- The normalised start indices as a column. -/
def col : IVec S2000000x1 32 := broadcastInDim S2000000x1 ![0] bcast_S2000000_S2000000x1_0 (nidx kj)

theorem col_apply (p : Fin 2000000) : col kj (StableHlo.Predicate.ixP p) = Cert.Spec.nrm (kj (ix1 p)) := by
  unfold col
  rw [StableHlo.Predicate.bcast_col1, nidx_apply, ofFin_eq_ix1]

/-- The range test of each start index: at least 0 and at most 499999. -/
def okMask : IVec S2000000x1 1 :=
  andi (cmpi .sge (col kj) (broadcastInDim S2000000x1 ![] bcast_S_S2000000x1 (constantI S_ 32 0#32)))
    (cmpi .sle (col kj) (broadcastInDim S2000000x1 ![0, 1] bcast_S1x1_S2000000x1_0_1
      (broadcastInDim S1x1 ![1] bcast_S1_S1x1_1 (constantI S1 32 499999#32))))

theorem okMask_apply (i : S2000000x1.Idx) :
    okMask kj i = IntOp.andi (IntOp.cmpi .sge (col kj i) 0#32) (IntOp.cmpi .sle (col kj i) 499999#32) := rfl

/-- The range test reduced over the unit axis. -/
def inRange : IVec S2000000 1 :=
  Host.reduce IntOp.andi (okMask kj) (constantI S_ 1 1#1) reducesTo_S2000000x1_S2000000_d1 h_S_

/-- The take: the gathered value where the range test holds, else the fill word. -/
def taken (d : FVec F S500000 .f32) : FVec F S2000000 .f32 :=
  select (inRange kj) (Host.gather gather_S500000_S2000000x1_S2000000_n_0_n_n_0_1_1 d (col kj))
    (broadcastInDim S2000000 ![] bcast_S_S2000000 (constant S_ .f32 0x7FC00000#32))

variable (hkj : ∀ p : Fin 2000000, -500000 ≤ (kj (ix1 p)).toInt ∧ (kj (ix1 p)).toInt < 500000)
include hkj

theorem okMask_one (i : S2000000x1.Idx) : okMask kj i = 1#1 := by
  obtain ⟨p, rfl⟩ : ∃ p : Fin 2000000, i = StableHlo.Predicate.ixP p := ⟨i 0, eq_ixP i⟩
  rw [okMask_apply, col_apply]
  exact range_test _ (hkj p).1 (hkj p).2

theorem inRange_one (j : S2000000.Idx) : inRange kj j = 1#1 :=
  reduce_andi_ones _ _ _ _ (okMask_one kj hkj) rfl j

/-- With every start index in range the take reads, at each position, the table at the row the position names. -/
theorem taken_apply (d : FVec F S500000 .f32) (a : S2000000.Idx) :
    taken kj d a = d (ix1 (Cert.Spec.rowOf kj (a 0))) := by
  obtain ⟨p, rfl⟩ : ∃ p : Fin 2000000, a = ix1 p := ⟨a 0, eq_ix1 a⟩
  unfold taken
  rw [select_apply, inRange_one kj hkj, select_one]
  refine ((congrArg (Host.gather gather_S500000_S2000000x1_S2000000_n_0_n_n_0_1_1 d (col kj)) (ofFin_eq_ix1 p).symm).trans
    (StableHlo.Predicate.gather_take _ rfl rfl rfl rfl d (col kj) p (by decide))).trans ?_
  rw [ofFin_eq_ix1]
  refine congrArg d (congrArg ix1 (Fin.ext ?_))
  show min (col kj (StableHlo.Predicate.ixP p)).toInt.toNat (500000 - 1)
    = min (Cert.Spec.nrm (kj (ix1 p))).toInt.toNat (500000 - 1)
  rw [col_apply]

end Take

/-! ## The precondition read back -/

local instance : Subsingleton Cert.Pre_finite_inputs.S_.Idx := ⟨fun a b => funext fun d => d.elim0⟩

/-- The printed precondition gives, at every position, a start index in [-500000, 500000). -/
theorem pre_range (d : FVec F Cert.Pre_finite_inputs.S500000 .f32) (ang : FVec F Cert.Pre_finite_inputs.S2000000 .f32)
    (kj : IVec Cert.Pre_finite_inputs.S2000000 32)
    (h : Cert.Pre_finite_inputs.fn (F := F) d ang kj = fun _ => 1#1) (i : Cert.Pre_finite_inputs.S2000000.Idx) :
    -500000 ≤ (kj i).toInt ∧ (kj i).toInt < 500000 := by
  have e := congrFun h ix0
  dsimp only [Cert.Pre_finite_inputs.fn, Cert.Pre_finite_inputs.fn_part1] at e
  obtain ⟨e12, e15⟩ := IntOp.andi_eq_one.1 e
  obtain ⟨-, e11⟩ := IntOp.andi_eq_one.1 e12
  have hlo : IntOp.cmpi .sge (kj i) 4294467296#32 = 1#1 := Host.reduce_andi_all _ _ _ _ _ e11 i
  have hhi : IntOp.cmpi .slt (kj i) 500000#32 = 1#1 := Host.reduce_andi_all _ _ _ _ _ e15 i
  have h1 := IntOp.cmpi_sge.1 hlo
  have h2 := IntOp.cmpi_slt.1 hhi
  rw [toInt_lo] at h1
  rw [toInt_hi] at h2
  exact ⟨h1, h2⟩

/-! ## The arrays as the region finds them -/

/-- The gathered distances are the take of the distances at the start indices. -/
theorem V_v0_term (c : Dev nD) :
    V m c main_v0 = taken (m ((c.tc : Thread nD τ).loc main_arg2)) (m ((c.tc : Thread nD τ).loc main_arg0)) := by
  dsimp only [Gen.V]
  simp only [Gen.hostOps0, Gen.hostOps0_1, List.flatten_cons, List.flatten_nil, List.append_nil, List.cons_append,
    List.nil_append]
  after_results_simp
  simp only [StableHlo.TRef.ofBuf, StableHlo.TRef.toBuf]
  repeat rw [cast_eq]
  unfold taken inRange okMask col nidx
  rfl

/-- The gathered distances as the region finds them, under the precondition. -/
theorem V_v0_of_pre (c : Dev nD)
    (hpre : Cert.Pre_finite_inputs.fn (F := F) (m ((c.tc : Thread nD τ).loc main_arg0)) (m ((c.tc : Thread nD τ).loc main_arg1))
      (m ((c.tc : Thread nD τ).loc main_arg2)) = fun _ => 1#1) :
    V m c main_v0 = fun a => m ((c.tc : Thread nD τ).loc main_arg0)
      (ix1 (Cert.Spec.rowOf (m ((c.tc : Thread nD τ).loc main_arg2)) (a 0))) := by
  rw [V_v0_term]
  funext a
  exact taken_apply _ (fun p => pre_range _ _ _ hpre (ix1 p)) _ a

end Cert.KernelIdeal.Prefix

end
-- ==== Proof.KCell.lean ====
/-
  The value the kernel body stores, at the extended reals, for row blocks constant at a distance `x` and an angle `θ`:
  entry `l` of row 0 is the specification's entry for the column's zero and normaliser, in the Bessel family `l / 6`.
  The body picks the family by a chain of selects on the lane number divided by six; for each of the 42 lanes the
  chain's conditions are decided and the selected branch is the recurrence's value for that family.
-/
import proofs.«404429_j65481071394972_3_alg».proof.Proof.BodyKI
import proofs.«404429_j65481071394972_3_alg».proof.Proof.Spec
import Idealize.ShloMosaic.PureOps.Ideal

set_option maxRecDepth 16384

noncomputable section

namespace Cert.KernelIdeal.KCell

open Cert.KernelIdeal Cert.KernelIdeal.Gen Cert.KernelIdeal.Body
open Idealize.ShloMosaic Idealize.ShloMosaic.ValueIdx

/-! ## The lane's family word -/

/-- The body's computation of "lane number divided by six, rounded down" on one 32-bit word `v`: the quotient rounded
    toward zero, less one when the signs of dividend and divisor differ and the remainder is not zero. -/
def famWord (v : BitVec 32) : BitVec 32 :=
  Scalar.select
    (IntOp.andi
      (IntOp.cmpi .ne
        (IntOp.subi ((IntOp.cmpi .sgt v 0#32).setWidth 32) ((IntOp.cmpi .slt v 0#32).setWidth 32))
        (Scalar.subi (Scalar.extui (Scalar.cmpi .sgt 6#32 0#32)) (Scalar.extui (Scalar.cmpi .slt 6#32 0#32))))
      (IntOp.cmpi .ne (IntOp.remsi .vector v 6#32) 0#32))
    (IntOp.subi (IntOp.divsi .vector v 6#32) 1#32)
    (IntOp.divsi .vector v 6#32)

/-- The lane-family vector at `(r, l)` is that computation on the lane number `l`. -/
theorem pay3_word (r : Fin 8192) (l : Fin 42) :
    k0_pay3 (ix2 r l) = famWord (BitVec.ofNat 32 (0 * 42 + l.val)) := rfl

/-- On each of the 42 lanes the computation gives the word of `l / 6`. -/
theorem famWord_lane : ∀ l : Fin 42, famWord (BitVec.ofNat 32 (0 * 42 + l.val)) = BitVec.ofNat 32 (l.val / 6) := by
  decide

/-- The lane-family vector reads the word of `l / 6` at `(r, l)`. -/
theorem pay3_apply (r : Fin 8192) (l : Fin 42) : k0_pay3 (ix2 r l) = BitVec.ofNat 32 (l.val / 6) :=
  (pay3_word r l).trans (famWord_lane l)

/-! ## The two select chains on a family word -/

/-- The Bessel chain: the recurrence's value for the family the word names, the zero word's value for no family. -/
def selJ (w : BitVec 32) (t : EReal) : EReal :=
  Scalar.select (IntOp.cmpi .eq w 6#32) (Cert.Spec.bes t 6)
    (Scalar.select (IntOp.cmpi .eq w 5#32) (Cert.Spec.bes t 5)
      (Scalar.select (IntOp.cmpi .eq w 4#32) (Cert.Spec.bes t 4)
        (Scalar.select (IntOp.cmpi .eq w 3#32) (Cert.Spec.bes t 3)
          (Scalar.select (IntOp.cmpi .eq w 2#32) (Cert.Spec.bes t 2)
            (Scalar.select (IntOp.cmpi .eq w 1#32) (Cert.Spec.bes t 1)
              (Scalar.select (IntOp.cmpi .eq w 0#32) (Cert.Spec.bes t 0) (Ideal.ofBits .f32 0x00000000#32)))))))

/-- The Legendre chain likewise. -/
def selL (w : BitVec 32) (ct : EReal) : EReal :=
  Scalar.select (IntOp.cmpi .eq w 6#32) (Cert.Spec.leg ct 6)
    (Scalar.select (IntOp.cmpi .eq w 5#32) (Cert.Spec.leg ct 5)
      (Scalar.select (IntOp.cmpi .eq w 4#32) (Cert.Spec.leg ct 4)
        (Scalar.select (IntOp.cmpi .eq w 3#32) (Cert.Spec.leg ct 3)
          (Scalar.select (IntOp.cmpi .eq w 2#32) (Cert.Spec.leg ct 2)
            (Scalar.select (IntOp.cmpi .eq w 1#32) (Cert.Spec.leg ct 1)
              (Scalar.select (IntOp.cmpi .eq w 0#32) (Cert.Spec.leg ct 0) (Ideal.ofBits .f32 0x00000000#32)))))))

/-- On the word of a family `k < 7` the Bessel chain selects `j_k`. -/
theorem selJ_fam (t : EReal) : ∀ k : Fin 7, selJ (BitVec.ofNat 32 k.val) t = Cert.Spec.bes t k := by
  intro k; fin_cases k <;> rfl

/-- On the word of a family `k < 7` the Legendre chain selects `c_k · P_k`. -/
theorem selL_fam (ct : EReal) : ∀ k : Fin 7, selL (BitVec.ofNat 32 k.val) ct = Cert.Spec.leg ct k := by
  intro k; fin_cases k <;> rfl

/-! ## The stored value read at an entry -/

/-- Entry `(r, l)` of the value stored for row blocks constant at `x` and `θ`: the two chains on the lane's family
    word, at the tables' entries laid along the rows. -/
theorem outOf_read (z n : Vec Ideal S1x42 .f32) (x θ : Ideal .f32) (r : Fin 8192) (l : Fin 42) :
    outOf (F := Ideal) z n (fun _ => x) (fun _ => θ) (ix2 r l)
      = ((selJ (k0_pay3 (ix2 r l))
              (Cert.Spec.scaled x * broadcastTo S8192x42 z broadcasts_S1x42_S8192x42 (ix2 r l))
            * broadcastTo S8192x42 n broadcasts_S1x42_S8192x42 (ix2 r l))
          * Cert.Spec.env (Cert.Spec.scaled x))
        * selL (k0_pay3 (ix2 r l)) (Ideal.cos θ) := rfl

/-- A `1 × 42` table laid along the 8192 rows reads, at `(r, l)`, the table's entry `l`. -/
theorem tab_apply (z : Vec Ideal S1x42 .f32) (r : Fin 8192) (l : Fin 42) :
    broadcastTo S8192x42 z broadcasts_S1x42_S8192x42 (ix2 r l) = z (ix2 (0 : Fin 1) l) := by
  refine broadcastTo_apply z broadcasts_S1x42_S8192x42 (ix2 r l) (ix2 (0 : Fin 1) l) fun a => ?_
  match a with
  | ⟨0, _⟩ => rfl
  | ⟨1, _⟩ => rfl

/-! ## The entry -/

theorem outOf_cell (z n : Vec Ideal S1x42 .f32) (x θ : Ideal .f32) (l : Fin 42) :
    outOf (F := Ideal) z n (fun _ => x) (fun _ => θ) (ix2 (0 : Fin 8192) l)
      = Cert.Spec.cellK (z (ix2 (0 : Fin 1) l)) (n (ix2 (0 : Fin 1) l)) x θ (Cert.Spec.fam l) := by
  refine (outOf_read z n x θ 0 l).trans ?_
  rw [tab_apply, tab_apply, pay3_apply]
  show ((selJ (BitVec.ofNat 32 (Cert.Spec.fam l).val) _ * _) * _) * selL (BitVec.ofNat 32 (Cert.Spec.fam l).val) _ = _
  rw [selJ_fam, selL_fam]
  rfl

end Cert.KernelIdeal.KCell

end
-- ==== Proof.RefOps.lean ====
/- The reference program's 194 host operations, in order, as one list, and that each touches TensorCore references only. -/
import proofs.«404429_j65481071394972_3_alg».proof.Proof.Gen.ReferenceIdeal
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 194 operations, in order. -/
abbrev ops : List (HloOp τ sig (Elt F)) :=
  [ StableHlo.nullary main_cst (fun i => FloatOps.ofBits .f32 (lit0 (S7x6.rowMajor i))),
    StableHlo.nullary main_cst_0 (fun i => FloatOps.ofBits .f32 (lit1 (S7x6.rowMajor i))),
    StableHlo.nullary main_cst_1 (constant S_ .f32 0x40A00000#32),
    StableHlo.unary main_cst_1 main_v0 (broadcastInDim S500000 ![] bcast_S_S500000 : (⟨S_, .f32⟩ : BufTy).Contents (Elt F) → (⟨S500000, .f32⟩ : BufTy).Contents (Elt F)),
    StableHlo.binary main_arg0 main_v0 main_v1 (Host.divf : (⟨S500000, .f32⟩ : BufTy).Contents (Elt F) → (⟨S500000, .f32⟩ : BufTy).Contents (Elt F) → (⟨S500000, .f32⟩ : BufTy).Contents (Elt F)),
    StableHlo.unary main_v1 main_v2 (broadcastInDim S500000x1x1 ![0] bcast_S500000_S500000x1x1_0 : (⟨S500000, .f32⟩ : BufTy).Contents (Elt F) → (⟨S500000x1x1, .f32⟩ : BufTy).Contents (Elt F)),
    StableHlo.unary main_cst main_v3 (broadcastInDim S1x7x6 ![1, 2] bcast_S7x6_S1x7x6_1_2 : (⟨S7x6, .f32⟩ : BufTy).Contents (Elt F) → (⟨S1x7x6, .f32⟩ : BufTy).Contents (Elt F)),
    StableHlo.unary main_v2 main_v4 (broadcastInDim S500000x7x6 ![0, 1, 2] bcast_S500000x1x1_S500000x7x6_0_1_2 : (⟨S500000x1x1, .f32⟩ : BufTy).Contents (Elt F) → (⟨S500000x7x6, .f32⟩ : BufTy).Contents (Elt F)),
    StableHlo.unary main_v3 main_v5 (broadcastInDim S500000x7x6 ![0, 1, 2] bcast_S1x7x6_S500000x7x6_0_1_2 : (⟨S1x7x6, .f32⟩ : BufTy).Contents (Elt F) → (⟨S500000x7x6, .f32⟩ : BufTy).Contents (Elt F)),
    StableHlo.binary main_v4 main_v5 main_v6 (mulf : (⟨S500000x7x6, .f32⟩ : BufTy).Contents (Elt F) → (⟨S500000x7x6, .f32⟩ : BufTy).Contents (Elt F) → (⟨S500000x7x6, .f32⟩ : BufTy).Contents (Elt F)),
    StableHlo.unary main_v6 main_v7 (Host.sin : (⟨S500000x7x6, .f32⟩ : BufTy).Contents (Elt F) → (⟨S500000x7x6, .f32⟩ : BufTy).Contents (Elt F)),
    StableHlo.unary main_v6 main_v8 (Host.cos : (⟨S500000x7x6, .f32⟩ : BufTy).Contents (Elt F) → (⟨S500000x7x6, .f32⟩ : BufTy).Contents (Elt F)),
    StableHlo.binary main_v7 main_v6 main_v9 (Host.divf : (⟨S500000x7x6, .f32⟩ : BufTy).Contents (Elt F) → (⟨S500000x7x6, .f32⟩ : BufTy).Contents (Elt F) → (⟨S500000x7x6, .f32⟩ : BufTy).Contents (Elt F)),
    StableHlo.unary main_v9 main_v10 ((extractStridedSlice S500000x1x6 ![0, 0, 0] · slices_S500000x7x6_S500000x1x6_0_0_0) : (⟨S500000x7x6, .f32⟩ : BufTy).Contents (Elt F) → (⟨S500000x1x6, .f32⟩ : BufTy).Contents (Elt F)),
    StableHlo.reshape main_v10 main_v11 rfl shapeCasts_S500000x1x6_S500000x6,
    StableHlo.binary main_v6 main_v6 main_v12 (mulf : (⟨S500000x7x6, .f32⟩ : BufTy).Contents (Elt F) → (⟨S500000x7x6, .f32⟩ : BufTy).Contents (Elt F) → (⟨S500000x7x6, .f32⟩ : BufTy).Contents (Elt F)),
    StableHlo.binary main_v7 main_v12 main_v13 (Host.divf : (⟨S500000x7x6, .f32⟩ : BufTy).Contents (Elt F) → (⟨S500000x7x6, .f32⟩ : BufTy).Contents (Elt F) → (⟨S500000x7x6, .f32⟩ : BufTy).Contents (Elt F)),
    StableHlo.binary main_v8 main_v6 main_v14 (Host.divf : (⟨S500000x7x6, .f32⟩ : BufTy).Contents (Elt F) → (⟨S500000x7x6, .f32⟩ : BufTy).Contents (Elt F) → (⟨S500000x7x6, .f32⟩ : BufTy).Contents (Elt F)),
    StableHlo.binary main_v13 main_v14 main_v15 (subf : (⟨S500000x7x6, .f32⟩ : BufTy).Contents (Elt F) → (⟨S500000x7x6, .f32⟩ : BufTy).Contents (Elt F) → (⟨S500000x7x6, .f32⟩ : BufTy).Contents (Elt F)),
    StableHlo.unary main_v15 main_v16 ((extractStridedSlice S500000x1x6 ![0, 1, 0] · slices_S500000x7x6_S500000x1x6_0_1_0) : (⟨S500000x7x6, .f32⟩ : BufTy).Contents (Elt F) → (⟨S500000x1x6, .f32⟩ : BufTy).Contents (Elt F)),
    StableHlo.reshape main_v16 main_v17 rfl shapeCasts_S500000x1x6_S500000x6,
    StableHlo.nullary main_cst_2 (constant S_ .f32 0x40400000#32),
    StableHlo.unary main_cst_2 main_v18 (broadcastInDim S500000x7x6 ![] bcast_S_S500000x7x6 : (⟨S_, .f32⟩ : BufTy).Contents (Elt F) → (⟨S500000x7x6, .f32⟩ : BufTy).Contents (Elt F)),
    StableHlo.binary main_v18 main_v6 main_v19 (Host.divf : (⟨S500000x7x6, .f32⟩ : BufTy).Contents (Elt F) → (⟨S500000x7x6, .f32⟩ : BufTy).Contents (Elt F) → (⟨S500000x7x6, .f32⟩ : BufTy).Contents (Elt F)),
    StableHlo.binary main_v19 main_v15 main_v20 (mulf : (⟨S500000x7x6, .f32⟩ : BufTy).Contents (Elt F) → (⟨S500000x7x6, .f32⟩ : BufTy).Contents (Elt F) → (⟨S500000x7x6, .f32⟩ : BufTy).Contents (Elt F)),
    StableHlo.binary main_v20 main_v9 main_v21 (subf : (⟨S500000x7x6, .f32⟩ : BufTy).Contents (Elt F) → (⟨S500000x7x6, .f32⟩ : BufTy).Contents (Elt F) → (⟨S500000x7x6, .f32⟩ : BufTy).Contents (Elt F)),
    StableHlo.unary main_v21 main_v22 ((extractStridedSlice S500000x1x6 ![0, 2, 0] · slices_S500000x7x6_S500000x1x6_0_2_0) : (⟨S500000x7x6, .f32⟩ : BufTy).Contents (Elt F) → (⟨S500000x1x6, .f32⟩ : BufTy).Contents (Elt F)),
    StableHlo.reshape main_v22 main_v23 rfl shapeCasts_S500000x1x6_S500000x6,
    StableHlo.nullary main_cst_3 (constant S_ .f32 0x40A00000#32),
    StableHlo.unary main_cst_3 main_v24 (broadcastInDim S500000x7x6 ![] bcast_S_S500000x7x6 : (⟨S_, .f32⟩ : BufTy).Contents (Elt F) → (⟨S500000x7x6, .f32⟩ : BufTy).Contents (Elt F)),
    StableHlo.binary main_v24 main_v6 main_v25 (Host.divf : (⟨S500000x7x6, .f32⟩ : BufTy).Contents (Elt F) → (⟨S500000x7x6, .f32⟩ : BufTy).Contents (Elt F) → (⟨S500000x7x6, .f32⟩ : BufTy).Contents (Elt F)),
    StableHlo.binary main_v25 main_v21 main_v26 (mulf : (⟨S500000x7x6, .f32⟩ : BufTy).Contents (Elt F) → (⟨S500000x7x6, .f32⟩ : BufTy).Contents (Elt F) → (⟨S500000x7x6, .f32⟩ : BufTy).Contents (Elt F)),
    StableHlo.binary main_v26 main_v15 main_v27 (subf : (⟨S500000x7x6, .f32⟩ : BufTy).Contents (Elt F) → (⟨S500000x7x6, .f32⟩ : BufTy).Contents (Elt F) → (⟨S500000x7x6, .f32⟩ : BufTy).Contents (Elt F)),
    StableHlo.unary main_v27 main_v28 ((extractStridedSlice S500000x1x6 ![0, 3, 0] · slices_S500000x7x6_S500000x1x6_0_3_0) : (⟨S500000x7x6, .f32⟩ : BufTy).Contents (Elt F) → (⟨S500000x1x6, .f32⟩ : BufTy).Contents (Elt F)),
    StableHlo.reshape main_v28 main_v29 rfl shapeCasts_S500000x1x6_S500000x6,
    StableHlo.nullary main_cst_4 (constant S_ .f32 0x40E00000#32),
    StableHlo.unary main_cst_4 main_v30 (broadcastInDim S500000x7x6 ![] bcast_S_S500000x7x6 : (⟨S_, .f32⟩ : BufTy).Contents (Elt F) → (⟨S500000x7x6, .f32⟩ : BufTy).Contents (Elt F)),
    StableHlo.binary main_v30 main_v6 main_v31 (Host.divf : (⟨S500000x7x6, .f32⟩ : BufTy).Contents (Elt F) → (⟨S500000x7x6, .f32⟩ : BufTy).Contents (Elt F) → (⟨S500000x7x6, .f32⟩ : BufTy).Contents (Elt F)),
    StableHlo.binary main_v31 main_v27 main_v32 (mulf : (⟨S500000x7x6, .f32⟩ : BufTy).Contents (Elt F) → (⟨S500000x7x6, .f32⟩ : BufTy).Contents (Elt F) → (⟨S500000x7x6, .f32⟩ : BufTy).Contents (Elt F)),
    StableHlo.binary main_v32 main_v21 main_v33 (subf : (⟨S500000x7x6, .f32⟩ : BufTy).Contents (Elt F) → (⟨S500000x7x6, .f32⟩ : BufTy).Contents (Elt F) → (⟨S500000x7x6, .f32⟩ : BufTy).Contents (Elt F)),
    StableHlo.unary main_v33 main_v34 ((extractStridedSlice S500000x1x6 ![0, 4, 0] · slices_S500000x7x6_S500000x1x6_0_4_0) : (⟨S500000x7x6, .f32⟩ : BufTy).Contents (Elt F) → (⟨S500000x1x6, .f32⟩ : BufTy).Contents (Elt F)),
    StableHlo.reshape main_v34 main_v35 rfl shapeCasts_S500000x1x6_S500000x6,
    StableHlo.nullary main_cst_5 (constant S_ .f32 0x41100000#32),
    StableHlo.unary main_cst_5 main_v36 (broadcastInDim S500000x7x6 ![] bcast_S_S500000x7x6 : (⟨S_, .f32⟩ : BufTy).Contents (Elt F) → (⟨S500000x7x6, .f32⟩ : BufTy).Contents (Elt F)),
    StableHlo.binary main_v36 main_v6 main_v37 (Host.divf : (⟨S500000x7x6, .f32⟩ : BufTy).Contents (Elt F) → (⟨S500000x7x6, .f32⟩ : BufTy).Contents (Elt F) → (⟨S500000x7x6, .f32⟩ : BufTy).Contents (Elt F)),
    StableHlo.binary main_v37 main_v33 main_v38 (mulf : (⟨S500000x7x6, .f32⟩ : BufTy).Contents (Elt F) → (⟨S500000x7x6, .f32⟩ : BufTy).Contents (Elt F) → (⟨S500000x7x6, .f32⟩ : BufTy).Contents (Elt F)),
    StableHlo.binary main_v38 main_v27 main_v39 (subf : (⟨S500000x7x6, .f32⟩ : BufTy).Contents (Elt F) → (⟨S500000x7x6, .f32⟩ : BufTy).Contents (Elt F) → (⟨S500000x7x6, .f32⟩ : BufTy).Contents (Elt F)),
    StableHlo.unary main_v39 main_v40 ((extractStridedSlice S500000x1x6 ![0, 5, 0] · slices_S500000x7x6_S500000x1x6_0_5_0) : (⟨S500000x7x6, .f32⟩ : BufTy).Contents (Elt F) → (⟨S500000x1x6, .f32⟩ : BufTy).Contents (Elt F)),
    StableHlo.reshape main_v40 main_v41 rfl shapeCasts_S500000x1x6_S500000x6,
    StableHlo.nullary main_cst_6 (constant S_ .f32 0x41300000#32),
    StableHlo.unary main_cst_6 main_v42 (broadcastInDim S500000x7x6 ![] bcast_S_S500000x7x6 : (⟨S_, .f32⟩ : BufTy).Contents (Elt F) → (⟨S500000x7x6, .f32⟩ : BufTy).Contents (Elt F)),
    StableHlo.binary main_v42 main_v6 main_v43 (Host.divf : (⟨S500000x7x6, .f32⟩ : BufTy).Contents (Elt F) → (⟨S500000x7x6, .f32⟩ : BufTy).Contents (Elt F) → (⟨S500000x7x6, .f32⟩ : BufTy).Contents (Elt F)),
    StableHlo.binary main_v43 main_v39 main_v44 (mulf : (⟨S500000x7x6, .f32⟩ : BufTy).Contents (Elt F) → (⟨S500000x7x6, .f32⟩ : BufTy).Contents (Elt F) → (⟨S500000x7x6, .f32⟩ : BufTy).Contents (Elt F)),
    StableHlo.binary main_v44 main_v33 main_v45 (subf : (⟨S500000x7x6, .f32⟩ : BufTy).Contents (Elt F) → (⟨S500000x7x6, .f32⟩ : BufTy).Contents (Elt F) → (⟨S500000x7x6, .f32⟩ : BufTy).Contents (Elt F)),
    StableHlo.unary main_v45 main_v46 ((extractStridedSlice S500000x1x6 ![0, 6, 0] · slices_S500000x7x6_S500000x1x6_0_6_0) : (⟨S500000x7x6, .f32⟩ : BufTy).Contents (Elt F) → (⟨S500000x1x6, .f32⟩ : BufTy).Contents (Elt F)),
    StableHlo.reshape main_v46 main_v47 rfl shapeCasts_S500000x1x6_S500000x6,
    StableHlo.unary main_v11 main_v48 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v17 main_v49 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v23 main_v50 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v29 main_v51 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v35 main_v52 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v41 main_v53 (broadcastInDim S500000x1x6 ![0, 2] bcast_S500000x6_S500000x1x6_0_2 : (⟨S500000x6, .f32⟩ : BufTy).Contents (Elt F) → (⟨S500000x1x6, .f32⟩ : BufTy).Contents (Elt F)),
    StableHlo.unary main_v47 main_v54 (broadcastInDim S500000x1x6 ![0, 2] bcast_S500000x6_S500000x1x6_0_2 : (⟨S500000x6, .f32⟩ : BufTy).Contents (Elt F) → (⟨S500000x1x6, .f32⟩ : BufTy).Contents (Elt F)),
    StableHlo.nary ![main_v48, main_v49, main_v50, main_v51, main_v52, main_v53, main_v54] main_v55 (fun u => concatenate S500000x7x6 1 [⟨S500000x1x6, u 0⟩, ⟨S500000x1x6, u 1⟩, ⟨S500000x1x6, u 2⟩, ⟨S500000x1x6, u 3⟩, ⟨S500000x1x6, u 4⟩, ⟨S500000x1x6, u 5⟩, ⟨S500000x1x6, u 6⟩] concatenates_S500000x1x6_S500000x1x6_S500000x1x6_S500000x1x6_S500000x1x6_S500000x1x6_S500000x1x6_S500000x7x6_d1),
    StableHlo.unary main_cst_0 main_v56 (broadcastInDim S1x7x6 ![1, 2] bcast_S7x6_S1x7x6_1_2 : (⟨S7x6, .f32⟩ : BufTy).Contents (Elt F) → (⟨S1x7x6, .f32⟩ : BufTy).Contents (Elt F)),
    StableHlo.unary main_v56 main_v57 (broadcastInDim S500000x7x6 ![0, 1, 2] bcast_S1x7x6_S500000x7x6_0_1_2 : (⟨S1x7x6, .f32⟩ : BufTy).Contents (Elt F) → (⟨S500000x7x6, .f32⟩ : BufTy).Contents (Elt F)),
    StableHlo.binary main_v55 main_v57 main_v58 (mulf : (⟨S500000x7x6, .f32⟩ : BufTy).Contents (Elt F) → (⟨S500000x7x6, .f32⟩ : BufTy).Contents (Elt F) → (⟨S500000x7x6, .f32⟩ : BufTy).Contents (Elt F)),
    StableHlo.binary main_v1 main_v1 main_v59 (mulf : (⟨S500000, .f32⟩ : BufTy).Contents (Elt F) → (⟨S500000, .f32⟩ : BufTy).Contents (Elt F) → (⟨S500000, .f32⟩ : BufTy).Contents (Elt F)),
    StableHlo.binary main_v59 main_v59 main_v60 (mulf : (⟨S500000, .f32⟩ : BufTy).Contents (Elt F) → (⟨S500000, .f32⟩ : BufTy).Contents (Elt F) → (⟨S500000, .f32⟩ : BufTy).Contents (Elt F)),
    StableHlo.binary main_v1 main_v60 main_v61 (mulf : (⟨S500000, .f32⟩ : BufTy).Contents (Elt F) → (⟨S500000, .f32⟩ : BufTy).Contents (Elt F) → (⟨S500000, .f32⟩ : BufTy).Contents (Elt F)),
    StableHlo.nullary main_cst_7 (constant S_ .f32 0x41A80000#32),
    StableHlo.unary main_cst_7 main_v62 (broadcastInDim S500000 ![] bcast_S_S500000 : (⟨S_, .f32⟩ : BufTy).Contents (Elt F) → (⟨S500000, .f32⟩ : BufTy).Contents (Elt F)),
    StableHlo.binary main_v62 main_v61 main_v63 (mulf : (⟨S500000, .f32⟩ : BufTy).Contents (Elt F) → (⟨S500000, .f32⟩ : BufTy).Contents (Elt F) → (⟨S500000, .f32⟩ : BufTy).Contents (Elt F)),
    StableHlo.nullary main_cst_8 (constant S_ .f32 0x3F800000#32),
    StableHlo.unary main_cst_8 main_v64 (broadcastInDim S500000 ![] bcast_S_S500000 : (⟨S_, .f32⟩ : BufTy).Contents (Elt F) → (⟨S500000, .f32⟩ : BufTy).Contents (Elt F)),
    StableHlo.binary main_v64 main_v63 main_v65 (subf : (⟨S500000, .f32⟩ : BufTy).Contents (Elt F) → (⟨S500000, .f32⟩ : BufTy).Contents (Elt F) → (⟨S500000, .f32⟩ : BufTy).Contents (Elt F)),
    StableHlo.binary main_v1 main_v1 main_v66 (mulf : (⟨S500000, .f32⟩ : BufTy).Contents (Elt F) → (⟨S500000, .f32⟩ : BufTy).Contents (Elt F) → (⟨S500000, .f32⟩ : BufTy).Contents (Elt F)),
    StableHlo.binary main_v66 main_v66 main_v67 (mulf : (⟨S500000, .f32⟩ : BufTy).Contents (Elt F) → (⟨S500000, .f32⟩ : BufTy).Contents (Elt F) → (⟨S500000, .f32⟩ : BufTy).Contents (Elt F)),
    StableHlo.binary main_v66 main_v67 main_v68 (mulf : (⟨S500000, .f32⟩ : BufTy).Contents (Elt F) → (⟨S500000, .f32⟩ : BufTy).Contents (Elt F) → (⟨S500000, .f32⟩ : BufTy).Contents (Elt F)),
    StableHlo.nullary main_cst_9 (constant S_ .f32 0x420C0000#32),
    StableHlo.unary main_cst_9 main_v69 (broadcastInDim S500000 ![] bcast_S_S500000 : (⟨S_, .f32⟩ : BufTy).Contents (Elt F) → (⟨S500000, .f32⟩ : BufTy).Contents (Elt F)),
    StableHlo.binary main_v69 main_v68 main_v70 (mulf : (⟨S500000, .f32⟩ : BufTy).Contents (Elt F) → (⟨S500000, .f32⟩ : BufTy).Contents (Elt F) → (⟨S500000, .f32⟩ : BufTy).Contents (Elt F)),
    StableHlo.binary main_v65 main_v70 main_v71 (addf : (⟨S500000, .f32⟩ : BufTy).Contents (Elt F) → (⟨S500000, .f32⟩ : BufTy).Contents (Elt F) → (⟨S500000, .f32⟩ : BufTy).Contents (Elt F)),
    StableHlo.binary main_v1 main_v1 main_v72 (mulf : (⟨S500000, .f32⟩ : BufTy).Contents (Elt F) → (⟨S500000, .f32⟩ : BufTy).Contents (Elt F) → (⟨S500000, .f32⟩ : BufTy).Contents (Elt F)),
    StableHlo.binary main_v1 main_v72 main_v73 (mulf : (⟨S500000, .f32⟩ : BufTy).Contents (Elt F) → (⟨S500000, .f32⟩ : BufTy).Contents (Elt F) → (⟨S500000, .f32⟩ : BufTy).Contents (Elt F)),
    StableHlo.binary main_v72 main_v72 main_v74 (mulf : (⟨S500000, .f32⟩ : BufTy).Contents (Elt F) → (⟨S500000, .f32⟩ : BufTy).Contents (Elt F) → (⟨S500000, .f32⟩ : BufTy).Contents (Elt F)),
    StableHlo.binary main_v73 main_v74 main_v75 (mulf : (⟨S500000, .f32⟩ : BufTy).Contents (Elt F) → (⟨S500000, .f32⟩ : BufTy).Contents (Elt F) → (⟨S500000, .f32⟩ : BufTy).Contents (Elt F)),
    StableHlo.nullary main_cst_10 (constant S_ .f32 0x41700000#32),
    StableHlo.unary main_cst_10 main_v76 (broadcastInDim S500000 ![] bcast_S_S500000 : (⟨S_, .f32⟩ : BufTy).Contents (Elt F) → (⟨S500000, .f32⟩ : BufTy).Contents (Elt F)),
    StableHlo.binary main_v76 main_v75 main_v77 (mulf : (⟨S500000, .f32⟩ : BufTy).Contents (Elt F) → (⟨S500000, .f32⟩ : BufTy).Contents (Elt F) → (⟨S500000, .f32⟩ : BufTy).Contents (Elt F)),
    StableHlo.binary main_v71 main_v77 main_v78 (subf : (⟨S500000, .f32⟩ : BufTy).Contents (Elt F) → (⟨S500000, .f32⟩ : BufTy).Contents (Elt F) → (⟨S500000, .f32⟩ : BufTy).Contents (Elt F)),
    StableHlo.unary main_v78 main_v79 (broadcastInDim S500000x1x1 ![0] bcast_S500000_S500000x1x1_0 : (⟨S500000, .f32⟩ : BufTy).Contents (Elt F) → (⟨S500000x1x1, .f32⟩ : BufTy).Contents (Elt F)),
    StableHlo.unary main_v79 main_v80 (broadcastInDim S500000x7x6 ![0, 1, 2] bcast_S500000x1x1_S500000x7x6_0_1_2 : (⟨S500000x1x1, .f32⟩ : BufTy).Contents (Elt F) → (⟨S500000x7x6, .f32⟩ : BufTy).Contents (Elt F)),
    StableHlo.binary main_v80 main_v58 main_v81 (mulf : (⟨S500000x7x6, .f32⟩ : BufTy).Contents (Elt F) → (⟨S500000x7x6, .f32⟩ : BufTy).Contents (Elt F) → (⟨S500000x7x6, .f32⟩ : BufTy).Contents (Elt F)),
    StableHlo.reshape main_v81 main_v82 rfl shapeCasts_S500000x7x6_S500000x42,
    StableHlo.nullary main_c (constantI S_ 32 0#32),
    StableHlo.unary main_c main_v83 (broadcastInDim S2000000 ![] bcast_S_S2000000 : (⟨S_, .i32⟩ : BufTy).Contents (Elt F) → (⟨S2000000, .i32⟩ : BufTy).Contents (Elt F)),
    StableHlo.binary main_arg2 main_v83 main_v84 (cmpi .slt : (⟨S2000000, .i32⟩ : BufTy).Contents (Elt F) → (⟨S2000000, .i32⟩ : BufTy).Contents (Elt F) → (⟨S2000000, .i1⟩ : BufTy).Contents (Elt F)),
    StableHlo.nullary main_c_11 (constantI S_ 32 500000#32),
    StableHlo.unary main_c_11 main_v85 (broadcastInDim S2000000 ![] bcast_S_S2000000 : (⟨S_, .i32⟩ : BufTy).Contents (Elt F) → (⟨S2000000, .i32⟩ : BufTy).Contents (Elt F)),
    StableHlo.binary main_arg2 main_v85 main_v86 (addi : (⟨S2000000, .i32⟩ : BufTy).Contents (Elt F) → (⟨S2000000, .i32⟩ : BufTy).Contents (Elt F) → (⟨S2000000, .i32⟩ : BufTy).Contents (Elt F)),
    StableHlo.ternary main_v84 main_v86 main_arg2 main_v87 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v87 main_v88 (broadcastInDim S2000000x1 ![0] bcast_S2000000_S2000000x1_0 : (⟨S2000000, .i32⟩ : BufTy).Contents (Elt F) → (⟨S2000000x1, .i32⟩ : BufTy).Contents (Elt F)),
    StableHlo.binary main_v82 main_v88 main_v89 ((fun x i => Host.gather gather_S500000x42_S2000000x1_S2000000x42_1_0_n_n_0_1_142 x i) : (⟨S500000x42, .f32⟩ : BufTy).Contents (Elt F) → (⟨S2000000x1, .i32⟩ : BufTy).Contents (Elt F) → (⟨S2000000x42, .f32⟩ : BufTy).Contents (Elt F)),
    StableHlo.unary main_arg1 main_v90 (Host.cos : (⟨S2000000, .f32⟩ : BufTy).Contents (Elt F) → (⟨S2000000, .f32⟩ : BufTy).Contents (Elt F)),
    StableHlo.nullary main_cst_12 (constant S_ .f32 0x3F800000#32),
    StableHlo.unary main_cst_12 main_v91 (broadcastInDim S2000000 ![] bcast_S_S2000000 : (⟨S_, .f32⟩ : BufTy).Contents (Elt F) → (⟨S2000000, .f32⟩ : BufTy).Contents (Elt F)),
    StableHlo.nullary main_cst_13 (constant S_ .f32 0x3E906EBB#32),
    StableHlo.unary main_cst_13 main_v92 (broadcastInDim S2000000 ![] bcast_S_S2000000 : (⟨S_, .f32⟩ : BufTy).Contents (Elt F) → (⟨S2000000, .f32⟩ : BufTy).Contents (Elt F)),
    StableHlo.binary main_v91 main_v92 main_v93 (mulf : (⟨S2000000, .f32⟩ : BufTy).Contents (Elt F) → (⟨S2000000, .f32⟩ : BufTy).Contents (Elt F) → (⟨S2000000, .f32⟩ : BufTy).Contents (Elt F)),
    StableHlo.nullary main_cst_14 (constant S_ .f32 0x3EFA2A1C#32),
    StableHlo.unary main_cst_14 main_v94 (broadcastInDim S2000000 ![] bcast_S_S2000000 : (⟨S_, .f32⟩ : BufTy).Contents (Elt F) → (⟨S2000000, .f32⟩ : BufTy).Contents (Elt F)),
    StableHlo.binary main_v90 main_v94 main_v95 (mulf : (⟨S2000000, .f32⟩ : BufTy).Contents (Elt F) → (⟨S2000000, .f32⟩ : BufTy).Contents (Elt F) → (⟨S2000000, .f32⟩ : BufTy).Contents (Elt F)),
    StableHlo.nullary main_cst_15 (constant S_ .f32 0x40400000#32),
    StableHlo.unary main_cst_15 main_v96 (broadcastInDim S2000000 ![] bcast_S_S2000000 : (⟨S_, .f32⟩ : BufTy).Contents (Elt F) → (⟨S2000000, .f32⟩ : BufTy).Contents (Elt F)),
    StableHlo.binary main_v96 main_v90 main_v97 (mulf : (⟨S2000000, .f32⟩ : BufTy).Contents (Elt F) → (⟨S2000000, .f32⟩ : BufTy).Contents (Elt F) → (⟨S2000000, .f32⟩ : BufTy).Contents (Elt F)),
    StableHlo.binary main_v97 main_v90 main_v98 (mulf : (⟨S2000000, .f32⟩ : BufTy).Contents (Elt F) → (⟨S2000000, .f32⟩ : BufTy).Contents (Elt F) → (⟨S2000000, .f32⟩ : BufTy).Contents (Elt F)),
    StableHlo.nullary main_cst_16 (constant S_ .f32 0x3F800000#32),
    StableHlo.unary main_cst_16 main_v99 (broadcastInDim S2000000 ![] bcast_S_S2000000 : (⟨S_, .f32⟩ : BufTy).Contents (Elt F) → (⟨S2000000, .f32⟩ : BufTy).Contents (Elt F)),
    StableHlo.binary main_v99 main_v91 main_v100 (mulf : (⟨S2000000, .f32⟩ : BufTy).Contents (Elt F) → (⟨S2000000, .f32⟩ : BufTy).Contents (Elt F) → (⟨S2000000, .f32⟩ : BufTy).Contents (Elt F)),
    StableHlo.binary main_v98 main_v100 main_v101 (subf : (⟨S2000000, .f32⟩ : BufTy).Contents (Elt F) → (⟨S2000000, .f32⟩ : BufTy).Contents (Elt F) → (⟨S2000000, .f32⟩ : BufTy).Contents (Elt F)),
    StableHlo.nullary main_cst_17 (constant S_ .f32 0x40000000#32),
    StableHlo.unary main_cst_17 main_v102 (broadcastInDim S2000000 ![] bcast_S_S2000000 : (⟨S_, .f32⟩ : BufTy).Contents (Elt F) → (⟨S2000000, .f32⟩ : BufTy).Contents (Elt F)),
    StableHlo.binary main_v101 main_v102 main_v103 (Host.divf : (⟨S2000000, .f32⟩ : BufTy).Contents (Elt F) → (⟨S2000000, .f32⟩ : BufTy).Contents (Elt F) → (⟨S2000000, .f32⟩ : BufTy).Contents (Elt F)),
    StableHlo.nullary main_cst_18 (constant S_ .f32 0x3F217B01#32),
    StableHlo.unary main_cst_18 main_v104 (broadcastInDim S2000000 ![] bcast_S_S2000000 : (⟨S_, .f32⟩ : BufTy).Contents (Elt F) → (⟨S2000000, .f32⟩ : BufTy).Contents (Elt F)),
    StableHlo.binary main_v103 main_v104 main_v105 (mulf : (⟨S2000000, .f32⟩ : BufTy).Contents (Elt F) → (⟨S2000000, .f32⟩ : BufTy).Contents (Elt F) → (⟨S2000000, .f32⟩ : BufTy).Contents (Elt F)),
    StableHlo.nullary main_cst_19 (constant S_ .f32 0x40A00000#32),
    StableHlo.unary main_cst_19 main_v106 (broadcastInDim S2000000 ![] bcast_S_S2000000 : (⟨S_, .f32⟩ : BufTy).Contents (Elt F) → (⟨S2000000, .f32⟩ : BufTy).Contents (Elt F)),
    StableHlo.binary main_v106 main_v90 main_v107 (mulf : (⟨S2000000, .f32⟩ : BufTy).Contents (Elt F) → (⟨S2000000, .f32⟩ : BufTy).Contents (Elt F) → (⟨S2000000, .f32⟩ : BufTy).Contents (Elt F)),
    StableHlo.binary main_v107 main_v103 main_v108 (mulf : (⟨S2000000, .f32⟩ : BufTy).Contents (Elt F) → (⟨S2000000, .f32⟩ : BufTy).Contents (Elt F) → (⟨S2000000, .f32⟩ : BufTy).Contents (Elt F)),
    StableHlo.nullary main_cst_20 (constant S_ .f32 0x40000000#32),
    StableHlo.unary main_cst_20 main_v109 (broadcastInDim S2000000 ![] bcast_S_S2000000 : (⟨S_, .f32⟩ : BufTy).Contents (Elt F) → (⟨S2000000, .f32⟩ : BufTy).Contents (Elt F)),
    StableHlo.binary main_v109 main_v90 main_v110 (mulf : (⟨S2000000, .f32⟩ : BufTy).Contents (Elt F) → (⟨S2000000, .f32⟩ : BufTy).Contents (Elt F) → (⟨S2000000, .f32⟩ : BufTy).Contents (Elt F)),
    StableHlo.binary main_v108 main_v110 main_v111 (subf : (⟨S2000000, .f32⟩ : BufTy).Contents (Elt F) → (⟨S2000000, .f32⟩ : BufTy).Contents (Elt F) → (⟨S2000000, .f32⟩ : BufTy).Contents (Elt F)),
    StableHlo.nullary main_cst_21 (constant S_ .f32 0x40400000#32),
    StableHlo.unary main_cst_21 main_v112 (broadcastInDim S2000000 ![] bcast_S_S2000000 : (⟨S_, .f32⟩ : BufTy).Contents (Elt F) → (⟨S2000000, .f32⟩ : BufTy).Contents (Elt F)),
    StableHlo.binary main_v111 main_v112 main_v113 (Host.divf : (⟨S2000000, .f32⟩ : BufTy).Contents (Elt F) → (⟨S2000000, .f32⟩ : BufTy).Contents (Elt F) → (⟨S2000000, .f32⟩ : BufTy).Contents (Elt F)),
    StableHlo.nullary main_cst_22 (constant S_ .f32 0x3F3F10F8#32),
    StableHlo.unary main_cst_22 main_v114 (broadcastInDim S2000000 ![] bcast_S_S2000000 : (⟨S_, .f32⟩ : BufTy).Contents (Elt F) → (⟨S2000000, .f32⟩ : BufTy).Contents (Elt F)),
    StableHlo.binary main_v113 main_v114 main_v115 (mulf : (⟨S2000000, .f32⟩ : BufTy).Contents (Elt F) → (⟨S2000000, .f32⟩ : BufTy).Contents (Elt F) → (⟨S2000000, .f32⟩ : BufTy).Contents (Elt F)),
    StableHlo.nullary main_cst_23 (constant S_ .f32 0x40E00000#32),
    StableHlo.unary main_cst_23 main_v116 (broadcastInDim S2000000 ![] bcast_S_S2000000 : (⟨S_, .f32⟩ : BufTy).Contents (Elt F) → (⟨S2000000, .f32⟩ : BufTy).Contents (Elt F)),
    StableHlo.binary main_v116 main_v90 main_v117 (mulf : (⟨S2000000, .f32⟩ : BufTy).Contents (Elt F) → (⟨S2000000, .f32⟩ : BufTy).Contents (Elt F) → (⟨S2000000, .f32⟩ : BufTy).Contents (Elt F)),
    StableHlo.binary main_v117 main_v113 main_v118 (mulf : (⟨S2000000, .f32⟩ : BufTy).Contents (Elt F) → (⟨S2000000, .f32⟩ : BufTy).Contents (Elt F) → (⟨S2000000, .f32⟩ : BufTy).Contents (Elt F)),
    StableHlo.nullary main_cst_24 (constant S_ .f32 0x40400000#32),
    StableHlo.unary main_cst_24 main_v119 (broadcastInDim S2000000 ![] bcast_S_S2000000 : (⟨S_, .f32⟩ : BufTy).Contents (Elt F) → (⟨S2000000, .f32⟩ : BufTy).Contents (Elt F)),
    StableHlo.binary main_v119 main_v103 main_v120 (mulf : (⟨S2000000, .f32⟩ : BufTy).Contents (Elt F) → (⟨S2000000, .f32⟩ : BufTy).Contents (Elt F) → (⟨S2000000, .f32⟩ : BufTy).Contents (Elt F)),
    StableHlo.binary main_v118 main_v120 main_v121 (subf : (⟨S2000000, .f32⟩ : BufTy).Contents (Elt F) → (⟨S2000000, .f32⟩ : BufTy).Contents (Elt F) → (⟨S2000000, .f32⟩ : BufTy).Contents (Elt F)),
    StableHlo.nullary main_cst_25 (constant S_ .f32 0x40800000#32),
    StableHlo.unary main_cst_25 main_v122 (broadcastInDim S2000000 ![] bcast_S_S2000000 : (⟨S_, .f32⟩ : BufTy).Contents (Elt F) → (⟨S2000000, .f32⟩ : BufTy).Contents (Elt F)),
    StableHlo.binary main_v121 main_v122 main_v123 (Host.divf : (⟨S2000000, .f32⟩ : BufTy).Contents (Elt F) → (⟨S2000000, .f32⟩ : BufTy).Contents (Elt F) → (⟨S2000000, .f32⟩ : BufTy).Contents (Elt F)),
    StableHlo.nullary main_cst_26 (constant S_ .f32 0x3F58A618#32),
    StableHlo.unary main_cst_26 main_v124 (broadcastInDim S2000000 ![] bcast_S_S2000000 : (⟨S_, .f32⟩ : BufTy).Contents (Elt F) → (⟨S2000000, .f32⟩ : BufTy).Contents (Elt F)),
    StableHlo.binary main_v123 main_v124 main_v125 (mulf : (⟨S2000000, .f32⟩ : BufTy).Contents (Elt F) → (⟨S2000000, .f32⟩ : BufTy).Contents (Elt F) → (⟨S2000000, .f32⟩ : BufTy).Contents (Elt F)),
    StableHlo.nullary main_cst_27 (constant S_ .f32 0x41100000#32),
    StableHlo.unary main_cst_27 main_v126 (broadcastInDim S2000000 ![] bcast_S_S2000000 : (⟨S_, .f32⟩ : BufTy).Contents (Elt F) → (⟨S2000000, .f32⟩ : BufTy).Contents (Elt F)),
    StableHlo.binary main_v126 main_v90 main_v127 (mulf : (⟨S2000000, .f32⟩ : BufTy).Contents (Elt F) → (⟨S2000000, .f32⟩ : BufTy).Contents (Elt F) → (⟨S2000000, .f32⟩ : BufTy).Contents (Elt F)),
    StableHlo.binary main_v127 main_v123 main_v128 (mulf : (⟨S2000000, .f32⟩ : BufTy).Contents (Elt F) → (⟨S2000000, .f32⟩ : BufTy).Contents (Elt F) → (⟨S2000000, .f32⟩ : BufTy).Contents (Elt F)),
    StableHlo.nullary main_cst_28 (constant S_ .f32 0x40800000#32),
    StableHlo.unary main_cst_28 main_v129 (broadcastInDim S2000000 ![] bcast_S_S2000000 : (⟨S_, .f32⟩ : BufTy).Contents (Elt F) → (⟨S2000000, .f32⟩ : BufTy).Contents (Elt F)),
    StableHlo.binary main_v129 main_v113 main_v130 (mulf : (⟨S2000000, .f32⟩ : BufTy).Contents (Elt F) → (⟨S2000000, .f32⟩ : BufTy).Contents (Elt F) → (⟨S2000000, .f32⟩ : BufTy).Contents (Elt F)),
    StableHlo.binary main_v128 main_v130 main_v131 (subf : (⟨S2000000, .f32⟩ : BufTy).Contents (Elt F) → (⟨S2000000, .f32⟩ : BufTy).Contents (Elt F) → (⟨S2000000, .f32⟩ : BufTy).Contents (Elt F)),
    StableHlo.nullary main_cst_29 (constant S_ .f32 0x40A00000#32),
    StableHlo.unary main_cst_29 main_v132 (broadcastInDim S2000000 ![] bcast_S_S2000000 : (⟨S_, .f32⟩ : BufTy).Contents (Elt F) → (⟨S2000000, .f32⟩ : BufTy).Contents (Elt F)),
    StableHlo.binary main_v131 main_v132 main_v133 (Host.divf : (⟨S2000000, .f32⟩ : BufTy).Contents (Elt F) → (⟨S2000000, .f32⟩ : BufTy).Contents (Elt F) → (⟨S2000000, .f32⟩ : BufTy).Contents (Elt F)),
    StableHlo.nullary main_cst_30 (constant S_ .f32 0x3F6F83A7#32),
    StableHlo.unary main_cst_30 main_v134 (broadcastInDim S2000000 ![] bcast_S_S2000000 : (⟨S_, .f32⟩ : BufTy).Contents (Elt F) → (⟨S2000000, .f32⟩ : BufTy).Contents (Elt F)),
    StableHlo.binary main_v133 main_v134 main_v135 (mulf : (⟨S2000000, .f32⟩ : BufTy).Contents (Elt F) → (⟨S2000000, .f32⟩ : BufTy).Contents (Elt F) → (⟨S2000000, .f32⟩ : BufTy).Contents (Elt F)),
    StableHlo.nullary main_cst_31 (constant S_ .f32 0x41300000#32),
    StableHlo.unary main_cst_31 main_v136 (broadcastInDim S2000000 ![] bcast_S_S2000000 : (⟨S_, .f32⟩ : BufTy).Contents (Elt F) → (⟨S2000000, .f32⟩ : BufTy).Contents (Elt F)),
    StableHlo.binary main_v136 main_v90 main_v137 (mulf : (⟨S2000000, .f32⟩ : BufTy).Contents (Elt F) → (⟨S2000000, .f32⟩ : BufTy).Contents (Elt F) → (⟨S2000000, .f32⟩ : BufTy).Contents (Elt F)),
    StableHlo.binary main_v137 main_v133 main_v138 (mulf : (⟨S2000000, .f32⟩ : BufTy).Contents (Elt F) → (⟨S2000000, .f32⟩ : BufTy).Contents (Elt F) → (⟨S2000000, .f32⟩ : BufTy).Contents (Elt F)),
    StableHlo.nullary main_cst_32 (constant S_ .f32 0x40A00000#32),
    StableHlo.unary main_cst_32 main_v139 (broadcastInDim S2000000 ![] bcast_S_S2000000 : (⟨S_, .f32⟩ : BufTy).Contents (Elt F) → (⟨S2000000, .f32⟩ : BufTy).Contents (Elt F)),
    StableHlo.binary main_v139 main_v123 main_v140 (mulf : (⟨S2000000, .f32⟩ : BufTy).Contents (Elt F) → (⟨S2000000, .f32⟩ : BufTy).Contents (Elt F) → (⟨S2000000, .f32⟩ : BufTy).Contents (Elt F)),
    StableHlo.binary main_v138 main_v140 main_v141 (subf : (⟨S2000000, .f32⟩ : BufTy).Contents (Elt F) → (⟨S2000000, .f32⟩ : BufTy).Contents (Elt F) → (⟨S2000000, .f32⟩ : BufTy).Contents (Elt F)),
    StableHlo.nullary main_cst_33 (constant S_ .f32 0x40C00000#32),
    StableHlo.unary main_cst_33 main_v142 (broadcastInDim S2000000 ![] bcast_S_S2000000 : (⟨S_, .f32⟩ : BufTy).Contents (Elt F) → (⟨S2000000, .f32⟩ : BufTy).Contents (Elt F)),
    StableHlo.binary main_v141 main_v142 main_v143 (Host.divf : (⟨S2000000, .f32⟩ : BufTy).Contents (Elt F) → (⟨S2000000, .f32⟩ : BufTy).Contents (Elt F) → (⟨S2000000, .f32⟩ : BufTy).Contents (Elt F)),
    StableHlo.nullary main_cst_34 (constant S_ .f32 0x3F823092#32),
    StableHlo.unary main_cst_34 main_v144 (broadcastInDim S2000000 ![] bcast_S_S2000000 : (⟨S_, .f32⟩ : BufTy).Contents (Elt F) → (⟨S2000000, .f32⟩ : BufTy).Contents (Elt F)),
    StableHlo.binary main_v143 main_v144 main_v145 (mulf : (⟨S2000000, .f32⟩ : BufTy).Contents (Elt F) → (⟨S2000000, .f32⟩ : BufTy).Contents (Elt F) → (⟨S2000000, .f32⟩ : BufTy).Contents (Elt F)),
    StableHlo.unary main_v93 main_v146 (broadcastInDim S2000000x1 ![0] bcast_S2000000_S2000000x1_0 : (⟨S2000000, .f32⟩ : BufTy).Contents (Elt F) → (⟨S2000000x1, .f32⟩ : BufTy).Contents (Elt F)),
    StableHlo.unary main_v95 main_v147 (broadcastInDim S2000000x1 ![0] bcast_S2000000_S2000000x1_0 : (⟨S2000000, .f32⟩ : BufTy).Contents (Elt F) → (⟨S2000000x1, .f32⟩ : BufTy).Contents (Elt F)),
    StableHlo.unary main_v105 main_v148 (broadcastInDim S2000000x1 ![0] bcast_S2000000_S2000000x1_0 : (⟨S2000000, .f32⟩ : BufTy).Contents (Elt F) → (⟨S2000000x1, .f32⟩ : BufTy).Contents (Elt F)),
    StableHlo.unary main_v115 main_v149 (broadcastInDim S2000000x1 ![0] bcast_S2000000_S2000000x1_0 : (⟨S2000000, .f32⟩ : BufTy).Contents (Elt F) → (⟨S2000000x1, .f32⟩ : BufTy).Contents (Elt F)),
    StableHlo.unary main_v125 main_v150 (broadcastInDim S2000000x1 ![0] bcast_S2000000_S2000000x1_0 : (⟨S2000000, .f32⟩ : BufTy).Contents (Elt F) → (⟨S2000000x1, .f32⟩ : BufTy).Contents (Elt F)),
    StableHlo.unary main_v135 main_v151 (broadcastInDim S2000000x1 ![0] bcast_S2000000_S2000000x1_0 : (⟨S2000000, .f32⟩ : BufTy).Contents (Elt F) → (⟨S2000000x1, .f32⟩ : BufTy).Contents (Elt F)),
    StableHlo.unary main_v145 main_v152 (broadcastInDim S2000000x1 ![0] bcast_S2000000_S2000000x1_0 : (⟨S2000000, .f32⟩ : BufTy).Contents (Elt F) → (⟨S2000000x1, .f32⟩ : BufTy).Contents (Elt F)),
    StableHlo.nary ![main_v146, main_v147, main_v148, main_v149, main_v150, main_v151, main_v152] main_v153 (fun u => concatenate S2000000x7 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩] concatenates_S2000000x1_S2000000x1_S2000000x1_S2000000x1_S2000000x1_S2000000x1_S2000000x1_S2000000x7_d1),
    StableHlo.unary main_v153 main_v154 (broadcastInDim S2000000x7x6 ![0, 1] bcast_S2000000x7_S2000000x7x6_0_1 : (⟨S2000000x7, .f32⟩ : BufTy).Contents (Elt F) → (⟨S2000000x7x6, .f32⟩ : BufTy).Contents (Elt F)),
    StableHlo.reshape main_v154 main_v155 rfl shapeCasts_S2000000x7x6_S2000000x42,
    StableHlo.binary main_v89 main_v155 main_v156 (mulf : (⟨S2000000x42, .f32⟩ : BufTy).Contents (Elt F) → (⟨S2000000x42, .f32⟩ : BufTy).Contents (Elt F) → (⟨S2000000x42, .f32⟩ : BufTy).Contents (Elt F)) ]

theorem ops_sub : (ops : List (HloOp τ sig (Elt F))).Forall fun op => op.bufs ⊆ tcRefs τ sig :=
  ⟨StableHlo.nullary_bufs_sub .., StableHlo.nullary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.binary_bufs_sub .., StableHlo.binary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.unary_bufs_sub .., StableHlo.reshape_bufs_sub .., StableHlo.binary_bufs_sub ..⟩

end Cert.ReferenceIdeal.RefRun

end
-- ==== Proof.RefStages.lean ====
/- One pure stage per buffer of the reference program: the operation that writes the buffer, applied to the stages of
   its operands; d, ang, kj stand for the three argument arrays, and a stage takes the ones it depends on. -/
import proofs.«404429_j65481071394972_3_alg».proof.Proof.Gen.ReferenceIdeal

noncomputable section

namespace Cert.ReferenceIdeal.Stages

open Cert.ReferenceIdeal Cert.ReferenceIdeal.Gen Idealize.ShloMosaic

variable {F : FTy → Type} [FloatOps F]

def res_cst : (⟨S7x6, .f32⟩ : BufTy).Contents (Elt F) :=
  (fun i => FloatOps.ofBits .f32 (lit0 (S7x6.rowMajor i)))
def res_cst_0 : (⟨S7x6, .f32⟩ : BufTy).Contents (Elt F) :=
  (fun i => FloatOps.ofBits .f32 (lit1 (S7x6.rowMajor i)))
def res_cst_1 : (⟨S_, .f32⟩ : BufTy).Contents (Elt F) :=
  (constant S_ .f32 0x40A00000#32)
def res_v0 : (⟨S500000, .f32⟩ : BufTy).Contents (Elt F) :=
  (broadcastInDim S500000 ![] bcast_S_S500000 : (⟨S_, .f32⟩ : BufTy).Contents (Elt F) → (⟨S500000, .f32⟩ : BufTy).Contents (Elt F)) (res_cst_1 (F := F))
def res_v1 (d : (⟨S500000, .f32⟩ : BufTy).Contents (Elt F)) : (⟨S500000, .f32⟩ : BufTy).Contents (Elt F) :=
  (Host.divf : (⟨S500000, .f32⟩ : BufTy).Contents (Elt F) → (⟨S500000, .f32⟩ : BufTy).Contents (Elt F) → (⟨S500000, .f32⟩ : BufTy).Contents (Elt F)) d (res_v0 (F := F))
def res_v2 (d : (⟨S500000, .f32⟩ : BufTy).Contents (Elt F)) : (⟨S500000x1x1, .f32⟩ : BufTy).Contents (Elt F) :=
  (broadcastInDim S500000x1x1 ![0] bcast_S500000_S500000x1x1_0 : (⟨S500000, .f32⟩ : BufTy).Contents (Elt F) → (⟨S500000x1x1, .f32⟩ : BufTy).Contents (Elt F)) (res_v1 d)
def res_v3 : (⟨S1x7x6, .f32⟩ : BufTy).Contents (Elt F) :=
  (broadcastInDim S1x7x6 ![1, 2] bcast_S7x6_S1x7x6_1_2 : (⟨S7x6, .f32⟩ : BufTy).Contents (Elt F) → (⟨S1x7x6, .f32⟩ : BufTy).Contents (Elt F)) (res_cst (F := F))
def res_v4 (d : (⟨S500000, .f32⟩ : BufTy).Contents (Elt F)) : (⟨S500000x7x6, .f32⟩ : BufTy).Contents (Elt F) :=
  (broadcastInDim S500000x7x6 ![0, 1, 2] bcast_S500000x1x1_S500000x7x6_0_1_2 : (⟨S500000x1x1, .f32⟩ : BufTy).Contents (Elt F) → (⟨S500000x7x6, .f32⟩ : BufTy).Contents (Elt F)) (res_v2 d)
def res_v5 : (⟨S500000x7x6, .f32⟩ : BufTy).Contents (Elt F) :=
  (broadcastInDim S500000x7x6 ![0, 1, 2] bcast_S1x7x6_S500000x7x6_0_1_2 : (⟨S1x7x6, .f32⟩ : BufTy).Contents (Elt F) → (⟨S500000x7x6, .f32⟩ : BufTy).Contents (Elt F)) (res_v3 (F := F))
def res_v6 (d : (⟨S500000, .f32⟩ : BufTy).Contents (Elt F)) : (⟨S500000x7x6, .f32⟩ : BufTy).Contents (Elt F) :=
  (mulf : (⟨S500000x7x6, .f32⟩ : BufTy).Contents (Elt F) → (⟨S500000x7x6, .f32⟩ : BufTy).Contents (Elt F) → (⟨S500000x7x6, .f32⟩ : BufTy).Contents (Elt F)) (res_v4 d) (res_v5 (F := F))
def res_v7 (d : (⟨S500000, .f32⟩ : BufTy).Contents (Elt F)) : (⟨S500000x7x6, .f32⟩ : BufTy).Contents (Elt F) :=
  (Host.sin : (⟨S500000x7x6, .f32⟩ : BufTy).Contents (Elt F) → (⟨S500000x7x6, .f32⟩ : BufTy).Contents (Elt F)) (res_v6 d)
def res_v8 (d : (⟨S500000, .f32⟩ : BufTy).Contents (Elt F)) : (⟨S500000x7x6, .f32⟩ : BufTy).Contents (Elt F) :=
  (Host.cos : (⟨S500000x7x6, .f32⟩ : BufTy).Contents (Elt F) → (⟨S500000x7x6, .f32⟩ : BufTy).Contents (Elt F)) (res_v6 d)
def res_v9 (d : (⟨S500000, .f32⟩ : BufTy).Contents (Elt F)) : (⟨S500000x7x6, .f32⟩ : BufTy).Contents (Elt F) :=
  (Host.divf : (⟨S500000x7x6, .f32⟩ : BufTy).Contents (Elt F) → (⟨S500000x7x6, .f32⟩ : BufTy).Contents (Elt F) → (⟨S500000x7x6, .f32⟩ : BufTy).Contents (Elt F)) (res_v7 d) (res_v6 d)
def res_v10 (d : (⟨S500000, .f32⟩ : BufTy).Contents (Elt F)) : (⟨S500000x1x6, .f32⟩ : BufTy).Contents (Elt F) :=
  ((extractStridedSlice S500000x1x6 ![0, 0, 0] · slices_S500000x7x6_S500000x1x6_0_0_0) : (⟨S500000x7x6, .f32⟩ : BufTy).Contents (Elt F) → (⟨S500000x1x6, .f32⟩ : BufTy).Contents (Elt F)) (res_v9 d)
def res_v11 (d : (⟨S500000, .f32⟩ : BufTy).Contents (Elt F)) : (⟨S500000x6, .f32⟩ : BufTy).Contents (Elt F) :=
  shapeCast _ (res_v10 d) shapeCasts_S500000x1x6_S500000x6
def res_v12 (d : (⟨S500000, .f32⟩ : BufTy).Contents (Elt F)) : (⟨S500000x7x6, .f32⟩ : BufTy).Contents (Elt F) :=
  (mulf : (⟨S500000x7x6, .f32⟩ : BufTy).Contents (Elt F) → (⟨S500000x7x6, .f32⟩ : BufTy).Contents (Elt F) → (⟨S500000x7x6, .f32⟩ : BufTy).Contents (Elt F)) (res_v6 d) (res_v6 d)
def res_v13 (d : (⟨S500000, .f32⟩ : BufTy).Contents (Elt F)) : (⟨S500000x7x6, .f32⟩ : BufTy).Contents (Elt F) :=
  (Host.divf : (⟨S500000x7x6, .f32⟩ : BufTy).Contents (Elt F) → (⟨S500000x7x6, .f32⟩ : BufTy).Contents (Elt F) → (⟨S500000x7x6, .f32⟩ : BufTy).Contents (Elt F)) (res_v7 d) (res_v12 d)
def res_v14 (d : (⟨S500000, .f32⟩ : BufTy).Contents (Elt F)) : (⟨S500000x7x6, .f32⟩ : BufTy).Contents (Elt F) :=
  (Host.divf : (⟨S500000x7x6, .f32⟩ : BufTy).Contents (Elt F) → (⟨S500000x7x6, .f32⟩ : BufTy).Contents (Elt F) → (⟨S500000x7x6, .f32⟩ : BufTy).Contents (Elt F)) (res_v8 d) (res_v6 d)
def res_v15 (d : (⟨S500000, .f32⟩ : BufTy).Contents (Elt F)) : (⟨S500000x7x6, .f32⟩ : BufTy).Contents (Elt F) :=
  (subf : (⟨S500000x7x6, .f32⟩ : BufTy).Contents (Elt F) → (⟨S500000x7x6, .f32⟩ : BufTy).Contents (Elt F) → (⟨S500000x7x6, .f32⟩ : BufTy).Contents (Elt F)) (res_v13 d) (res_v14 d)
def res_v16 (d : (⟨S500000, .f32⟩ : BufTy).Contents (Elt F)) : (⟨S500000x1x6, .f32⟩ : BufTy).Contents (Elt F) :=
  ((extractStridedSlice S500000x1x6 ![0, 1, 0] · slices_S500000x7x6_S500000x1x6_0_1_0) : (⟨S500000x7x6, .f32⟩ : BufTy).Contents (Elt F) → (⟨S500000x1x6, .f32⟩ : BufTy).Contents (Elt F)) (res_v15 d)
def res_v17 (d : (⟨S500000, .f32⟩ : BufTy).Contents (Elt F)) : (⟨S500000x6, .f32⟩ : BufTy).Contents (Elt F) :=
  shapeCast _ (res_v16 d) shapeCasts_S500000x1x6_S500000x6
def res_cst_2 : (⟨S_, .f32⟩ : BufTy).Contents (Elt F) :=
  (constant S_ .f32 0x40400000#32)
def res_v18 : (⟨S500000x7x6, .f32⟩ : BufTy).Contents (Elt F) :=
  (broadcastInDim S500000x7x6 ![] bcast_S_S500000x7x6 : (⟨S_, .f32⟩ : BufTy).Contents (Elt F) → (⟨S500000x7x6, .f32⟩ : BufTy).Contents (Elt F)) (res_cst_2 (F := F))
def res_v19 (d : (⟨S500000, .f32⟩ : BufTy).Contents (Elt F)) : (⟨S500000x7x6, .f32⟩ : BufTy).Contents (Elt F) :=
  (Host.divf : (⟨S500000x7x6, .f32⟩ : BufTy).Contents (Elt F) → (⟨S500000x7x6, .f32⟩ : BufTy).Contents (Elt F) → (⟨S500000x7x6, .f32⟩ : BufTy).Contents (Elt F)) (res_v18 (F := F)) (res_v6 d)
def res_v20 (d : (⟨S500000, .f32⟩ : BufTy).Contents (Elt F)) : (⟨S500000x7x6, .f32⟩ : BufTy).Contents (Elt F) :=
  (mulf : (⟨S500000x7x6, .f32⟩ : BufTy).Contents (Elt F) → (⟨S500000x7x6, .f32⟩ : BufTy).Contents (Elt F) → (⟨S500000x7x6, .f32⟩ : BufTy).Contents (Elt F)) (res_v19 d) (res_v15 d)
def res_v21 (d : (⟨S500000, .f32⟩ : BufTy).Contents (Elt F)) : (⟨S500000x7x6, .f32⟩ : BufTy).Contents (Elt F) :=
  (subf : (⟨S500000x7x6, .f32⟩ : BufTy).Contents (Elt F) → (⟨S500000x7x6, .f32⟩ : BufTy).Contents (Elt F) → (⟨S500000x7x6, .f32⟩ : BufTy).Contents (Elt F)) (res_v20 d) (res_v9 d)
def res_v22 (d : (⟨S500000, .f32⟩ : BufTy).Contents (Elt F)) : (⟨S500000x1x6, .f32⟩ : BufTy).Contents (Elt F) :=
  ((extractStridedSlice S500000x1x6 ![0, 2, 0] · slices_S500000x7x6_S500000x1x6_0_2_0) : (⟨S500000x7x6, .f32⟩ : BufTy).Contents (Elt F) → (⟨S500000x1x6, .f32⟩ : BufTy).Contents (Elt F)) (res_v21 d)
def res_v23 (d : (⟨S500000, .f32⟩ : BufTy).Contents (Elt F)) : (⟨S500000x6, .f32⟩ : BufTy).Contents (Elt F) :=
  shapeCast _ (res_v22 d) shapeCasts_S500000x1x6_S500000x6
def res_cst_3 : (⟨S_, .f32⟩ : BufTy).Contents (Elt F) :=
  (constant S_ .f32 0x40A00000#32)
def res_v24 : (⟨S500000x7x6, .f32⟩ : BufTy).Contents (Elt F) :=
  (broadcastInDim S500000x7x6 ![] bcast_S_S500000x7x6 : (⟨S_, .f32⟩ : BufTy).Contents (Elt F) → (⟨S500000x7x6, .f32⟩ : BufTy).Contents (Elt F)) (res_cst_3 (F := F))
def res_v25 (d : (⟨S500000, .f32⟩ : BufTy).Contents (Elt F)) : (⟨S500000x7x6, .f32⟩ : BufTy).Contents (Elt F) :=
  (Host.divf : (⟨S500000x7x6, .f32⟩ : BufTy).Contents (Elt F) → (⟨S500000x7x6, .f32⟩ : BufTy).Contents (Elt F) → (⟨S500000x7x6, .f32⟩ : BufTy).Contents (Elt F)) (res_v24 (F := F)) (res_v6 d)
def res_v26 (d : (⟨S500000, .f32⟩ : BufTy).Contents (Elt F)) : (⟨S500000x7x6, .f32⟩ : BufTy).Contents (Elt F) :=
  (mulf : (⟨S500000x7x6, .f32⟩ : BufTy).Contents (Elt F) → (⟨S500000x7x6, .f32⟩ : BufTy).Contents (Elt F) → (⟨S500000x7x6, .f32⟩ : BufTy).Contents (Elt F)) (res_v25 d) (res_v21 d)
def res_v27 (d : (⟨S500000, .f32⟩ : BufTy).Contents (Elt F)) : (⟨S500000x7x6, .f32⟩ : BufTy).Contents (Elt F) :=
  (subf : (⟨S500000x7x6, .f32⟩ : BufTy).Contents (Elt F) → (⟨S500000x7x6, .f32⟩ : BufTy).Contents (Elt F) → (⟨S500000x7x6, .f32⟩ : BufTy).Contents (Elt F)) (res_v26 d) (res_v15 d)
def res_v28 (d : (⟨S500000, .f32⟩ : BufTy).Contents (Elt F)) : (⟨S500000x1x6, .f32⟩ : BufTy).Contents (Elt F) :=
  ((extractStridedSlice S500000x1x6 ![0, 3, 0] · slices_S500000x7x6_S500000x1x6_0_3_0) : (⟨S500000x7x6, .f32⟩ : BufTy).Contents (Elt F) → (⟨S500000x1x6, .f32⟩ : BufTy).Contents (Elt F)) (res_v27 d)
def res_v29 (d : (⟨S500000, .f32⟩ : BufTy).Contents (Elt F)) : (⟨S500000x6, .f32⟩ : BufTy).Contents (Elt F) :=
  shapeCast _ (res_v28 d) shapeCasts_S500000x1x6_S500000x6
def res_cst_4 : (⟨S_, .f32⟩ : BufTy).Contents (Elt F) :=
  (constant S_ .f32 0x40E00000#32)
def res_v30 : (⟨S500000x7x6, .f32⟩ : BufTy).Contents (Elt F) :=
  (broadcastInDim S500000x7x6 ![] bcast_S_S500000x7x6 : (⟨S_, .f32⟩ : BufTy).Contents (Elt F) → (⟨S500000x7x6, .f32⟩ : BufTy).Contents (Elt F)) (res_cst_4 (F := F))
def res_v31 (d : (⟨S500000, .f32⟩ : BufTy).Contents (Elt F)) : (⟨S500000x7x6, .f32⟩ : BufTy).Contents (Elt F) :=
  (Host.divf : (⟨S500000x7x6, .f32⟩ : BufTy).Contents (Elt F) → (⟨S500000x7x6, .f32⟩ : BufTy).Contents (Elt F) → (⟨S500000x7x6, .f32⟩ : BufTy).Contents (Elt F)) (res_v30 (F := F)) (res_v6 d)
def res_v32 (d : (⟨S500000, .f32⟩ : BufTy).Contents (Elt F)) : (⟨S500000x7x6, .f32⟩ : BufTy).Contents (Elt F) :=
  (mulf : (⟨S500000x7x6, .f32⟩ : BufTy).Contents (Elt F) → (⟨S500000x7x6, .f32⟩ : BufTy).Contents (Elt F) → (⟨S500000x7x6, .f32⟩ : BufTy).Contents (Elt F)) (res_v31 d) (res_v27 d)
def res_v33 (d : (⟨S500000, .f32⟩ : BufTy).Contents (Elt F)) : (⟨S500000x7x6, .f32⟩ : BufTy).Contents (Elt F) :=
  (subf : (⟨S500000x7x6, .f32⟩ : BufTy).Contents (Elt F) → (⟨S500000x7x6, .f32⟩ : BufTy).Contents (Elt F) → (⟨S500000x7x6, .f32⟩ : BufTy).Contents (Elt F)) (res_v32 d) (res_v21 d)
def res_v34 (d : (⟨S500000, .f32⟩ : BufTy).Contents (Elt F)) : (⟨S500000x1x6, .f32⟩ : BufTy).Contents (Elt F) :=
  ((extractStridedSlice S500000x1x6 ![0, 4, 0] · slices_S500000x7x6_S500000x1x6_0_4_0) : (⟨S500000x7x6, .f32⟩ : BufTy).Contents (Elt F) → (⟨S500000x1x6, .f32⟩ : BufTy).Contents (Elt F)) (res_v33 d)
def res_v35 (d : (⟨S500000, .f32⟩ : BufTy).Contents (Elt F)) : (⟨S500000x6, .f32⟩ : BufTy).Contents (Elt F) :=
  shapeCast _ (res_v34 d) shapeCasts_S500000x1x6_S500000x6
def res_cst_5 : (⟨S_, .f32⟩ : BufTy).Contents (Elt F) :=
  (constant S_ .f32 0x41100000#32)
def res_v36 : (⟨S500000x7x6, .f32⟩ : BufTy).Contents (Elt F) :=
  (broadcastInDim S500000x7x6 ![] bcast_S_S500000x7x6 : (⟨S_, .f32⟩ : BufTy).Contents (Elt F) → (⟨S500000x7x6, .f32⟩ : BufTy).Contents (Elt F)) (res_cst_5 (F := F))
def res_v37 (d : (⟨S500000, .f32⟩ : BufTy).Contents (Elt F)) : (⟨S500000x7x6, .f32⟩ : BufTy).Contents (Elt F) :=
  (Host.divf : (⟨S500000x7x6, .f32⟩ : BufTy).Contents (Elt F) → (⟨S500000x7x6, .f32⟩ : BufTy).Contents (Elt F) → (⟨S500000x7x6, .f32⟩ : BufTy).Contents (Elt F)) (res_v36 (F := F)) (res_v6 d)
def res_v38 (d : (⟨S500000, .f32⟩ : BufTy).Contents (Elt F)) : (⟨S500000x7x6, .f32⟩ : BufTy).Contents (Elt F) :=
  (mulf : (⟨S500000x7x6, .f32⟩ : BufTy).Contents (Elt F) → (⟨S500000x7x6, .f32⟩ : BufTy).Contents (Elt F) → (⟨S500000x7x6, .f32⟩ : BufTy).Contents (Elt F)) (res_v37 d) (res_v33 d)
def res_v39 (d : (⟨S500000, .f32⟩ : BufTy).Contents (Elt F)) : (⟨S500000x7x6, .f32⟩ : BufTy).Contents (Elt F) :=
  (subf : (⟨S500000x7x6, .f32⟩ : BufTy).Contents (Elt F) → (⟨S500000x7x6, .f32⟩ : BufTy).Contents (Elt F) → (⟨S500000x7x6, .f32⟩ : BufTy).Contents (Elt F)) (res_v38 d) (res_v27 d)
def res_v40 (d : (⟨S500000, .f32⟩ : BufTy).Contents (Elt F)) : (⟨S500000x1x6, .f32⟩ : BufTy).Contents (Elt F) :=
  ((extractStridedSlice S500000x1x6 ![0, 5, 0] · slices_S500000x7x6_S500000x1x6_0_5_0) : (⟨S500000x7x6, .f32⟩ : BufTy).Contents (Elt F) → (⟨S500000x1x6, .f32⟩ : BufTy).Contents (Elt F)) (res_v39 d)
def res_v41 (d : (⟨S500000, .f32⟩ : BufTy).Contents (Elt F)) : (⟨S500000x6, .f32⟩ : BufTy).Contents (Elt F) :=
  shapeCast _ (res_v40 d) shapeCasts_S500000x1x6_S500000x6
def res_cst_6 : (⟨S_, .f32⟩ : BufTy).Contents (Elt F) :=
  (constant S_ .f32 0x41300000#32)
def res_v42 : (⟨S500000x7x6, .f32⟩ : BufTy).Contents (Elt F) :=
  (broadcastInDim S500000x7x6 ![] bcast_S_S500000x7x6 : (⟨S_, .f32⟩ : BufTy).Contents (Elt F) → (⟨S500000x7x6, .f32⟩ : BufTy).Contents (Elt F)) (res_cst_6 (F := F))
def res_v43 (d : (⟨S500000, .f32⟩ : BufTy).Contents (Elt F)) : (⟨S500000x7x6, .f32⟩ : BufTy).Contents (Elt F) :=
  (Host.divf : (⟨S500000x7x6, .f32⟩ : BufTy).Contents (Elt F) → (⟨S500000x7x6, .f32⟩ : BufTy).Contents (Elt F) → (⟨S500000x7x6, .f32⟩ : BufTy).Contents (Elt F)) (res_v42 (F := F)) (res_v6 d)
def res_v44 (d : (⟨S500000, .f32⟩ : BufTy).Contents (Elt F)) : (⟨S500000x7x6, .f32⟩ : BufTy).Contents (Elt F) :=
  (mulf : (⟨S500000x7x6, .f32⟩ : BufTy).Contents (Elt F) → (⟨S500000x7x6, .f32⟩ : BufTy).Contents (Elt F) → (⟨S500000x7x6, .f32⟩ : BufTy).Contents (Elt F)) (res_v43 d) (res_v39 d)
def res_v45 (d : (⟨S500000, .f32⟩ : BufTy).Contents (Elt F)) : (⟨S500000x7x6, .f32⟩ : BufTy).Contents (Elt F) :=
  (subf : (⟨S500000x7x6, .f32⟩ : BufTy).Contents (Elt F) → (⟨S500000x7x6, .f32⟩ : BufTy).Contents (Elt F) → (⟨S500000x7x6, .f32⟩ : BufTy).Contents (Elt F)) (res_v44 d) (res_v33 d)
def res_v46 (d : (⟨S500000, .f32⟩ : BufTy).Contents (Elt F)) : (⟨S500000x1x6, .f32⟩ : BufTy).Contents (Elt F) :=
  ((extractStridedSlice S500000x1x6 ![0, 6, 0] · slices_S500000x7x6_S500000x1x6_0_6_0) : (⟨S500000x7x6, .f32⟩ : BufTy).Contents (Elt F) → (⟨S500000x1x6, .f32⟩ : BufTy).Contents (Elt F)) (res_v45 d)
def res_v47 (d : (⟨S500000, .f32⟩ : BufTy).Contents (Elt F)) : (⟨S500000x6, .f32⟩ : BufTy).Contents (Elt F) :=
  shapeCast _ (res_v46 d) shapeCasts_S500000x1x6_S500000x6
def res_v48 (d : (⟨S500000, .f32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (res_v11 d)
def res_v49 (d : (⟨S500000, .f32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (res_v17 d)
def res_v50 (d : (⟨S500000, .f32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (res_v23 d)
def res_v51 (d : (⟨S500000, .f32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (res_v29 d)
def res_v52 (d : (⟨S500000, .f32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (res_v35 d)
def res_v53 (d : (⟨S500000, .f32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (res_v41 d)
def res_v54 (d : (⟨S500000, .f32⟩ : BufTy).Contents (Elt F)) : (⟨S500000x1x6, .f32⟩ : BufTy).Contents (Elt F) :=
  (broadcastInDim S500000x1x6 ![0, 2] bcast_S500000x6_S500000x1x6_0_2 : (⟨S500000x6, .f32⟩ : BufTy).Contents (Elt F) → (⟨S500000x1x6, .f32⟩ : BufTy).Contents (Elt F)) (res_v47 d)
def res_v55 (d : (⟨S500000, .f32⟩ : BufTy).Contents (Elt F)) : (⟨S500000x7x6, .f32⟩ : BufTy).Contents (Elt F) :=
  concatenate S500000x7x6 1 [⟨S500000x1x6, (res_v48 d)⟩, ⟨S500000x1x6, (res_v49 d)⟩, ⟨S500000x1x6, (res_v50 d)⟩, ⟨S500000x1x6, (res_v51 d)⟩, ⟨S500000x1x6, (res_v52 d)⟩, ⟨S500000x1x6, (res_v53 d)⟩, ⟨S500000x1x6, (res_v54 d)⟩] concatenates_S500000x1x6_S500000x1x6_S500000x1x6_S500000x1x6_S500000x1x6_S500000x1x6_S500000x1x6_S500000x7x6_d1
def res_v56 : (⟨S1x7x6, .f32⟩ : BufTy).Contents (Elt F) :=
  (broadcastInDim S1x7x6 ![1, 2] bcast_S7x6_S1x7x6_1_2 : (⟨S7x6, .f32⟩ : BufTy).Contents (Elt F) → (⟨S1x7x6, .f32⟩ : BufTy).Contents (Elt F)) (res_cst_0 (F := F))
def res_v57 : (⟨S500000x7x6, .f32⟩ : BufTy).Contents (Elt F) :=
  (broadcastInDim S500000x7x6 ![0, 1, 2] bcast_S1x7x6_S500000x7x6_0_1_2 : (⟨S1x7x6, .f32⟩ : BufTy).Contents (Elt F) → (⟨S500000x7x6, .f32⟩ : BufTy).Contents (Elt F)) (res_v56 (F := F))
def res_v58 (d : (⟨S500000, .f32⟩ : BufTy).Contents (Elt F)) : (⟨S500000x7x6, .f32⟩ : BufTy).Contents (Elt F) :=
  (mulf : (⟨S500000x7x6, .f32⟩ : BufTy).Contents (Elt F) → (⟨S500000x7x6, .f32⟩ : BufTy).Contents (Elt F) → (⟨S500000x7x6, .f32⟩ : BufTy).Contents (Elt F)) (res_v55 d) (res_v57 (F := F))
def res_v59 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v1 d) (res_v1 d)
def res_v60 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v59 d) (res_v59 d)
def res_v61 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v1 d) (res_v60 d)
def res_cst_7 : (⟨S_, .f32⟩ : BufTy).Contents (Elt F) :=
  (constant S_ .f32 0x41A80000#32)
def res_v62 : (⟨S500000, .f32⟩ : BufTy).Contents (Elt F) :=
  (broadcastInDim S500000 ![] bcast_S_S500000 : (⟨S_, .f32⟩ : BufTy).Contents (Elt F) → (⟨S500000, .f32⟩ : BufTy).Contents (Elt F)) (res_cst_7 (F := F))
def res_v63 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v62 (F := F)) (res_v61 d)
def res_cst_8 : (⟨S_, .f32⟩ : BufTy).Contents (Elt F) :=
  (constant S_ .f32 0x3F800000#32)
def res_v64 : (⟨S500000, .f32⟩ : BufTy).Contents (Elt F) :=
  (broadcastInDim S500000 ![] bcast_S_S500000 : (⟨S_, .f32⟩ : BufTy).Contents (Elt F) → (⟨S500000, .f32⟩ : BufTy).Contents (Elt F)) (res_cst_8 (F := F))
def res_v65 (d : (⟨S500000, .f32⟩ : BufTy).Contents (Elt F)) : (⟨S500000, .f32⟩ : BufTy).Contents (Elt F) :=
  (subf : (⟨S500000, .f32⟩ : BufTy).Contents (Elt F) → (⟨S500000, .f32⟩ : BufTy).Contents (Elt F) → (⟨S500000, .f32⟩ : BufTy).Contents (Elt F)) (res_v64 (F := F)) (res_v63 d)
def res_v66 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v1 d) (res_v1 d)
def res_v67 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v66 d) (res_v66 d)
def res_v68 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v66 d) (res_v67 d)
def res_cst_9 : (⟨S_, .f32⟩ : BufTy).Contents (Elt F) :=
  (constant S_ .f32 0x420C0000#32)
def res_v69 : (⟨S500000, .f32⟩ : BufTy).Contents (Elt F) :=
  (broadcastInDim S500000 ![] bcast_S_S500000 : (⟨S_, .f32⟩ : BufTy).Contents (Elt F) → (⟨S500000, .f32⟩ : BufTy).Contents (Elt F)) (res_cst_9 (F := F))
def res_v70 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v69 (F := F)) (res_v68 d)
def res_v71 (d : (⟨S500000, .f32⟩ : BufTy).Contents (Elt F)) : (⟨S500000, .f32⟩ : BufTy).Contents (Elt F) :=
  (addf : (⟨S500000, .f32⟩ : BufTy).Contents (Elt F) → (⟨S500000, .f32⟩ : BufTy).Contents (Elt F) → (⟨S500000, .f32⟩ : BufTy).Contents (Elt F)) (res_v65 d) (res_v70 d)
def res_v72 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v1 d) (res_v1 d)
def res_v73 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v1 d) (res_v72 d)
def res_v74 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v72 d) (res_v72 d)
def res_v75 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v73 d) (res_v74 d)
def res_cst_10 : (⟨S_, .f32⟩ : BufTy).Contents (Elt F) :=
  (constant S_ .f32 0x41700000#32)
def res_v76 : (⟨S500000, .f32⟩ : BufTy).Contents (Elt F) :=
  (broadcastInDim S500000 ![] bcast_S_S500000 : (⟨S_, .f32⟩ : BufTy).Contents (Elt F) → (⟨S500000, .f32⟩ : BufTy).Contents (Elt F)) (res_cst_10 (F := F))
def res_v77 (d : (⟨S500000, .f32⟩ : BufTy).Contents (Elt F)) : (⟨S500000, .f32⟩ : BufTy).Contents (Elt F) :=
  (mulf : (⟨S500000, .f32⟩ : BufTy).Contents (Elt F) → (⟨S500000, .f32⟩ : BufTy).Contents (Elt F) → (⟨S500000, .f32⟩ : BufTy).Contents (Elt F)) (res_v76 (F := F)) (res_v75 d)
def res_v78 (d : (⟨S500000, .f32⟩ : BufTy).Contents (Elt F)) : (⟨S500000, .f32⟩ : BufTy).Contents (Elt F) :=
  (subf : (⟨S500000, .f32⟩ : BufTy).Contents (Elt F) → (⟨S500000, .f32⟩ : BufTy).Contents (Elt F) → (⟨S500000, .f32⟩ : BufTy).Contents (Elt F)) (res_v71 d) (res_v77 d)
def res_v79 (d : (⟨S500000, .f32⟩ : BufTy).Contents (Elt F)) : (⟨S500000x1x1, .f32⟩ : BufTy).Contents (Elt F) :=
  (broadcastInDim S500000x1x1 ![0] bcast_S500000_S500000x1x1_0 : (⟨S500000, .f32⟩ : BufTy).Contents (Elt F) → (⟨S500000x1x1, .f32⟩ : BufTy).Contents (Elt F)) (res_v78 d)
def res_v80 (d : (⟨S500000, .f32⟩ : BufTy).Contents (Elt F)) : (⟨S500000x7x6, .f32⟩ : BufTy).Contents (Elt F) :=
  (broadcastInDim S500000x7x6 ![0, 1, 2] bcast_S500000x1x1_S500000x7x6_0_1_2 : (⟨S500000x1x1, .f32⟩ : BufTy).Contents (Elt F) → (⟨S500000x7x6, .f32⟩ : BufTy).Contents (Elt F)) (res_v79 d)
def res_v81 (d : (⟨S500000, .f32⟩ : BufTy).Contents (Elt F)) : (⟨S500000x7x6, .f32⟩ : BufTy).Contents (Elt F) :=
  (mulf : (⟨S500000x7x6, .f32⟩ : BufTy).Contents (Elt F) → (⟨S500000x7x6, .f32⟩ : BufTy).Contents (Elt F) → (⟨S500000x7x6, .f32⟩ : BufTy).Contents (Elt F)) (res_v80 d) (res_v58 d)
def res_v82 (d : (⟨S500000, .f32⟩ : BufTy).Contents (Elt F)) : (⟨S500000x42, .f32⟩ : BufTy).Contents (Elt F) :=
  shapeCast _ (res_v81 d) shapeCasts_S500000x7x6_S500000x42
def res_c : (⟨S_, .i32⟩ : BufTy).Contents (Elt F) :=
  (constantI S_ 32 0#32)
def res_v83 : (⟨S2000000, .i32⟩ : BufTy).Contents (Elt F) :=
  (broadcastInDim S2000000 ![] bcast_S_S2000000 : (⟨S_, .i32⟩ : BufTy).Contents (Elt F) → (⟨S2000000, .i32⟩ : BufTy).Contents (Elt F)) (res_c (F := F))
def res_v84 (kj : (⟨S2000000, .i32⟩ : BufTy).Contents (Elt F)) : (⟨S2000000, .i1⟩ : BufTy).Contents (Elt F) :=
  (cmpi .slt : (⟨S2000000, .i32⟩ : BufTy).Contents (Elt F) → (⟨S2000000, .i32⟩ : BufTy).Contents (Elt F) → (⟨S2000000, .i1⟩ : BufTy).Contents (Elt F)) kj (res_v83 (F := F))
def res_c_11 : (⟨S_, .i32⟩ : BufTy).Contents (Elt F) :=
  (constantI S_ 32 500000#32)
def res_v85 : (⟨S2000000, .i32⟩ : BufTy).Contents (Elt F) :=
  (broadcastInDim S2000000 ![] bcast_S_S2000000 : (⟨S_, .i32⟩ : BufTy).Contents (Elt F) → (⟨S2000000, .i32⟩ : BufTy).Contents (Elt F)) (res_c_11 (F := F))
def res_v86 (kj : (⟨S2000000, .i32⟩ : BufTy).Contents (Elt F)) : (⟨S2000000, .i32⟩ : BufTy).Contents (Elt F) :=
  (addi : (⟨S2000000, .i32⟩ : BufTy).Contents (Elt F) → (⟨S2000000, .i32⟩ : BufTy).Contents (Elt F) → (⟨S2000000, .i32⟩ : BufTy).Contents (Elt F)) kj (res_v85 (F := F))
def res_v87 (kj : (⟨S2000000, .i32⟩ : BufTy).Contents (Elt F)) : (⟨S2000000, .i32⟩ : BufTy).Contents (Elt F) :=
  (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)) (res_v84 kj) (res_v86 kj) kj
def res_v88 (kj : (⟨S2000000, .i32⟩ : BufTy).Contents (Elt F)) : (⟨S2000000x1, .i32⟩ : BufTy).Contents (Elt F) :=
  (broadcastInDim S2000000x1 ![0] bcast_S2000000_S2000000x1_0 : (⟨S2000000, .i32⟩ : BufTy).Contents (Elt F) → (⟨S2000000x1, .i32⟩ : BufTy).Contents (Elt F)) (res_v87 kj)
def res_v89 (d : (⟨S500000, .f32⟩ : BufTy).Contents (Elt F)) (kj : (⟨S2000000, .i32⟩ : BufTy).Contents (Elt F)) : (⟨S2000000x42, .f32⟩ : BufTy).Contents (Elt F) :=
  ((fun x i => Host.gather gather_S500000x42_S2000000x1_S2000000x42_1_0_n_n_0_1_142 x i) : (⟨S500000x42, .f32⟩ : BufTy).Contents (Elt F) → (⟨S2000000x1, .i32⟩ : BufTy).Contents (Elt F) → (⟨S2000000x42, .f32⟩ : BufTy).Contents (Elt F)) (res_v82 d) (res_v88 kj)
def res_v90 (ang : (⟨S2000000, .f32⟩ : BufTy).Contents (Elt F)) : (⟨S2000000, .f32⟩ : BufTy).Contents (Elt F) :=
  (Host.cos : (⟨S2000000, .f32⟩ : BufTy).Contents (Elt F) → (⟨S2000000, .f32⟩ : BufTy).Contents (Elt F)) ang
def res_cst_12 : (⟨S_, .f32⟩ : BufTy).Contents (Elt F) :=
  (constant S_ .f32 0x3F800000#32)
def res_v91 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_12 (F := F))
def res_cst_13 : (⟨S_, .f32⟩ : BufTy).Contents (Elt F) :=
  (constant S_ .f32 0x3E906EBB#32)
def res_v92 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_13 (F := F))
def res_v93 : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v91 (F := F)) (res_v92 (F := F))
def res_cst_14 : (⟨S_, .f32⟩ : BufTy).Contents (Elt F) :=
  (constant S_ .f32 0x3EFA2A1C#32)
def res_v94 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_14 (F := F))
def res_v95 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v90 ang) (res_v94 (F := F))
def res_cst_15 : (⟨S_, .f32⟩ : BufTy).Contents (Elt F) :=
  (constant S_ .f32 0x40400000#32)
def res_v96 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_15 (F := F))
def res_v97 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v96 (F := F)) (res_v90 ang)
def res_v98 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v97 ang) (res_v90 ang)
def res_cst_16 : (⟨S_, .f32⟩ : BufTy).Contents (Elt F) :=
  (constant S_ .f32 0x3F800000#32)
def res_v99 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_16 (F := F))
def res_v100 : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v99 (F := F)) (res_v91 (F := F))
def res_v101 (ang : (⟨S2000000, .f32⟩ : BufTy).Contents (Elt F)) : (⟨S2000000, .f32⟩ : BufTy).Contents (Elt F) :=
  (subf : (⟨S2000000, .f32⟩ : BufTy).Contents (Elt F) → (⟨S2000000, .f32⟩ : BufTy).Contents (Elt F) → (⟨S2000000, .f32⟩ : BufTy).Contents (Elt F)) (res_v98 ang) (res_v100 (F := F))
def res_cst_17 : (⟨S_, .f32⟩ : BufTy).Contents (Elt F) :=
  (constant S_ .f32 0x40000000#32)
def res_v102 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_17 (F := F))
def res_v103 (ang : (⟨S2000000, .f32⟩ : BufTy).Contents (Elt F)) : (⟨S2000000, .f32⟩ : BufTy).Contents (Elt F) :=
  (Host.divf : (⟨S2000000, .f32⟩ : BufTy).Contents (Elt F) → (⟨S2000000, .f32⟩ : BufTy).Contents (Elt F) → (⟨S2000000, .f32⟩ : BufTy).Contents (Elt F)) (res_v101 ang) (res_v102 (F := F))
def res_cst_18 : (⟨S_, .f32⟩ : BufTy).Contents (Elt F) :=
  (constant S_ .f32 0x3F217B01#32)
def res_v104 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_18 (F := F))
def res_v105 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v103 ang) (res_v104 (F := F))
def res_cst_19 : (⟨S_, .f32⟩ : BufTy).Contents (Elt F) :=
  (constant S_ .f32 0x40A00000#32)
def res_v106 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_19 (F := F))
def res_v107 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v106 (F := F)) (res_v90 ang)
def res_v108 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v107 ang) (res_v103 ang)
def res_cst_20 : (⟨S_, .f32⟩ : BufTy).Contents (Elt F) :=
  (constant S_ .f32 0x40000000#32)
def res_v109 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_20 (F := F))
def res_v110 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v109 (F := F)) (res_v90 ang)
def res_v111 (ang : (⟨S2000000, .f32⟩ : BufTy).Contents (Elt F)) : (⟨S2000000, .f32⟩ : BufTy).Contents (Elt F) :=
  (subf : (⟨S2000000, .f32⟩ : BufTy).Contents (Elt F) → (⟨S2000000, .f32⟩ : BufTy).Contents (Elt F) → (⟨S2000000, .f32⟩ : BufTy).Contents (Elt F)) (res_v108 ang) (res_v110 ang)
def res_cst_21 : (⟨S_, .f32⟩ : BufTy).Contents (Elt F) :=
  (constant S_ .f32 0x40400000#32)
def res_v112 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_21 (F := F))
def res_v113 (ang : (⟨S2000000, .f32⟩ : BufTy).Contents (Elt F)) : (⟨S2000000, .f32⟩ : BufTy).Contents (Elt F) :=
  (Host.divf : (⟨S2000000, .f32⟩ : BufTy).Contents (Elt F) → (⟨S2000000, .f32⟩ : BufTy).Contents (Elt F) → (⟨S2000000, .f32⟩ : BufTy).Contents (Elt F)) (res_v111 ang) (res_v112 (F := F))
def res_cst_22 : (⟨S_, .f32⟩ : BufTy).Contents (Elt F) :=
  (constant S_ .f32 0x3F3F10F8#32)
def res_v114 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_22 (F := F))
def res_v115 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v113 ang) (res_v114 (F := F))
def res_cst_23 : (⟨S_, .f32⟩ : BufTy).Contents (Elt F) :=
  (constant S_ .f32 0x40E00000#32)
def res_v116 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_23 (F := F))
def res_v117 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v116 (F := F)) (res_v90 ang)
def res_v118 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v117 ang) (res_v113 ang)
def res_cst_24 : (⟨S_, .f32⟩ : BufTy).Contents (Elt F) :=
  (constant S_ .f32 0x40400000#32)
def res_v119 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_24 (F := F))
def res_v120 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v119 (F := F)) (res_v103 ang)
def res_v121 (ang : (⟨S2000000, .f32⟩ : BufTy).Contents (Elt F)) : (⟨S2000000, .f32⟩ : BufTy).Contents (Elt F) :=
  (subf : (⟨S2000000, .f32⟩ : BufTy).Contents (Elt F) → (⟨S2000000, .f32⟩ : BufTy).Contents (Elt F) → (⟨S2000000, .f32⟩ : BufTy).Contents (Elt F)) (res_v118 ang) (res_v120 ang)
def res_cst_25 : (⟨S_, .f32⟩ : BufTy).Contents (Elt F) :=
  (constant S_ .f32 0x40800000#32)
def res_v122 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_25 (F := F))
def res_v123 (ang : (⟨S2000000, .f32⟩ : BufTy).Contents (Elt F)) : (⟨S2000000, .f32⟩ : BufTy).Contents (Elt F) :=
  (Host.divf : (⟨S2000000, .f32⟩ : BufTy).Contents (Elt F) → (⟨S2000000, .f32⟩ : BufTy).Contents (Elt F) → (⟨S2000000, .f32⟩ : BufTy).Contents (Elt F)) (res_v121 ang) (res_v122 (F := F))
def res_cst_26 : (⟨S_, .f32⟩ : BufTy).Contents (Elt F) :=
  (constant S_ .f32 0x3F58A618#32)
def res_v124 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_26 (F := F))
def res_v125 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v123 ang) (res_v124 (F := F))
def res_cst_27 : (⟨S_, .f32⟩ : BufTy).Contents (Elt F) :=
  (constant S_ .f32 0x41100000#32)
def res_v126 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_27 (F := F))
def res_v127 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v126 (F := F)) (res_v90 ang)
def res_v128 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v127 ang) (res_v123 ang)
def res_cst_28 : (⟨S_, .f32⟩ : BufTy).Contents (Elt F) :=
  (constant S_ .f32 0x40800000#32)
def res_v129 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_28 (F := F))
def res_v130 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v129 (F := F)) (res_v113 ang)
def res_v131 (ang : (⟨S2000000, .f32⟩ : BufTy).Contents (Elt F)) : (⟨S2000000, .f32⟩ : BufTy).Contents (Elt F) :=
  (subf : (⟨S2000000, .f32⟩ : BufTy).Contents (Elt F) → (⟨S2000000, .f32⟩ : BufTy).Contents (Elt F) → (⟨S2000000, .f32⟩ : BufTy).Contents (Elt F)) (res_v128 ang) (res_v130 ang)
def res_cst_29 : (⟨S_, .f32⟩ : BufTy).Contents (Elt F) :=
  (constant S_ .f32 0x40A00000#32)
def res_v132 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_29 (F := F))
def res_v133 (ang : (⟨S2000000, .f32⟩ : BufTy).Contents (Elt F)) : (⟨S2000000, .f32⟩ : BufTy).Contents (Elt F) :=
  (Host.divf : (⟨S2000000, .f32⟩ : BufTy).Contents (Elt F) → (⟨S2000000, .f32⟩ : BufTy).Contents (Elt F) → (⟨S2000000, .f32⟩ : BufTy).Contents (Elt F)) (res_v131 ang) (res_v132 (F := F))
def res_cst_30 : (⟨S_, .f32⟩ : BufTy).Contents (Elt F) :=
  (constant S_ .f32 0x3F6F83A7#32)
def res_v134 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_30 (F := F))
def res_v135 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v133 ang) (res_v134 (F := F))
def res_cst_31 : (⟨S_, .f32⟩ : BufTy).Contents (Elt F) :=
  (constant S_ .f32 0x41300000#32)
def res_v136 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_31 (F := F))
def res_v137 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v136 (F := F)) (res_v90 ang)
def res_v138 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v137 ang) (res_v133 ang)
def res_cst_32 : (⟨S_, .f32⟩ : BufTy).Contents (Elt F) :=
  (constant S_ .f32 0x40A00000#32)
def res_v139 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_32 (F := F))
def res_v140 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v139 (F := F)) (res_v123 ang)
def res_v141 (ang : (⟨S2000000, .f32⟩ : BufTy).Contents (Elt F)) : (⟨S2000000, .f32⟩ : BufTy).Contents (Elt F) :=
  (subf : (⟨S2000000, .f32⟩ : BufTy).Contents (Elt F) → (⟨S2000000, .f32⟩ : BufTy).Contents (Elt F) → (⟨S2000000, .f32⟩ : BufTy).Contents (Elt F)) (res_v138 ang) (res_v140 ang)
def res_cst_33 : (⟨S_, .f32⟩ : BufTy).Contents (Elt F) :=
  (constant S_ .f32 0x40C00000#32)
def res_v142 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_33 (F := F))
def res_v143 (ang : (⟨S2000000, .f32⟩ : BufTy).Contents (Elt F)) : (⟨S2000000, .f32⟩ : BufTy).Contents (Elt F) :=
  (Host.divf : (⟨S2000000, .f32⟩ : BufTy).Contents (Elt F) → (⟨S2000000, .f32⟩ : BufTy).Contents (Elt F) → (⟨S2000000, .f32⟩ : BufTy).Contents (Elt F)) (res_v141 ang) (res_v142 (F := F))
def res_cst_34 : (⟨S_, .f32⟩ : BufTy).Contents (Elt F) :=
  (constant S_ .f32 0x3F823092#32)
def res_v144 : (⟨S2000000, .f32⟩ : BufTy).Contents (Elt F) :=
  (broadcastInDim S2000000 ![] bcast_S_S2000000 : (⟨S_, .f32⟩ : BufTy).Contents (Elt F) → (⟨S2000000, .f32⟩ : BufTy).Contents (Elt F)) (res_cst_34 (F := F))
def res_v145 (ang : (⟨S2000000, .f32⟩ : BufTy).Contents (Elt F)) : (⟨S2000000, .f32⟩ : BufTy).Contents (Elt F) :=
  (mulf : (⟨S2000000, .f32⟩ : BufTy).Contents (Elt F) → (⟨S2000000, .f32⟩ : BufTy).Contents (Elt F) → (⟨S2000000, .f32⟩ : BufTy).Contents (Elt F)) (res_v143 ang) (res_v144 (F := F))
def res_v146 : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (res_v93 (F := F))
def res_v147 (ang : (⟨S2000000, .f32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (res_v95 ang)
def res_v148 (ang : (⟨S2000000, .f32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (res_v105 ang)
def res_v149 (ang : (⟨S2000000, .f32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (res_v115 ang)
def res_v150 (ang : (⟨S2000000, .f32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (res_v125 ang)
def res_v151 (ang : (⟨S2000000, .f32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (res_v135 ang)
def res_v152 (ang : (⟨S2000000, .f32⟩ : BufTy).Contents (Elt F)) : (⟨S2000000x1, .f32⟩ : BufTy).Contents (Elt F) :=
  (broadcastInDim S2000000x1 ![0] bcast_S2000000_S2000000x1_0 : (⟨S2000000, .f32⟩ : BufTy).Contents (Elt F) → (⟨S2000000x1, .f32⟩ : BufTy).Contents (Elt F)) (res_v145 ang)
def res_v153 (ang : (⟨S2000000, .f32⟩ : BufTy).Contents (Elt F)) : (⟨S2000000x7, .f32⟩ : BufTy).Contents (Elt F) :=
  concatenate S2000000x7 1 [⟨S2000000x1, (res_v146 (F := F))⟩, ⟨S2000000x1, (res_v147 ang)⟩, ⟨S2000000x1, (res_v148 ang)⟩, ⟨S2000000x1, (res_v149 ang)⟩, ⟨S2000000x1, (res_v150 ang)⟩, ⟨S2000000x1, (res_v151 ang)⟩, ⟨S2000000x1, (res_v152 ang)⟩] concatenates_S2000000x1_S2000000x1_S2000000x1_S2000000x1_S2000000x1_S2000000x1_S2000000x1_S2000000x7_d1
def res_v154 (ang : (⟨S2000000, .f32⟩ : BufTy).Contents (Elt F)) : (⟨S2000000x7x6, .f32⟩ : BufTy).Contents (Elt F) :=
  (broadcastInDim S2000000x7x6 ![0, 1] bcast_S2000000x7_S2000000x7x6_0_1 : (⟨S2000000x7, .f32⟩ : BufTy).Contents (Elt F) → (⟨S2000000x7x6, .f32⟩ : BufTy).Contents (Elt F)) (res_v153 ang)
def res_v155 (ang : (⟨S2000000, .f32⟩ : BufTy).Contents (Elt F)) : (⟨S2000000x42, .f32⟩ : BufTy).Contents (Elt F) :=
  shapeCast _ (res_v154 ang) shapeCasts_S2000000x7x6_S2000000x42
def res_v156 (d : (⟨S500000, .f32⟩ : BufTy).Contents (Elt F)) (ang : (⟨S2000000, .f32⟩ : BufTy).Contents (Elt F)) (kj : (⟨S2000000, .i32⟩ : BufTy).Contents (Elt F)) : (⟨S2000000x42, .f32⟩ : BufTy).Contents (Elt F) :=
  (mulf : (⟨S2000000x42, .f32⟩ : BufTy).Contents (Elt F) → (⟨S2000000x42, .f32⟩ : BufTy).Contents (Elt F) → (⟨S2000000x42, .f32⟩ : BufTy).Contents (Elt F)) (res_v89 d kj) (res_v155 ang)

end Cert.ReferenceIdeal.Stages

end
-- ==== Proof.RefLine.lean ====
/-
  The reference program's @main is the line of its 194 host operations; and, of any straight line of operations that
  writes each buffer once, every written buffer ends holding its operation's function of what the operands end holding.
-/
import proofs.«404429_j65481071394972_3_alg».proof.Proof.RefOps
import proofs.«404429_j65481071394972_3_alg».proof.Proof.RefStages
import Idealize.ShloMosaic.Lib.StableHlo.Run

set_option maxRecDepth 65536

noncomputable section

namespace Cert.ReferenceIdeal.RefRun

open Cert.ReferenceIdeal Cert.ReferenceIdeal.Gen Cert.ReferenceIdeal.Stages
open Idealize.ShloMosaic Idealize.ShloMosaic.TcCoe Idealize.SL.Sem Idealize.ShloMosaic.StableHlo

variable {F : FTy → Type} [FloatOps F]

/-! ## @main is the line of its operations

Each printed window of @main is the line of its own stretch of the list, and a line of two stretches is one run after the other. -/

theorem part0_eq (c : Dev nD) : main_part0 (F := F) c = seq (ops.take 60) := rfl
theorem part1_eq (c : Dev nD) : main_part1 (F := F) c = seq ((ops.drop 60).take 60) := rfl
theorem part2_eq (c : Dev nD) : main_part2 (F := F) c = seq ((ops.drop 120).take 60) := rfl
theorem part3_eq (c : Dev nD) : main_part3 (F := F) c = seq (ops.drop 180) := rfl
theorem ops_split : (ops : List (HloOp τ sig (Elt F)))
    = ops.take 60 ++ ((ops.drop 60).take 60 ++ ((ops.drop 120).take 60 ++ ops.drop 180)) := rfl

theorem main_eq (c : Dev nD) : main (F := F) c = seq ops := by
  have h : main (F := F) c
      = seq (ops.take 60) >>= fun _ => seq ((ops.drop 60).take 60) >>= fun _ =>
          seq ((ops.drop 120).take 60) >>= fun _ => seq (ops.drop 180) := by
    rw [← part0_eq c, ← part1_eq c, ← part2_eq c, ← part3_eq c]; rfl
  rw [h, ← seq_append, ← seq_append, ← seq_append, ← ops_split]

/-! ## A straight line that writes each buffer once

`W` lists the buffer each operation writes, in order. A buffer keeps, to the end of the line, what the operation
that writes it leaves there when no later operation writes it again; and an operation reads, of a buffer no
operation from its own place on writes, what the buffer holds at the end. So at the end of such a line every
written buffer holds its operation's function of what the operands hold at the end. -/

section Line

variable {l : List (HloOp τ sig (Elt F))} {W : List (Ref sig .tc)}

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- `W` lists what the operations write: each operation writes the one buffer at its place in `W`. -/
def WritesAre (l : List (HloOp τ sig (Elt F))) (W : List (Ref sig .tc)) : Prop :=
  l.map HloOp.writes = W.map fun r => ({Proc.devRef (τ := τ) .tc r} : Finset (DevRef τ sig))

theorem WritesAre.drop (h : WritesAre l W) (k : Nat) : WritesAre (l.drop k) (W.drop k) := by
  unfold WritesAre at h ⊢; rw [List.map_drop, List.map_drop, h]

/-- A reference not listed is written by no operation. -/
theorem WritesAre.not_mem_writes : ∀ {l : List (HloOp τ sig (Elt F))} {W : List (Ref sig .tc)}, WritesAre l W →
    ∀ {r : Ref sig .tc}, r ∉ W → ∀ op ∈ l, Proc.devRef (τ := τ) .tc r ∉ op.writes
  | [], _, _, _, _, _, hop => nomatch hop
  | _ :: _, [], h, _, _, _, _ => nomatch h
  | o :: l, y :: W, h, r, hr, op, hop => by
    have h' : o.writes = {Proc.devRef (τ := τ) .tc y} ∧ WritesAre l W := by
      unfold WritesAre at h ⊢; simpa only [List.map_cons, List.cons.injEq] using h
    rcases List.mem_cons.mp hop with rfl | hop
    · rw [h'.1, Finset.mem_singleton]
      exact devRef_ne_of_ne fun e => hr (e ▸ List.mem_cons_self)
    · exact h'.2.not_mem_writes (fun hm => hr (List.mem_cons_of_mem _ hm)) op hop

/-- A buffer no operation from place `k` on writes holds at the end what it held before place `k`. -/
theorem after_take (h : WritesAre l W) (V : Valuation τ sig (Elt F)) (k : Nat) {a : Ref sig .tc} (ha : a ∉ W.drop k) :
    after (l.take k) V (Proc.devRef .tc a) = after l V (Proc.devRef .tc a) := by
  conv_rhs => rw [← List.take_append_drop k l, after_append]
  exact (after_of_forall_not_mem _ _ ((h.drop k).not_mem_writes ha)).symm

/-- The buffer the operation at place `k` writes, written by no later one, holds at the end what that operation left. -/
theorem after_at (h : WritesAre l W) (V : Valuation τ sig (Elt F)) (k : Nat) {op : HloOp τ sig (Elt F)} (hk : l[k]? = some op)
    {y : Ref sig .tc} (hy : y ∉ W.drop (k + 1)) :
    after l V (Proc.devRef .tc y) = op.result (after (l.take k) V) (Proc.devRef .tc y) := by
  obtain ⟨hlt, rfl⟩ := List.getElem?_eq_some_iff.mp hk
  conv_lhs => rw [← List.take_append_drop k l, List.drop_eq_getElem_cons hlt, after_append, after_cons]
  exact after_of_forall_not_mem _ _ ((h.drop (k + 1)).not_mem_writes hy)

/-- A buffer the line never writes keeps its contents. -/
theorem after_arg (h : WritesAre l W) (V : Valuation τ sig (Elt F)) {a : Ref sig .tc} (ha : a ∉ W) :
    after l V (Proc.devRef .tc a) = V (Proc.devRef .tc a) :=
  after_of_forall_not_mem _ _ (h.not_mem_writes ha)

theorem after_nullary (h : WritesAre l W) (V : Valuation τ sig (Elt F)) (k : Nat) {y : Ref sig .tc} {v : y.ty.Contents (Elt F)} {hy}
    (hk : l[k]? = some (nullary y v hy)) (hy' : y ∉ W.drop (k + 1)) :
    after l V (Proc.devRef .tc y) = v := by
  rw [after_at h V k hk hy', nullary_result]

theorem after_unary (h : WritesAre l W) (V : Valuation τ sig (Elt F)) (k : Nat) {x y : Ref sig .tc}
    {f : x.ty.Contents (Elt F) → y.ty.Contents (Elt F)} {hx hy}
    (hk : l[k]? = some (unary x y f hx hy)) (hy' : y ∉ W.drop (k + 1)) (hx' : x ∉ W.drop k) :
    after l V (Proc.devRef .tc y) = f (after l V (Proc.devRef .tc x)) := by
  rw [after_at h V k hk hy', unary_result, after_take h V k hx']

theorem after_binary (h : WritesAre l W) (V : Valuation τ sig (Elt F)) (k : Nat) {a b y : Ref sig .tc}
    {f : a.ty.Contents (Elt F) → b.ty.Contents (Elt F) → y.ty.Contents (Elt F)} {ha hb hy}
    (hk : l[k]? = some (binary a b y f ha hb hy)) (hy' : y ∉ W.drop (k + 1)) (ha' : a ∉ W.drop k) (hb' : b ∉ W.drop k) :
    after l V (Proc.devRef .tc y) = f (after l V (Proc.devRef .tc a)) (after l V (Proc.devRef .tc b)) := by
  rw [after_at h V k hk hy', binary_result, after_take h V k ha', after_take h V k hb']

theorem after_ternary (h : WritesAre l W) (V : Valuation τ sig (Elt F)) (k : Nat) {c a b y : Ref sig .tc}
    {f : c.ty.Contents (Elt F) → a.ty.Contents (Elt F) → b.ty.Contents (Elt F) → y.ty.Contents (Elt F)} {hc ha hb hy}
    (hk : l[k]? = some (ternary c a b y f hc ha hb hy)) (hy' : y ∉ W.drop (k + 1))
    (hc' : c ∉ W.drop k) (ha' : a ∉ W.drop k) (hb' : b ∉ W.drop k) :
    after l V (Proc.devRef .tc y)
      = f (after l V (Proc.devRef .tc c)) (after l V (Proc.devRef .tc a)) (after l V (Proc.devRef .tc b)) := by
  rw [after_at h V k hk hy', ternary_result, after_take h V k hc', after_take h V k ha', after_take h V k hb']

theorem after_reshape (h : WritesAre l W) (V : Valuation τ sig (Elt F)) (k : Nat) {x y : Ref sig .tc}
    {he : x.ty.elt = y.ty.elt} {hn : x.ty.shape.ShapeCasts y.ty.shape} {hx hy}
    (hk : l[k]? = some (reshape x y he hn hx hy)) (hy' : y ∉ W.drop (k + 1)) (hx' : x ∉ W.drop k) :
    after l V (Proc.devRef .tc y) = fun i => he ▸ shapeCast y.ty.shape (after l V (Proc.devRef .tc x)) hn i := by
  rw [after_at h V k hk hy', reshape_result, after_take h V k hx']

theorem after_nary (h : WritesAre l W) (V : Valuation τ sig (Elt F)) (k : Nat) {n : Nat} {xs : Fin n → Ref sig .tc} {y : Ref sig .tc}
    {f : ((j : Fin n) → (xs j).ty.Contents (Elt F)) → y.ty.Contents (Elt F)} {hxs hy}
    (hk : l[k]? = some (nary xs y f hxs hy)) (hy' : y ∉ W.drop (k + 1)) (hxs' : ∀ j, xs j ∉ W.drop k) :
    after l V (Proc.devRef .tc y) = f fun j => after l V (Proc.devRef .tc (xs j)) := by
  rw [after_at h V k hk hy', nary_result]
  congr 1; funext j; exact after_take h V k (hxs' j)

end Line

end Cert.ReferenceIdeal.RefRun

end
-- ==== Proof.RefTable.lean ====
/- One lemma per operation of the reference program, in order: at the end of the line the buffer the operation writes holds
   the stage of that buffer, from the lemma of the operation's kind and the lemmas of its operands. -/
import proofs.«404429_j65481071394972_3_alg».proof.Proof.RefLine

set_option maxRecDepth 65536

noncomputable section

namespace Cert.ReferenceIdeal.RefRun

open Cert.ReferenceIdeal Cert.ReferenceIdeal.Gen Cert.ReferenceIdeal.Stages
open Idealize.ShloMosaic Idealize.ShloMosaic.TcCoe Idealize.SL.Sem Idealize.ShloMosaic.StableHlo

variable {F : FTy → Type} [FloatOps F]

/-- The buffers @main's operations write, in order. -/
abbrev written : List (Ref sig .tc) :=
  [main_cst, main_cst_0, main_cst_1, main_v0, main_v1, main_v2, main_v3, main_v4, main_v5, main_v6, main_v7, main_v8, main_v9, main_v10, main_v11, main_v12, main_v13, main_v14, main_v15, main_v16, main_v17, main_cst_2, main_v18, main_v19, main_v20, main_v21, main_v22, main_v23, main_cst_3, main_v24, main_v25, main_v26, main_v27, main_v28, main_v29, main_cst_4, main_v30, main_v31, main_v32, main_v33, main_v34, main_v35, main_cst_5, main_v36, main_v37, main_v38, main_v39, main_v40, main_v41, main_cst_6, main_v42, main_v43, main_v44, main_v45, main_v46, main_v47, main_v48, main_v49, main_v50, main_v51, main_v52, main_v53, main_v54, main_v55, main_v56, main_v57, main_v58, main_v59, main_v60, main_v61, main_cst_7, main_v62, main_v63, main_cst_8, main_v64, main_v65, main_v66, main_v67, main_v68, main_cst_9, main_v69, main_v70, main_v71, main_v72, main_v73, main_v74, main_v75, main_cst_10, main_v76, main_v77, main_v78, main_v79, main_v80, main_v81, main_v82, main_c, main_v83, main_v84, main_c_11, main_v85, main_v86, main_v87, main_v88, main_v89, main_v90, main_cst_12, main_v91, main_cst_13, main_v92, main_v93, main_cst_14, main_v94, main_v95, main_cst_15, main_v96, main_v97, main_v98, main_cst_16, main_v99, main_v100, main_v101, main_cst_17, main_v102, main_v103, main_cst_18, main_v104, main_v105, main_cst_19, main_v106, main_v107, main_v108, main_cst_20, main_v109, main_v110, main_v111, main_cst_21, main_v112, main_v113, main_cst_22, main_v114, main_v115, main_cst_23, main_v116, main_v117, main_v118, main_cst_24, main_v119, main_v120, main_v121, main_cst_25, main_v122, main_v123, main_cst_26, main_v124, main_v125, main_cst_27, main_v126, main_v127, main_v128, main_cst_28, main_v129, main_v130, main_v131, main_cst_29, main_v132, main_v133, main_cst_30, main_v134, main_v135, main_cst_31, main_v136, main_v137, main_v138, main_cst_32, main_v139, main_v140, main_v141, main_cst_33, main_v142, main_v143, main_cst_34, main_v144, main_v145, main_v146, main_v147, main_v148, main_v149, main_v150, main_v151, main_v152, main_v153, main_v154, main_v155, main_v156]

theorem ops_writes : WritesAre (ops (F := F)) written := rfl

section Stages

variable (V : Valuation τ sig (Elt F))

theorem st_arg0 : after ops V (Proc.devRef .tc main_arg0) = V (Proc.devRef .tc main_arg0) := after_arg ops_writes V (by decide)
theorem st_arg1 : after ops V (Proc.devRef .tc main_arg1) = V (Proc.devRef .tc main_arg1) := after_arg ops_writes V (by decide)
theorem st_arg2 : after ops V (Proc.devRef .tc main_arg2) = V (Proc.devRef .tc main_arg2) := after_arg ops_writes V (by decide)
theorem st_cst : after ops V (Proc.devRef .tc main_cst) = res_cst (F := F) :=
  after_nullary ops_writes V 0 rfl (by decide)
theorem st_cst_0 : after ops V (Proc.devRef .tc main_cst_0) = res_cst_0 (F := F) :=
  after_nullary ops_writes V 1 rfl (by decide)
theorem st_cst_1 : after ops V (Proc.devRef .tc main_cst_1) = res_cst_1 (F := F) :=
  after_nullary ops_writes V 2 rfl (by decide)
theorem st_v0 : after ops V (Proc.devRef .tc main_v0) = res_v0 (F := F) :=
  (after_unary ops_writes V 3 rfl (by decide) (by decide)).trans (congrArg _ (st_cst_1 V))
theorem st_v1 : after ops V (Proc.devRef .tc main_v1) = res_v1 (V (Proc.devRef .tc main_arg0)) :=
  (after_binary ops_writes V 4 rfl (by decide) (by decide) (by decide)).trans (congrArg₂ _ (st_arg0 V) (st_v0 V))
theorem st_v2 : after ops V (Proc.devRef .tc main_v2) = res_v2 (V (Proc.devRef .tc main_arg0)) :=
  (after_unary ops_writes V 5 rfl (by decide) (by decide)).trans (congrArg _ (st_v1 V))
theorem st_v3 : after ops V (Proc.devRef .tc main_v3) = res_v3 (F := F) :=
  (after_unary ops_writes V 6 rfl (by decide) (by decide)).trans (congrArg _ (st_cst V))
theorem st_v4 : after ops V (Proc.devRef .tc main_v4) = res_v4 (V (Proc.devRef .tc main_arg0)) :=
  (after_unary ops_writes V 7 rfl (by decide) (by decide)).trans (congrArg _ (st_v2 V))
theorem st_v5 : after ops V (Proc.devRef .tc main_v5) = res_v5 (F := F) :=
  (after_unary ops_writes V 8 rfl (by decide) (by decide)).trans (congrArg _ (st_v3 V))
theorem st_v6 : after ops V (Proc.devRef .tc main_v6) = res_v6 (V (Proc.devRef .tc main_arg0)) :=
  (after_binary ops_writes V 9 rfl (by decide) (by decide) (by decide)).trans (congrArg₂ _ (st_v4 V) (st_v5 V))
theorem st_v7 : after ops V (Proc.devRef .tc main_v7) = res_v7 (V (Proc.devRef .tc main_arg0)) :=
  (after_unary ops_writes V 10 rfl (by decide) (by decide)).trans (congrArg _ (st_v6 V))
theorem st_v8 : after ops V (Proc.devRef .tc main_v8) = res_v8 (V (Proc.devRef .tc main_arg0)) :=
  (after_unary ops_writes V 11 rfl (by decide) (by decide)).trans (congrArg _ (st_v6 V))
theorem st_v9 : after ops V (Proc.devRef .tc main_v9) = res_v9 (V (Proc.devRef .tc main_arg0)) :=
  (after_binary ops_writes V 12 rfl (by decide) (by decide) (by decide)).trans (congrArg₂ _ (st_v7 V) (st_v6 V))
theorem st_v10 : after ops V (Proc.devRef .tc main_v10) = res_v10 (V (Proc.devRef .tc main_arg0)) :=
  (after_unary ops_writes V 13 rfl (by decide) (by decide)).trans (by rw [st_v9 V]; rfl)
theorem st_v11 : after ops V (Proc.devRef .tc main_v11) = res_v11 (V (Proc.devRef .tc main_arg0)) :=
  (after_reshape ops_writes V 14 rfl (by decide) (by decide)).trans (by rw [st_v10 V]; rfl)
theorem st_v12 : after ops V (Proc.devRef .tc main_v12) = res_v12 (V (Proc.devRef .tc main_arg0)) :=
  (after_binary ops_writes V 15 rfl (by decide) (by decide) (by decide)).trans (congrArg₂ _ (st_v6 V) (st_v6 V))
theorem st_v13 : after ops V (Proc.devRef .tc main_v13) = res_v13 (V (Proc.devRef .tc main_arg0)) :=
  (after_binary ops_writes V 16 rfl (by decide) (by decide) (by decide)).trans (congrArg₂ _ (st_v7 V) (st_v12 V))
theorem st_v14 : after ops V (Proc.devRef .tc main_v14) = res_v14 (V (Proc.devRef .tc main_arg0)) :=
  (after_binary ops_writes V 17 rfl (by decide) (by decide) (by decide)).trans (congrArg₂ _ (st_v8 V) (st_v6 V))
theorem st_v15 : after ops V (Proc.devRef .tc main_v15) = res_v15 (V (Proc.devRef .tc main_arg0)) :=
  (after_binary ops_writes V 18 rfl (by decide) (by decide) (by decide)).trans (congrArg₂ _ (st_v13 V) (st_v14 V))
theorem st_v16 : after ops V (Proc.devRef .tc main_v16) = res_v16 (V (Proc.devRef .tc main_arg0)) :=
  (after_unary ops_writes V 19 rfl (by decide) (by decide)).trans (by rw [st_v15 V]; rfl)
theorem st_v17 : after ops V (Proc.devRef .tc main_v17) = res_v17 (V (Proc.devRef .tc main_arg0)) :=
  (after_reshape ops_writes V 20 rfl (by decide) (by decide)).trans (by rw [st_v16 V]; rfl)
theorem st_cst_2 : after ops V (Proc.devRef .tc main_cst_2) = res_cst_2 (F := F) :=
  after_nullary ops_writes V 21 rfl (by decide)
theorem st_v18 : after ops V (Proc.devRef .tc main_v18) = res_v18 (F := F) :=
  (after_unary ops_writes V 22 rfl (by decide) (by decide)).trans (congrArg _ (st_cst_2 V))
theorem st_v19 : after ops V (Proc.devRef .tc main_v19) = res_v19 (V (Proc.devRef .tc main_arg0)) :=
  (after_binary ops_writes V 23 rfl (by decide) (by decide) (by decide)).trans (congrArg₂ _ (st_v18 V) (st_v6 V))
theorem st_v20 : after ops V (Proc.devRef .tc main_v20) = res_v20 (V (Proc.devRef .tc main_arg0)) :=
  (after_binary ops_writes V 24 rfl (by decide) (by decide) (by decide)).trans (congrArg₂ _ (st_v19 V) (st_v15 V))
theorem st_v21 : after ops V (Proc.devRef .tc main_v21) = res_v21 (V (Proc.devRef .tc main_arg0)) :=
  (after_binary ops_writes V 25 rfl (by decide) (by decide) (by decide)).trans (congrArg₂ _ (st_v20 V) (st_v9 V))
theorem st_v22 : after ops V (Proc.devRef .tc main_v22) = res_v22 (V (Proc.devRef .tc main_arg0)) :=
  (after_unary ops_writes V 26 rfl (by decide) (by decide)).trans (by rw [st_v21 V]; rfl)
theorem st_v23 : after ops V (Proc.devRef .tc main_v23) = res_v23 (V (Proc.devRef .tc main_arg0)) :=
  (after_reshape ops_writes V 27 rfl (by decide) (by decide)).trans (by rw [st_v22 V]; rfl)
theorem st_cst_3 : after ops V (Proc.devRef .tc main_cst_3) = res_cst_3 (F := F) :=
  after_nullary ops_writes V 28 rfl (by decide)
theorem st_v24 : after ops V (Proc.devRef .tc main_v24) = res_v24 (F := F) :=
  (after_unary ops_writes V 29 rfl (by decide) (by decide)).trans (congrArg _ (st_cst_3 V))
theorem st_v25 : after ops V (Proc.devRef .tc main_v25) = res_v25 (V (Proc.devRef .tc main_arg0)) :=
  (after_binary ops_writes V 30 rfl (by decide) (by decide) (by decide)).trans (congrArg₂ _ (st_v24 V) (st_v6 V))
theorem st_v26 : after ops V (Proc.devRef .tc main_v26) = res_v26 (V (Proc.devRef .tc main_arg0)) :=
  (after_binary ops_writes V 31 rfl (by decide) (by decide) (by decide)).trans (congrArg₂ _ (st_v25 V) (st_v21 V))
theorem st_v27 : after ops V (Proc.devRef .tc main_v27) = res_v27 (V (Proc.devRef .tc main_arg0)) :=
  (after_binary ops_writes V 32 rfl (by decide) (by decide) (by decide)).trans (congrArg₂ _ (st_v26 V) (st_v15 V))
theorem st_v28 : after ops V (Proc.devRef .tc main_v28) = res_v28 (V (Proc.devRef .tc main_arg0)) :=
  (after_unary ops_writes V 33 rfl (by decide) (by decide)).trans (by rw [st_v27 V]; rfl)
theorem st_v29 : after ops V (Proc.devRef .tc main_v29) = res_v29 (V (Proc.devRef .tc main_arg0)) :=
  (after_reshape ops_writes V 34 rfl (by decide) (by decide)).trans (by rw [st_v28 V]; rfl)
theorem st_cst_4 : after ops V (Proc.devRef .tc main_cst_4) = res_cst_4 (F := F) :=
  after_nullary ops_writes V 35 rfl (by decide)
theorem st_v30 : after ops V (Proc.devRef .tc main_v30) = res_v30 (F := F) :=
  (after_unary ops_writes V 36 rfl (by decide) (by decide)).trans (congrArg _ (st_cst_4 V))
theorem st_v31 : after ops V (Proc.devRef .tc main_v31) = res_v31 (V (Proc.devRef .tc main_arg0)) :=
  (after_binary ops_writes V 37 rfl (by decide) (by decide) (by decide)).trans (congrArg₂ _ (st_v30 V) (st_v6 V))
theorem st_v32 : after ops V (Proc.devRef .tc main_v32) = res_v32 (V (Proc.devRef .tc main_arg0)) :=
  (after_binary ops_writes V 38 rfl (by decide) (by decide) (by decide)).trans (congrArg₂ _ (st_v31 V) (st_v27 V))
theorem st_v33 : after ops V (Proc.devRef .tc main_v33) = res_v33 (V (Proc.devRef .tc main_arg0)) :=
  (after_binary ops_writes V 39 rfl (by decide) (by decide) (by decide)).trans (congrArg₂ _ (st_v32 V) (st_v21 V))
theorem st_v34 : after ops V (Proc.devRef .tc main_v34) = res_v34 (V (Proc.devRef .tc main_arg0)) :=
  (after_unary ops_writes V 40 rfl (by decide) (by decide)).trans (by rw [st_v33 V]; rfl)
theorem st_v35 : after ops V (Proc.devRef .tc main_v35) = res_v35 (V (Proc.devRef .tc main_arg0)) :=
  (after_reshape ops_writes V 41 rfl (by decide) (by decide)).trans (by rw [st_v34 V]; rfl)
theorem st_cst_5 : after ops V (Proc.devRef .tc main_cst_5) = res_cst_5 (F := F) :=
  after_nullary ops_writes V 42 rfl (by decide)
theorem st_v36 : after ops V (Proc.devRef .tc main_v36) = res_v36 (F := F) :=
  (after_unary ops_writes V 43 rfl (by decide) (by decide)).trans (congrArg _ (st_cst_5 V))
theorem st_v37 : after ops V (Proc.devRef .tc main_v37) = res_v37 (V (Proc.devRef .tc main_arg0)) :=
  (after_binary ops_writes V 44 rfl (by decide) (by decide) (by decide)).trans (congrArg₂ _ (st_v36 V) (st_v6 V))
theorem st_v38 : after ops V (Proc.devRef .tc main_v38) = res_v38 (V (Proc.devRef .tc main_arg0)) :=
  (after_binary ops_writes V 45 rfl (by decide) (by decide) (by decide)).trans (congrArg₂ _ (st_v37 V) (st_v33 V))
theorem st_v39 : after ops V (Proc.devRef .tc main_v39) = res_v39 (V (Proc.devRef .tc main_arg0)) :=
  (after_binary ops_writes V 46 rfl (by decide) (by decide) (by decide)).trans (congrArg₂ _ (st_v38 V) (st_v27 V))
theorem st_v40 : after ops V (Proc.devRef .tc main_v40) = res_v40 (V (Proc.devRef .tc main_arg0)) :=
  (after_unary ops_writes V 47 rfl (by decide) (by decide)).trans (by rw [st_v39 V]; rfl)
theorem st_v41 : after ops V (Proc.devRef .tc main_v41) = res_v41 (V (Proc.devRef .tc main_arg0)) :=
  (after_reshape ops_writes V 48 rfl (by decide) (by decide)).trans (by rw [st_v40 V]; rfl)
theorem st_cst_6 : after ops V (Proc.devRef .tc main_cst_6) = res_cst_6 (F := F) :=
  after_nullary ops_writes V 49 rfl (by decide)
theorem st_v42 : after ops V (Proc.devRef .tc main_v42) = res_v42 (F := F) :=
  (after_unary ops_writes V 50 rfl (by decide) (by decide)).trans (congrArg _ (st_cst_6 V))
theorem st_v43 : after ops V (Proc.devRef .tc main_v43) = res_v43 (V (Proc.devRef .tc main_arg0)) :=
  (after_binary ops_writes V 51 rfl (by decide) (by decide) (by decide)).trans (congrArg₂ _ (st_v42 V) (st_v6 V))
theorem st_v44 : after ops V (Proc.devRef .tc main_v44) = res_v44 (V (Proc.devRef .tc main_arg0)) :=
  (after_binary ops_writes V 52 rfl (by decide) (by decide) (by decide)).trans (congrArg₂ _ (st_v43 V) (st_v39 V))
theorem st_v45 : after ops V (Proc.devRef .tc main_v45) = res_v45 (V (Proc.devRef .tc main_arg0)) :=
  (after_binary ops_writes V 53 rfl (by decide) (by decide) (by decide)).trans (congrArg₂ _ (st_v44 V) (st_v33 V))
theorem st_v46 : after ops V (Proc.devRef .tc main_v46) = res_v46 (V (Proc.devRef .tc main_arg0)) :=
  (after_unary ops_writes V 54 rfl (by decide) (by decide)).trans (by rw [st_v45 V]; rfl)
theorem st_v47 : after ops V (Proc.devRef .tc main_v47) = res_v47 (V (Proc.devRef .tc main_arg0)) :=
  (after_reshape ops_writes V 55 rfl (by decide) (by decide)).trans (by rw [st_v46 V]; rfl)
theorem st_v48 : after ops V (Proc.devRef .tc main_v48) = res_v48 (V (Proc.devRef .tc main_arg0)) :=
  (after_unary ops_writes V 56 rfl (by decide) (by decide)).trans (congrArg _ (st_v11 V))
theorem st_v49 : after ops V (Proc.devRef .tc main_v49) = res_v49 (V (Proc.devRef .tc main_arg0)) :=
  (after_unary ops_writes V 57 rfl (by decide) (by decide)).trans (congrArg _ (st_v17 V))
theorem st_v50 : after ops V (Proc.devRef .tc main_v50) = res_v50 (V (Proc.devRef .tc main_arg0)) :=
  (after_unary ops_writes V 58 rfl (by decide) (by decide)).trans (congrArg _ (st_v23 V))
theorem st_v51 : after ops V (Proc.devRef .tc main_v51) = res_v51 (V (Proc.devRef .tc main_arg0)) :=
  (after_unary ops_writes V 59 rfl (by decide) (by decide)).trans (congrArg _ (st_v29 V))
theorem st_v52 : after ops V (Proc.devRef .tc main_v52) = res_v52 (V (Proc.devRef .tc main_arg0)) :=
  (after_unary ops_writes V 60 rfl (by decide) (by decide)).trans (congrArg _ (st_v35 V))
theorem st_v53 : after ops V (Proc.devRef .tc main_v53) = res_v53 (V (Proc.devRef .tc main_arg0)) :=
  (after_unary ops_writes V 61 rfl (by decide) (by decide)).trans (congrArg _ (st_v41 V))
theorem st_v54 : after ops V (Proc.devRef .tc main_v54) = res_v54 (V (Proc.devRef .tc main_arg0)) :=
  (after_unary ops_writes V 62 rfl (by decide) (by decide)).trans (congrArg _ (st_v47 V))
theorem st_v55 : after ops V (Proc.devRef .tc main_v55) = res_v55 (V (Proc.devRef .tc main_arg0)) :=
  (after_nary ops_writes V 63 rfl (by decide) (by decide)).trans (by simp only [Matrix.cons_val_zero, Matrix.cons_val_one, Matrix.cons_val, st_v48 V, st_v49 V, st_v50 V, st_v51 V, st_v52 V, st_v53 V, st_v54 V]; rfl)
theorem st_v56 : after ops V (Proc.devRef .tc main_v56) = res_v56 (F := F) :=
  (after_unary ops_writes V 64 rfl (by decide) (by decide)).trans (congrArg _ (st_cst_0 V))
theorem st_v57 : after ops V (Proc.devRef .tc main_v57) = res_v57 (F := F) :=
  (after_unary ops_writes V 65 rfl (by decide) (by decide)).trans (congrArg _ (st_v56 V))
theorem st_v58 : after ops V (Proc.devRef .tc main_v58) = res_v58 (V (Proc.devRef .tc main_arg0)) :=
  (after_binary ops_writes V 66 rfl (by decide) (by decide) (by decide)).trans (congrArg₂ _ (st_v55 V) (st_v57 V))
theorem st_v59 : after ops V (Proc.devRef .tc main_v59) = res_v59 (V (Proc.devRef .tc main_arg0)) :=
  (after_binary ops_writes V 67 rfl (by decide) (by decide) (by decide)).trans (congrArg₂ _ (st_v1 V) (st_v1 V))
theorem st_v60 : after ops V (Proc.devRef .tc main_v60) = res_v60 (V (Proc.devRef .tc main_arg0)) :=
  (after_binary ops_writes V 68 rfl (by decide) (by decide) (by decide)).trans (congrArg₂ _ (st_v59 V) (st_v59 V))
theorem st_v61 : after ops V (Proc.devRef .tc main_v61) = res_v61 (V (Proc.devRef .tc main_arg0)) :=
  (after_binary ops_writes V 69 rfl (by decide) (by decide) (by decide)).trans (congrArg₂ _ (st_v1 V) (st_v60 V))
theorem st_cst_7 : after ops V (Proc.devRef .tc main_cst_7) = res_cst_7 (F := F) :=
  after_nullary ops_writes V 70 rfl (by decide)
theorem st_v62 : after ops V (Proc.devRef .tc main_v62) = res_v62 (F := F) :=
  (after_unary ops_writes V 71 rfl (by decide) (by decide)).trans (congrArg _ (st_cst_7 V))
theorem st_v63 : after ops V (Proc.devRef .tc main_v63) = res_v63 (V (Proc.devRef .tc main_arg0)) :=
  (after_binary ops_writes V 72 rfl (by decide) (by decide) (by decide)).trans (congrArg₂ _ (st_v62 V) (st_v61 V))
theorem st_cst_8 : after ops V (Proc.devRef .tc main_cst_8) = res_cst_8 (F := F) :=
  after_nullary ops_writes V 73 rfl (by decide)
theorem st_v64 : after ops V (Proc.devRef .tc main_v64) = res_v64 (F := F) :=
  (after_unary ops_writes V 74 rfl (by decide) (by decide)).trans (congrArg _ (st_cst_8 V))
theorem st_v65 : after ops V (Proc.devRef .tc main_v65) = res_v65 (V (Proc.devRef .tc main_arg0)) :=
  (after_binary ops_writes V 75 rfl (by decide) (by decide) (by decide)).trans (congrArg₂ _ (st_v64 V) (st_v63 V))
theorem st_v66 : after ops V (Proc.devRef .tc main_v66) = res_v66 (V (Proc.devRef .tc main_arg0)) :=
  (after_binary ops_writes V 76 rfl (by decide) (by decide) (by decide)).trans (congrArg₂ _ (st_v1 V) (st_v1 V))
theorem st_v67 : after ops V (Proc.devRef .tc main_v67) = res_v67 (V (Proc.devRef .tc main_arg0)) :=
  (after_binary ops_writes V 77 rfl (by decide) (by decide) (by decide)).trans (congrArg₂ _ (st_v66 V) (st_v66 V))
theorem st_v68 : after ops V (Proc.devRef .tc main_v68) = res_v68 (V (Proc.devRef .tc main_arg0)) :=
  (after_binary ops_writes V 78 rfl (by decide) (by decide) (by decide)).trans (congrArg₂ _ (st_v66 V) (st_v67 V))
theorem st_cst_9 : after ops V (Proc.devRef .tc main_cst_9) = res_cst_9 (F := F) :=
  after_nullary ops_writes V 79 rfl (by decide)
theorem st_v69 : after ops V (Proc.devRef .tc main_v69) = res_v69 (F := F) :=
  (after_unary ops_writes V 80 rfl (by decide) (by decide)).trans (congrArg _ (st_cst_9 V))
theorem st_v70 : after ops V (Proc.devRef .tc main_v70) = res_v70 (V (Proc.devRef .tc main_arg0)) :=
  (after_binary ops_writes V 81 rfl (by decide) (by decide) (by decide)).trans (congrArg₂ _ (st_v69 V) (st_v68 V))
theorem st_v71 : after ops V (Proc.devRef .tc main_v71) = res_v71 (V (Proc.devRef .tc main_arg0)) :=
  (after_binary ops_writes V 82 rfl (by decide) (by decide) (by decide)).trans (congrArg₂ _ (st_v65 V) (st_v70 V))
theorem st_v72 : after ops V (Proc.devRef .tc main_v72) = res_v72 (V (Proc.devRef .tc main_arg0)) :=
  (after_binary ops_writes V 83 rfl (by decide) (by decide) (by decide)).trans (congrArg₂ _ (st_v1 V) (st_v1 V))
theorem st_v73 : after ops V (Proc.devRef .tc main_v73) = res_v73 (V (Proc.devRef .tc main_arg0)) :=
  (after_binary ops_writes V 84 rfl (by decide) (by decide) (by decide)).trans (congrArg₂ _ (st_v1 V) (st_v72 V))
theorem st_v74 : after ops V (Proc.devRef .tc main_v74) = res_v74 (V (Proc.devRef .tc main_arg0)) :=
  (after_binary ops_writes V 85 rfl (by decide) (by decide) (by decide)).trans (congrArg₂ _ (st_v72 V) (st_v72 V))
theorem st_v75 : after ops V (Proc.devRef .tc main_v75) = res_v75 (V (Proc.devRef .tc main_arg0)) :=
  (after_binary ops_writes V 86 rfl (by decide) (by decide) (by decide)).trans (congrArg₂ _ (st_v73 V) (st_v74 V))
theorem st_cst_10 : after ops V (Proc.devRef .tc main_cst_10) = res_cst_10 (F := F) :=
  after_nullary ops_writes V 87 rfl (by decide)
theorem st_v76 : after ops V (Proc.devRef .tc main_v76) = res_v76 (F := F) :=
  (after_unary ops_writes V 88 rfl (by decide) (by decide)).trans (congrArg _ (st_cst_10 V))
theorem st_v77 : after ops V (Proc.devRef .tc main_v77) = res_v77 (V (Proc.devRef .tc main_arg0)) :=
  (after_binary ops_writes V 89 rfl (by decide) (by decide) (by decide)).trans (congrArg₂ _ (st_v76 V) (st_v75 V))
theorem st_v78 : after ops V (Proc.devRef .tc main_v78) = res_v78 (V (Proc.devRef .tc main_arg0)) :=
  (after_binary ops_writes V 90 rfl (by decide) (by decide) (by decide)).trans (congrArg₂ _ (st_v71 V) (st_v77 V))
theorem st_v79 : after ops V (Proc.devRef .tc main_v79) = res_v79 (V (Proc.devRef .tc main_arg0)) :=
  (after_unary ops_writes V 91 rfl (by decide) (by decide)).trans (congrArg _ (st_v78 V))
theorem st_v80 : after ops V (Proc.devRef .tc main_v80) = res_v80 (V (Proc.devRef .tc main_arg0)) :=
  (after_unary ops_writes V 92 rfl (by decide) (by decide)).trans (congrArg _ (st_v79 V))
theorem st_v81 : after ops V (Proc.devRef .tc main_v81) = res_v81 (V (Proc.devRef .tc main_arg0)) :=
  (after_binary ops_writes V 93 rfl (by decide) (by decide) (by decide)).trans (congrArg₂ _ (st_v80 V) (st_v58 V))
theorem st_v82 : after ops V (Proc.devRef .tc main_v82) = res_v82 (V (Proc.devRef .tc main_arg0)) :=
  (after_reshape ops_writes V 94 rfl (by decide) (by decide)).trans (by rw [st_v81 V]; rfl)
theorem st_c : after ops V (Proc.devRef .tc main_c) = res_c (F := F) :=
  after_nullary ops_writes V 95 rfl (by decide)
theorem st_v83 : after ops V (Proc.devRef .tc main_v83) = res_v83 (F := F) :=
  (after_unary ops_writes V 96 rfl (by decide) (by decide)).trans (congrArg _ (st_c V))
theorem st_v84 : after ops V (Proc.devRef .tc main_v84) = res_v84 (V (Proc.devRef .tc main_arg2)) :=
  (after_binary ops_writes V 97 rfl (by decide) (by decide) (by decide)).trans (congrArg₂ _ (st_arg2 V) (st_v83 V))
theorem st_c_11 : after ops V (Proc.devRef .tc main_c_11) = res_c_11 (F := F) :=
  after_nullary ops_writes V 98 rfl (by decide)
theorem st_v85 : after ops V (Proc.devRef .tc main_v85) = res_v85 (F := F) :=
  (after_unary ops_writes V 99 rfl (by decide) (by decide)).trans (congrArg _ (st_c_11 V))
theorem st_v86 : after ops V (Proc.devRef .tc main_v86) = res_v86 (V (Proc.devRef .tc main_arg2)) :=
  (after_binary ops_writes V 100 rfl (by decide) (by decide) (by decide)).trans (congrArg₂ _ (st_arg2 V) (st_v85 V))
theorem st_v87 : after ops V (Proc.devRef .tc main_v87) = res_v87 (V (Proc.devRef .tc main_arg2)) :=
  (after_ternary ops_writes V 101 rfl (by decide) (by decide) (by decide) (by decide)).trans (by rw [st_v84 V, st_v86 V, st_arg2 V]; rfl)
theorem st_v88 : after ops V (Proc.devRef .tc main_v88) = res_v88 (V (Proc.devRef .tc main_arg2)) :=
  (after_unary ops_writes V 102 rfl (by decide) (by decide)).trans (congrArg _ (st_v87 V))
theorem st_v89 : after ops V (Proc.devRef .tc main_v89) = res_v89 (V (Proc.devRef .tc main_arg0)) (V (Proc.devRef .tc main_arg2)) :=
  (after_binary ops_writes V 103 rfl (by decide) (by decide) (by decide)).trans (congrArg₂ _ (st_v82 V) (st_v88 V))
theorem st_v90 : after ops V (Proc.devRef .tc main_v90) = res_v90 (V (Proc.devRef .tc main_arg1)) :=
  (after_unary ops_writes V 104 rfl (by decide) (by decide)).trans (congrArg _ (st_arg1 V))
theorem st_cst_12 : after ops V (Proc.devRef .tc main_cst_12) = res_cst_12 (F := F) :=
  after_nullary ops_writes V 105 rfl (by decide)
theorem st_v91 : after ops V (Proc.devRef .tc main_v91) = res_v91 (F := F) :=
  (after_unary ops_writes V 106 rfl (by decide) (by decide)).trans (congrArg _ (st_cst_12 V))
theorem st_cst_13 : after ops V (Proc.devRef .tc main_cst_13) = res_cst_13 (F := F) :=
  after_nullary ops_writes V 107 rfl (by decide)
theorem st_v92 : after ops V (Proc.devRef .tc main_v92) = res_v92 (F := F) :=
  (after_unary ops_writes V 108 rfl (by decide) (by decide)).trans (congrArg _ (st_cst_13 V))
theorem st_v93 : after ops V (Proc.devRef .tc main_v93) = res_v93 (F := F) :=
  (after_binary ops_writes V 109 rfl (by decide) (by decide) (by decide)).trans (congrArg₂ _ (st_v91 V) (st_v92 V))
theorem st_cst_14 : after ops V (Proc.devRef .tc main_cst_14) = res_cst_14 (F := F) :=
  after_nullary ops_writes V 110 rfl (by decide)
theorem st_v94 : after ops V (Proc.devRef .tc main_v94) = res_v94 (F := F) :=
  (after_unary ops_writes V 111 rfl (by decide) (by decide)).trans (congrArg _ (st_cst_14 V))
theorem st_v95 : after ops V (Proc.devRef .tc main_v95) = res_v95 (V (Proc.devRef .tc main_arg1)) :=
  (after_binary ops_writes V 112 rfl (by decide) (by decide) (by decide)).trans (congrArg₂ _ (st_v90 V) (st_v94 V))
theorem st_cst_15 : after ops V (Proc.devRef .tc main_cst_15) = res_cst_15 (F := F) :=
  after_nullary ops_writes V 113 rfl (by decide)
theorem st_v96 : after ops V (Proc.devRef .tc main_v96) = res_v96 (F := F) :=
  (after_unary ops_writes V 114 rfl (by decide) (by decide)).trans (congrArg _ (st_cst_15 V))
theorem st_v97 : after ops V (Proc.devRef .tc main_v97) = res_v97 (V (Proc.devRef .tc main_arg1)) :=
  (after_binary ops_writes V 115 rfl (by decide) (by decide) (by decide)).trans (congrArg₂ _ (st_v96 V) (st_v90 V))
theorem st_v98 : after ops V (Proc.devRef .tc main_v98) = res_v98 (V (Proc.devRef .tc main_arg1)) :=
  (after_binary ops_writes V 116 rfl (by decide) (by decide) (by decide)).trans (congrArg₂ _ (st_v97 V) (st_v90 V))
theorem st_cst_16 : after ops V (Proc.devRef .tc main_cst_16) = res_cst_16 (F := F) :=
  after_nullary ops_writes V 117 rfl (by decide)
theorem st_v99 : after ops V (Proc.devRef .tc main_v99) = res_v99 (F := F) :=
  (after_unary ops_writes V 118 rfl (by decide) (by decide)).trans (congrArg _ (st_cst_16 V))
theorem st_v100 : after ops V (Proc.devRef .tc main_v100) = res_v100 (F := F) :=
  (after_binary ops_writes V 119 rfl (by decide) (by decide) (by decide)).trans (congrArg₂ _ (st_v99 V) (st_v91 V))
theorem st_v101 : after ops V (Proc.devRef .tc main_v101) = res_v101 (V (Proc.devRef .tc main_arg1)) :=
  (after_binary ops_writes V 120 rfl (by decide) (by decide) (by decide)).trans (congrArg₂ _ (st_v98 V) (st_v100 V))
theorem st_cst_17 : after ops V (Proc.devRef .tc main_cst_17) = res_cst_17 (F := F) :=
  after_nullary ops_writes V 121 rfl (by decide)
theorem st_v102 : after ops V (Proc.devRef .tc main_v102) = res_v102 (F := F) :=
  (after_unary ops_writes V 122 rfl (by decide) (by decide)).trans (congrArg _ (st_cst_17 V))
theorem st_v103 : after ops V (Proc.devRef .tc main_v103) = res_v103 (V (Proc.devRef .tc main_arg1)) :=
  (after_binary ops_writes V 123 rfl (by decide) (by decide) (by decide)).trans (congrArg₂ _ (st_v101 V) (st_v102 V))
theorem st_cst_18 : after ops V (Proc.devRef .tc main_cst_18) = res_cst_18 (F := F) :=
  after_nullary ops_writes V 124 rfl (by decide)
theorem st_v104 : after ops V (Proc.devRef .tc main_v104) = res_v104 (F := F) :=
  (after_unary ops_writes V 125 rfl (by decide) (by decide)).trans (congrArg _ (st_cst_18 V))
theorem st_v105 : after ops V (Proc.devRef .tc main_v105) = res_v105 (V (Proc.devRef .tc main_arg1)) :=
  (after_binary ops_writes V 126 rfl (by decide) (by decide) (by decide)).trans (congrArg₂ _ (st_v103 V) (st_v104 V))
theorem st_cst_19 : after ops V (Proc.devRef .tc main_cst_19) = res_cst_19 (F := F) :=
  after_nullary ops_writes V 127 rfl (by decide)
theorem st_v106 : after ops V (Proc.devRef .tc main_v106) = res_v106 (F := F) :=
  (after_unary ops_writes V 128 rfl (by decide) (by decide)).trans (congrArg _ (st_cst_19 V))
theorem st_v107 : after ops V (Proc.devRef .tc main_v107) = res_v107 (V (Proc.devRef .tc main_arg1)) :=
  (after_binary ops_writes V 129 rfl (by decide) (by decide) (by decide)).trans (congrArg₂ _ (st_v106 V) (st_v90 V))
theorem st_v108 : after ops V (Proc.devRef .tc main_v108) = res_v108 (V (Proc.devRef .tc main_arg1)) :=
  (after_binary ops_writes V 130 rfl (by decide) (by decide) (by decide)).trans (congrArg₂ _ (st_v107 V) (st_v103 V))
theorem st_cst_20 : after ops V (Proc.devRef .tc main_cst_20) = res_cst_20 (F := F) :=
  after_nullary ops_writes V 131 rfl (by decide)
theorem st_v109 : after ops V (Proc.devRef .tc main_v109) = res_v109 (F := F) :=
  (after_unary ops_writes V 132 rfl (by decide) (by decide)).trans (congrArg _ (st_cst_20 V))
theorem st_v110 : after ops V (Proc.devRef .tc main_v110) = res_v110 (V (Proc.devRef .tc main_arg1)) :=
  (after_binary ops_writes V 133 rfl (by decide) (by decide) (by decide)).trans (congrArg₂ _ (st_v109 V) (st_v90 V))
theorem st_v111 : after ops V (Proc.devRef .tc main_v111) = res_v111 (V (Proc.devRef .tc main_arg1)) :=
  (after_binary ops_writes V 134 rfl (by decide) (by decide) (by decide)).trans (congrArg₂ _ (st_v108 V) (st_v110 V))
theorem st_cst_21 : after ops V (Proc.devRef .tc main_cst_21) = res_cst_21 (F := F) :=
  after_nullary ops_writes V 135 rfl (by decide)
theorem st_v112 : after ops V (Proc.devRef .tc main_v112) = res_v112 (F := F) :=
  (after_unary ops_writes V 136 rfl (by decide) (by decide)).trans (congrArg _ (st_cst_21 V))
theorem st_v113 : after ops V (Proc.devRef .tc main_v113) = res_v113 (V (Proc.devRef .tc main_arg1)) :=
  (after_binary ops_writes V 137 rfl (by decide) (by decide) (by decide)).trans (congrArg₂ _ (st_v111 V) (st_v112 V))
theorem st_cst_22 : after ops V (Proc.devRef .tc main_cst_22) = res_cst_22 (F := F) :=
  after_nullary ops_writes V 138 rfl (by decide)
theorem st_v114 : after ops V (Proc.devRef .tc main_v114) = res_v114 (F := F) :=
  (after_unary ops_writes V 139 rfl (by decide) (by decide)).trans (congrArg _ (st_cst_22 V))
theorem st_v115 : after ops V (Proc.devRef .tc main_v115) = res_v115 (V (Proc.devRef .tc main_arg1)) :=
  (after_binary ops_writes V 140 rfl (by decide) (by decide) (by decide)).trans (congrArg₂ _ (st_v113 V) (st_v114 V))
theorem st_cst_23 : after ops V (Proc.devRef .tc main_cst_23) = res_cst_23 (F := F) :=
  after_nullary ops_writes V 141 rfl (by decide)
theorem st_v116 : after ops V (Proc.devRef .tc main_v116) = res_v116 (F := F) :=
  (after_unary ops_writes V 142 rfl (by decide) (by decide)).trans (congrArg _ (st_cst_23 V))
theorem st_v117 : after ops V (Proc.devRef .tc main_v117) = res_v117 (V (Proc.devRef .tc main_arg1)) :=
  (after_binary ops_writes V 143 rfl (by decide) (by decide) (by decide)).trans (congrArg₂ _ (st_v116 V) (st_v90 V))
theorem st_v118 : after ops V (Proc.devRef .tc main_v118) = res_v118 (V (Proc.devRef .tc main_arg1)) :=
  (after_binary ops_writes V 144 rfl (by decide) (by decide) (by decide)).trans (congrArg₂ _ (st_v117 V) (st_v113 V))
theorem st_cst_24 : after ops V (Proc.devRef .tc main_cst_24) = res_cst_24 (F := F) :=
  after_nullary ops_writes V 145 rfl (by decide)
theorem st_v119 : after ops V (Proc.devRef .tc main_v119) = res_v119 (F := F) :=
  (after_unary ops_writes V 146 rfl (by decide) (by decide)).trans (congrArg _ (st_cst_24 V))
theorem st_v120 : after ops V (Proc.devRef .tc main_v120) = res_v120 (V (Proc.devRef .tc main_arg1)) :=
  (after_binary ops_writes V 147 rfl (by decide) (by decide) (by decide)).trans (congrArg₂ _ (st_v119 V) (st_v103 V))
theorem st_v121 : after ops V (Proc.devRef .tc main_v121) = res_v121 (V (Proc.devRef .tc main_arg1)) :=
  (after_binary ops_writes V 148 rfl (by decide) (by decide) (by decide)).trans (congrArg₂ _ (st_v118 V) (st_v120 V))
theorem st_cst_25 : after ops V (Proc.devRef .tc main_cst_25) = res_cst_25 (F := F) :=
  after_nullary ops_writes V 149 rfl (by decide)
theorem st_v122 : after ops V (Proc.devRef .tc main_v122) = res_v122 (F := F) :=
  (after_unary ops_writes V 150 rfl (by decide) (by decide)).trans (congrArg _ (st_cst_25 V))
theorem st_v123 : after ops V (Proc.devRef .tc main_v123) = res_v123 (V (Proc.devRef .tc main_arg1)) :=
  (after_binary ops_writes V 151 rfl (by decide) (by decide) (by decide)).trans (congrArg₂ _ (st_v121 V) (st_v122 V))
theorem st_cst_26 : after ops V (Proc.devRef .tc main_cst_26) = res_cst_26 (F := F) :=
  after_nullary ops_writes V 152 rfl (by decide)
theorem st_v124 : after ops V (Proc.devRef .tc main_v124) = res_v124 (F := F) :=
  (after_unary ops_writes V 153 rfl (by decide) (by decide)).trans (congrArg _ (st_cst_26 V))
theorem st_v125 : after ops V (Proc.devRef .tc main_v125) = res_v125 (V (Proc.devRef .tc main_arg1)) :=
  (after_binary ops_writes V 154 rfl (by decide) (by decide) (by decide)).trans (congrArg₂ _ (st_v123 V) (st_v124 V))
theorem st_cst_27 : after ops V (Proc.devRef .tc main_cst_27) = res_cst_27 (F := F) :=
  after_nullary ops_writes V 155 rfl (by decide)
theorem st_v126 : after ops V (Proc.devRef .tc main_v126) = res_v126 (F := F) :=
  (after_unary ops_writes V 156 rfl (by decide) (by decide)).trans (congrArg _ (st_cst_27 V))
theorem st_v127 : after ops V (Proc.devRef .tc main_v127) = res_v127 (V (Proc.devRef .tc main_arg1)) :=
  (after_binary ops_writes V 157 rfl (by decide) (by decide) (by decide)).trans (congrArg₂ _ (st_v126 V) (st_v90 V))
theorem st_v128 : after ops V (Proc.devRef .tc main_v128) = res_v128 (V (Proc.devRef .tc main_arg1)) :=
  (after_binary ops_writes V 158 rfl (by decide) (by decide) (by decide)).trans (congrArg₂ _ (st_v127 V) (st_v123 V))
theorem st_cst_28 : after ops V (Proc.devRef .tc main_cst_28) = res_cst_28 (F := F) :=
  after_nullary ops_writes V 159 rfl (by decide)
theorem st_v129 : after ops V (Proc.devRef .tc main_v129) = res_v129 (F := F) :=
  (after_unary ops_writes V 160 rfl (by decide) (by decide)).trans (congrArg _ (st_cst_28 V))
theorem st_v130 : after ops V (Proc.devRef .tc main_v130) = res_v130 (V (Proc.devRef .tc main_arg1)) :=
  (after_binary ops_writes V 161 rfl (by decide) (by decide) (by decide)).trans (congrArg₂ _ (st_v129 V) (st_v113 V))
theorem st_v131 : after ops V (Proc.devRef .tc main_v131) = res_v131 (V (Proc.devRef .tc main_arg1)) :=
  (after_binary ops_writes V 162 rfl (by decide) (by decide) (by decide)).trans (congrArg₂ _ (st_v128 V) (st_v130 V))
theorem st_cst_29 : after ops V (Proc.devRef .tc main_cst_29) = res_cst_29 (F := F) :=
  after_nullary ops_writes V 163 rfl (by decide)
theorem st_v132 : after ops V (Proc.devRef .tc main_v132) = res_v132 (F := F) :=
  (after_unary ops_writes V 164 rfl (by decide) (by decide)).trans (congrArg _ (st_cst_29 V))
theorem st_v133 : after ops V (Proc.devRef .tc main_v133) = res_v133 (V (Proc.devRef .tc main_arg1)) :=
  (after_binary ops_writes V 165 rfl (by decide) (by decide) (by decide)).trans (congrArg₂ _ (st_v131 V) (st_v132 V))
theorem st_cst_30 : after ops V (Proc.devRef .tc main_cst_30) = res_cst_30 (F := F) :=
  after_nullary ops_writes V 166 rfl (by decide)
theorem st_v134 : after ops V (Proc.devRef .tc main_v134) = res_v134 (F := F) :=
  (after_unary ops_writes V 167 rfl (by decide) (by decide)).trans (congrArg _ (st_cst_30 V))
theorem st_v135 : after ops V (Proc.devRef .tc main_v135) = res_v135 (V (Proc.devRef .tc main_arg1)) :=
  (after_binary ops_writes V 168 rfl (by decide) (by decide) (by decide)).trans (congrArg₂ _ (st_v133 V) (st_v134 V))
theorem st_cst_31 : after ops V (Proc.devRef .tc main_cst_31) = res_cst_31 (F := F) :=
  after_nullary ops_writes V 169 rfl (by decide)
theorem st_v136 : after ops V (Proc.devRef .tc main_v136) = res_v136 (F := F) :=
  (after_unary ops_writes V 170 rfl (by decide) (by decide)).trans (congrArg _ (st_cst_31 V))
theorem st_v137 : after ops V (Proc.devRef .tc main_v137) = res_v137 (V (Proc.devRef .tc main_arg1)) :=
  (after_binary ops_writes V 171 rfl (by decide) (by decide) (by decide)).trans (congrArg₂ _ (st_v136 V) (st_v90 V))
theorem st_v138 : after ops V (Proc.devRef .tc main_v138) = res_v138 (V (Proc.devRef .tc main_arg1)) :=
  (after_binary ops_writes V 172 rfl (by decide) (by decide) (by decide)).trans (congrArg₂ _ (st_v137 V) (st_v133 V))
theorem st_cst_32 : after ops V (Proc.devRef .tc main_cst_32) = res_cst_32 (F := F) :=
  after_nullary ops_writes V 173 rfl (by decide)
theorem st_v139 : after ops V (Proc.devRef .tc main_v139) = res_v139 (F := F) :=
  (after_unary ops_writes V 174 rfl (by decide) (by decide)).trans (congrArg _ (st_cst_32 V))
theorem st_v140 : after ops V (Proc.devRef .tc main_v140) = res_v140 (V (Proc.devRef .tc main_arg1)) :=
  (after_binary ops_writes V 175 rfl (by decide) (by decide) (by decide)).trans (congrArg₂ _ (st_v139 V) (st_v123 V))
theorem st_v141 : after ops V (Proc.devRef .tc main_v141) = res_v141 (V (Proc.devRef .tc main_arg1)) :=
  (after_binary ops_writes V 176 rfl (by decide) (by decide) (by decide)).trans (congrArg₂ _ (st_v138 V) (st_v140 V))
theorem st_cst_33 : after ops V (Proc.devRef .tc main_cst_33) = res_cst_33 (F := F) :=
  after_nullary ops_writes V 177 rfl (by decide)
theorem st_v142 : after ops V (Proc.devRef .tc main_v142) = res_v142 (F := F) :=
  (after_unary ops_writes V 178 rfl (by decide) (by decide)).trans (congrArg _ (st_cst_33 V))
theorem st_v143 : after ops V (Proc.devRef .tc main_v143) = res_v143 (V (Proc.devRef .tc main_arg1)) :=
  (after_binary ops_writes V 179 rfl (by decide) (by decide) (by decide)).trans (congrArg₂ _ (st_v141 V) (st_v142 V))
theorem st_cst_34 : after ops V (Proc.devRef .tc main_cst_34) = res_cst_34 (F := F) :=
  after_nullary ops_writes V 180 rfl (by decide)
theorem st_v144 : after ops V (Proc.devRef .tc main_v144) = res_v144 (F := F) :=
  (after_unary ops_writes V 181 rfl (by decide) (by decide)).trans (congrArg _ (st_cst_34 V))
theorem st_v145 : after ops V (Proc.devRef .tc main_v145) = res_v145 (V (Proc.devRef .tc main_arg1)) :=
  (after_binary ops_writes V 182 rfl (by decide) (by decide) (by decide)).trans (congrArg₂ _ (st_v143 V) (st_v144 V))
theorem st_v146 : after ops V (Proc.devRef .tc main_v146) = res_v146 (F := F) :=
  (after_unary ops_writes V 183 rfl (by decide) (by decide)).trans (congrArg _ (st_v93 V))
theorem st_v147 : after ops V (Proc.devRef .tc main_v147) = res_v147 (V (Proc.devRef .tc main_arg1)) :=
  (after_unary ops_writes V 184 rfl (by decide) (by decide)).trans (congrArg _ (st_v95 V))
theorem st_v148 : after ops V (Proc.devRef .tc main_v148) = res_v148 (V (Proc.devRef .tc main_arg1)) :=
  (after_unary ops_writes V 185 rfl (by decide) (by decide)).trans (congrArg _ (st_v105 V))
theorem st_v149 : after ops V (Proc.devRef .tc main_v149) = res_v149 (V (Proc.devRef .tc main_arg1)) :=
  (after_unary ops_writes V 186 rfl (by decide) (by decide)).trans (congrArg _ (st_v115 V))
theorem st_v150 : after ops V (Proc.devRef .tc main_v150) = res_v150 (V (Proc.devRef .tc main_arg1)) :=
  (after_unary ops_writes V 187 rfl (by decide) (by decide)).trans (congrArg _ (st_v125 V))
theorem st_v151 : after ops V (Proc.devRef .tc main_v151) = res_v151 (V (Proc.devRef .tc main_arg1)) :=
  (after_unary ops_writes V 188 rfl (by decide) (by decide)).trans (congrArg _ (st_v135 V))
theorem st_v152 : after ops V (Proc.devRef .tc main_v152) = res_v152 (V (Proc.devRef .tc main_arg1)) :=
  (after_unary ops_writes V 189 rfl (by decide) (by decide)).trans (congrArg _ (st_v145 V))
theorem st_v153 : after ops V (Proc.devRef .tc main_v153) = res_v153 (V (Proc.devRef .tc main_arg1)) :=
  (after_nary ops_writes V 190 rfl (by decide) (by decide)).trans (by simp only [Matrix.cons_val_zero, Matrix.cons_val_one, Matrix.cons_val, st_v146 V, st_v147 V, st_v148 V, st_v149 V, st_v150 V, st_v151 V, st_v152 V]; rfl)
theorem st_v154 : after ops V (Proc.devRef .tc main_v154) = res_v154 (V (Proc.devRef .tc main_arg1)) :=
  (after_unary ops_writes V 191 rfl (by decide) (by decide)).trans (congrArg _ (st_v153 V))
theorem st_v155 : after ops V (Proc.devRef .tc main_v155) = res_v155 (V (Proc.devRef .tc main_arg1)) :=
  (after_reshape ops_writes V 192 rfl (by decide) (by decide)).trans (by rw [st_v154 V]; rfl)
theorem st_v156 : after ops V (Proc.devRef .tc main_v156) = res_v156 (V (Proc.devRef .tc main_arg0)) (V (Proc.devRef .tc main_arg1)) (V (Proc.devRef .tc main_arg2)) :=
  (after_binary ops_writes V 193 rfl (by decide) (by decide) (by decide)).trans (congrArg₂ _ (st_v89 V) (st_v155 V))

end Stages

end Cert.ReferenceIdeal.RefRun

end
-- ==== Proof.RefRun.lean ====
/-
  The reference program's run: @main is the line of its 194 host operations, so every weakly fair execution
  terminates with each buffer at the composition of the operations that lead to it; the result buffer is the last
  stage, and no operation writes an argument.
-/
import proofs.«404429_j65481071394972_3_alg».proof.Proof.RefTable
import Idealize.ShloMosaic.Lib.StableHlo.Run

set_option maxRecDepth 65536

noncomputable section

namespace Cert.ReferenceIdeal.RefRun

open Cert.ReferenceIdeal Cert.ReferenceIdeal.Gen Cert.ReferenceIdeal.Stages
open Idealize.ShloMosaic Idealize.ShloMosaic.TcCoe Idealize.SL.Sem Idealize.ShloMosaic.StableHlo

variable {F : FTy → Type} [FloatOps F]

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation of a line determines all it writes, when each operation's set of undetermined buffers is empty. -/
theorem fresh_of_map {l : List (HloOp τ sig (Elt F))} (h : l.map HloOp.fresh = List.replicate l.length ∅) :
    ∀ op ∈ l, op.fresh = ∅ := fun op hop =>
  List.eq_of_mem_replicate (h ▸ List.mem_map_of_mem hop)

theorem ops_fresh : ∀ op ∈ (ops : List (HloOp τ sig (Elt F))), op.fresh = ∅ := fresh_of_map rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v156)
        = res_v156 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v156).trans (st_v156 _), (h c main_arg0).trans (st_arg0 _),
      (h c main_arg1).trans (st_arg1 _), (h c main_arg2).trans (st_arg2 _)⟩)
    (run_seq scopedRefs_eq scopedSems_eq defs main (fun _ => ops) main_eq (fun _ => ops_sub) m ρ (fun _ => ops_fresh))

end Cert.ReferenceIdeal.RefRun

end
-- ==== Proof.RefRadial.lean ====
/-
  The reference's radial table read at an entry, at the extended reals: row `e`, column `j` of the [500000, 42] table
  is the specification's radial factor (envelope on the left) of the distance `d e`, for the column's zero and
  normaliser and the Bessel family `j / 6`. The program computes all seven families on the whole [500000, 7, 6]
  array, keeps family `l` at row `l` of the middle axis (a slice, stacked back), and flattens the last two axes, so
  column `j` reads family `j / 6` at its own zero.
-/
import proofs.«404429_j65481071394972_3_alg».proof.Proof.RefStages
import proofs.«404429_j65481071394972_3_alg».proof.Proof.Spec
import Idealize.ShloMosaic.PureOps.Ideal
import Idealize.ShloMosaic.Lib.Pipeline.Value
import Idealize.ShloMosaic.Lib.ValueIdx
import Idealize.ShloMosaic.Lib.ValueLayout

set_option maxRecDepth 16384

noncomputable section

namespace Cert.ReferenceIdeal.Radial

open Cert.ReferenceIdeal Cert.ReferenceIdeal.Gen Cert.ReferenceIdeal.Stages
open Idealize.ShloMosaic Idealize.ShloMosaic.ValueIdx

open Cert.Spec (lit)

/-- The seven spherical Bessel terms of the upward recurrence, each as a function of the argument. -/
def besJ0 (t : EReal) : EReal := Ideal.div (Ideal.sin t) t
def besJ1 (t : EReal) : EReal := Ideal.div (Ideal.sin t) (t * t) - Ideal.div (Ideal.cos t) t
def besJ2 (t : EReal) : EReal := Ideal.div (lit 0x40400000#32) t * besJ1 t - besJ0 t
def besJ3 (t : EReal) : EReal := Ideal.div (lit 0x40A00000#32) t * besJ2 t - besJ1 t
def besJ4 (t : EReal) : EReal := Ideal.div (lit 0x40E00000#32) t * besJ3 t - besJ2 t
def besJ5 (t : EReal) : EReal := Ideal.div (lit 0x41100000#32) t * besJ4 t - besJ3 t
def besJ6 (t : EReal) : EReal := Ideal.div (lit 0x41300000#32) t * besJ5 t - besJ4 t

/-- The specification's table of the seven terms is these seven functions. -/
theorem bes_eq (t : EReal) : Cert.Spec.bes t = ![besJ0 t, besJ1 t, besJ2 t, besJ3 t, besJ4 t, besJ5 t, besJ6 t] := rfl

abbrev DistArr := (⟨S500000, .f32⟩ : BufTy).Contents (Elt Ideal)

/-! ## The pointwise stages, at any index -/

theorem res_v1_apply (d : DistArr) (i : S500000.Idx) : res_v1 (F := Ideal) d i = Cert.Spec.scaled (d i) := rfl
theorem res_v78_apply (d : DistArr) (i : S500000.Idx) : res_v78 (F := Ideal) d i = Cert.Spec.env (res_v1 d i) := rfl

theorem res_v9_apply (d : DistArr) (i : S500000x7x6.Idx) : res_v9 (F := Ideal) d i = besJ0 (res_v6 d i) := rfl
theorem res_v15_apply (d : DistArr) (i : S500000x7x6.Idx) : res_v15 (F := Ideal) d i = besJ1 (res_v6 d i) := rfl
theorem res_v21_apply (d : DistArr) (i : S500000x7x6.Idx) : res_v21 (F := Ideal) d i = besJ2 (res_v6 d i) := rfl
theorem res_v27_apply (d : DistArr) (i : S500000x7x6.Idx) : res_v27 (F := Ideal) d i = besJ3 (res_v6 d i) := rfl
theorem res_v33_apply (d : DistArr) (i : S500000x7x6.Idx) : res_v33 (F := Ideal) d i = besJ4 (res_v6 d i) := rfl
theorem res_v39_apply (d : DistArr) (i : S500000x7x6.Idx) : res_v39 (F := Ideal) d i = besJ5 (res_v6 d i) := rfl
theorem res_v45_apply (d : DistArr) (i : S500000x7x6.Idx) : res_v45 (F := Ideal) d i = besJ6 (res_v6 d i) := rfl

/-! ## The broadcasts, at an index by coordinates -/

/-- The scaled distance broadcast to [500000, 1, 1] reads its row. -/
theorem res_v2_apply (d : DistArr) (e : Fin 500000) (a b : Fin 1) : res_v2 (F := Ideal) d (ix3 e a b) = res_v1 d (ix1 e) := by
  unfold res_v2
  exact broadcastInDim_apply _ _ _ _ (ix1 e) (fun a => by match a with | ⟨0, _⟩ => rfl)

/-- … and broadcast on to [500000, 7, 6] still reads its row. -/
theorem res_v4_apply (d : DistArr) (e : Fin 500000) (l : Fin 7) (k : Fin 6) :
    res_v4 (F := Ideal) d (ix3 e l k) = res_v1 d (ix1 e) := by
  unfold res_v4
  refine (broadcastInDim_apply _ _ _ _ (ix3 e (0 : Fin 1) (0 : Fin 1)) (fun a => by
    match a with
    | ⟨0, _⟩ => rfl
    | ⟨1, _⟩ => rfl
    | ⟨2, _⟩ => rfl)).trans ?_
  exact res_v2_apply d e 0 0

/-- The table of zeros broadcast over the rows reads the table at the last two coordinates. -/
theorem res_v5_apply (e : Fin 500000) (l : Fin 7) (k : Fin 6) :
    res_v5 (F := Ideal) (ix3 e l k) = lit (lit0 (S7x6.rowMajor (ix2 l k))) := by
  unfold res_v5
  refine (broadcastInDim_apply _ _ _ _ (ix3 (0 : Fin 1) l k) (fun a => by
    match a with
    | ⟨0, _⟩ => rfl
    | ⟨1, _⟩ => rfl
    | ⟨2, _⟩ => rfl)).trans ?_
  unfold res_v3
  refine (broadcastInDim_apply _ _ _ _ (ix2 l k) (fun a => by
    match a with
    | ⟨0, _⟩ => rfl
    | ⟨1, _⟩ => rfl)).trans ?_
  rfl

/-- The argument array: the scaled distance of the row times the zero of the column. -/
theorem res_v6_apply (d : DistArr) (e : Fin 500000) (l : Fin 7) (k : Fin 6) :
    res_v6 (F := Ideal) d (ix3 e l k) = Cert.Spec.scaled (d (ix1 e)) * lit (lit0 (S7x6.rowMajor (ix2 l k))) := by
  show res_v4 d (ix3 e l k) * res_v5 (ix3 e l k) = _
  rw [res_v4_apply, res_v5_apply, res_v1_apply]

/-- The table of normalisers broadcast over the rows reads the table at the last two coordinates. -/
theorem res_v57_apply (e : Fin 500000) (l : Fin 7) (k : Fin 6) :
    res_v57 (F := Ideal) (ix3 e l k) = lit (lit1 (S7x6.rowMajor (ix2 l k))) := by
  unfold res_v57
  refine (broadcastInDim_apply _ _ _ _ (ix3 (0 : Fin 1) l k) (fun a => by
    match a with
    | ⟨0, _⟩ => rfl
    | ⟨1, _⟩ => rfl
    | ⟨2, _⟩ => rfl)).trans ?_
  unfold res_v56
  refine (broadcastInDim_apply _ _ _ _ (ix2 l k) (fun a => by
    match a with
    | ⟨0, _⟩ => rfl
    | ⟨1, _⟩ => rfl)).trans ?_
  rfl

/-- The envelope broadcast to [500000, 7, 6] reads the envelope of the row's scaled distance. -/
theorem res_v80_apply (d : DistArr) (e : Fin 500000) (l : Fin 7) (k : Fin 6) :
    res_v80 (F := Ideal) d (ix3 e l k) = Cert.Spec.env (Cert.Spec.scaled (d (ix1 e))) := by
  unfold res_v80
  refine (broadcastInDim_apply _ _ _ _ (ix3 e (0 : Fin 1) (0 : Fin 1)) (fun a => by
    match a with
    | ⟨0, _⟩ => rfl
    | ⟨1, _⟩ => rfl
    | ⟨2, _⟩ => rfl)).trans ?_
  unfold res_v79
  refine (broadcastInDim_apply _ _ _ _ (ix1 e) (fun a => by match a with | ⟨0, _⟩ => rfl)).trans ?_
  rw [res_v78_apply, res_v1_apply]

/-! ## One family's slab: the slice at row `l` of the middle axis, reshaped to [500000, 6] and back to [500000, 1, 6] -/

/-- Dropping the unit middle axis keeps the row and the column. -/
theorem cast_drop_mid (X : S500000x1x6.Idx → EReal) (e : Fin 500000) (k : Fin 6) :
    shapeCast S500000x6 X shapeCasts_S500000x1x6_S500000x6 (ix2 e k) = X (ix3 e (0 : Fin 1) k) := by
  refine shapeCast_apply _ _ _ (ix3 e (0 : Fin 1) k) ?_
  rw [Shape.rowMajor_val_three, Shape.rowMajor_val_two]
  show (e.val * 1 + 0) * 6 + k.val = e.val * 6 + k.val
  omega

/-- Putting the unit middle axis back keeps the row and the column. -/
theorem bcast_add_mid (X : S500000x6.Idx → EReal) (e : Fin 500000) (a : Fin 1) (k : Fin 6) :
    broadcastInDim S500000x1x6 ![0, 2] bcast_S500000x6_S500000x1x6_0_2 X (ix3 e a k) = X (ix2 e k) :=
  broadcastInDim_apply _ _ _ _ (ix2 e k) (fun a => by
    match a with
    | ⟨0, _⟩ => rfl
    | ⟨1, _⟩ => rfl)

/-- Family 0's slab reads the whole-array term `j_0` at row 0 of the middle axis. -/
theorem slab0 (d : DistArr) (e : Fin 500000) (k : Fin 6) :
    res_v48 (F := Ideal) d (ix3 e (0 : Fin 1) k) = besJ0 (res_v6 d (ix3 e (0 : Fin 7) k)) :=
  (bcast_add_mid (res_v11 d) e 0 k).trans <| (cast_drop_mid (res_v10 d) e k).trans <|
    (slice3_axis1_apply 0 (res_v9 d) slices_S500000x7x6_S500000x1x6_0_0_0 e (0 : Fin 1) k (0 : Fin 7) rfl).trans <|
      res_v9_apply d _

/-- Family 1's slab reads the whole-array term `j_1` at row 1 of the middle axis. -/
theorem slab1 (d : DistArr) (e : Fin 500000) (k : Fin 6) :
    res_v49 (F := Ideal) d (ix3 e (0 : Fin 1) k) = besJ1 (res_v6 d (ix3 e (1 : Fin 7) k)) :=
  (bcast_add_mid (res_v17 d) e 0 k).trans <| (cast_drop_mid (res_v16 d) e k).trans <|
    (slice3_axis1_apply 1 (res_v15 d) slices_S500000x7x6_S500000x1x6_0_1_0 e (0 : Fin 1) k (1 : Fin 7) rfl).trans <|
      res_v15_apply d _

/-- Family 2's slab reads the whole-array term `j_2` at row 2 of the middle axis. -/
theorem slab2 (d : DistArr) (e : Fin 500000) (k : Fin 6) :
    res_v50 (F := Ideal) d (ix3 e (0 : Fin 1) k) = besJ2 (res_v6 d (ix3 e (2 : Fin 7) k)) :=
  (bcast_add_mid (res_v23 d) e 0 k).trans <| (cast_drop_mid (res_v22 d) e k).trans <|
    (slice3_axis1_apply 2 (res_v21 d) slices_S500000x7x6_S500000x1x6_0_2_0 e (0 : Fin 1) k (2 : Fin 7) rfl).trans <|
      res_v21_apply d _

/-- Family 3's slab reads the whole-array term `j_3` at row 3 of the middle axis. -/
theorem slab3 (d : DistArr) (e : Fin 500000) (k : Fin 6) :
    res_v51 (F := Ideal) d (ix3 e (0 : Fin 1) k) = besJ3 (res_v6 d (ix3 e (3 : Fin 7) k)) :=
  (bcast_add_mid (res_v29 d) e 0 k).trans <| (cast_drop_mid (res_v28 d) e k).trans <|
    (slice3_axis1_apply 3 (res_v27 d) slices_S500000x7x6_S500000x1x6_0_3_0 e (0 : Fin 1) k (3 : Fin 7) rfl).trans <|
      res_v27_apply d _

/-- Family 4's slab reads the whole-array term `j_4` at row 4 of the middle axis. -/
theorem slab4 (d : DistArr) (e : Fin 500000) (k : Fin 6) :
    res_v52 (F := Ideal) d (ix3 e (0 : Fin 1) k) = besJ4 (res_v6 d (ix3 e (4 : Fin 7) k)) :=
  (bcast_add_mid (res_v35 d) e 0 k).trans <| (cast_drop_mid (res_v34 d) e k).trans <|
    (slice3_axis1_apply 4 (res_v33 d) slices_S500000x7x6_S500000x1x6_0_4_0 e (0 : Fin 1) k (4 : Fin 7) rfl).trans <|
      res_v33_apply d _

/-- Family 5's slab reads the whole-array term `j_5` at row 5 of the middle axis. -/
theorem slab5 (d : DistArr) (e : Fin 500000) (k : Fin 6) :
    res_v53 (F := Ideal) d (ix3 e (0 : Fin 1) k) = besJ5 (res_v6 d (ix3 e (5 : Fin 7) k)) :=
  (bcast_add_mid (res_v41 d) e 0 k).trans <| (cast_drop_mid (res_v40 d) e k).trans <|
    (slice3_axis1_apply 5 (res_v39 d) slices_S500000x7x6_S500000x1x6_0_5_0 e (0 : Fin 1) k (5 : Fin 7) rfl).trans <|
      res_v39_apply d _

/-- Family 6's slab reads the whole-array term `j_6` at row 6 of the middle axis. -/
theorem slab6 (d : DistArr) (e : Fin 500000) (k : Fin 6) :
    res_v54 (F := Ideal) d (ix3 e (0 : Fin 1) k) = besJ6 (res_v6 d (ix3 e (6 : Fin 7) k)) :=
  (bcast_add_mid (res_v47 d) e 0 k).trans <| (cast_drop_mid (res_v46 d) e k).trans <|
    (slice3_axis1_apply 6 (res_v45 d) slices_S500000x7x6_S500000x1x6_0_6_0 e (0 : Fin 1) k (6 : Fin 7) rfl).trans <|
      res_v45_apply d _

/-! ## The stack of the seven slabs along the middle axis -/

/-- Row 0 of the stack is slab 0. -/
theorem res_v55_at0 (d : DistArr) (e : Fin 500000) (k : Fin 6) :
    res_v55 (F := Ideal) d (ix3 e (0 : Fin 7) k) = res_v48 d (ix3 e (0 : Fin 1) k) := by
  unfold res_v55
  refine concatenate_apply_piece _ _ _ _ 0 ?_ S500000x1x6 (res_v48 d) ?_ ?_ 0 ?_ (ix3 e (0 : Fin 1) k) ?_ ?_
  · exact (by decide : 0 < 7)
  · rfl
  · rfl
  · rfl
  · intro b
    match b with
    | ⟨0, _⟩ => exact fun _ => rfl
    | ⟨1, _⟩ => exact fun h => absurd rfl h
    | ⟨2, _⟩ => exact fun _ => rfl
  · rfl

/-- Row 1 of the stack is slab 1. -/
theorem res_v55_at1 (d : DistArr) (e : Fin 500000) (k : Fin 6) :
    res_v55 (F := Ideal) d (ix3 e (1 : Fin 7) k) = res_v49 d (ix3 e (0 : Fin 1) k) := by
  unfold res_v55
  refine concatenate_apply_piece _ _ _ _ 1 ?_ S500000x1x6 (res_v49 d) ?_ ?_ 1 ?_ (ix3 e (0 : Fin 1) k) ?_ ?_
  · exact (by decide : 1 < 7)
  · rfl
  · rfl
  · rfl
  · intro b
    match b with
    | ⟨0, _⟩ => exact fun _ => rfl
    | ⟨1, _⟩ => exact fun h => absurd rfl h
    | ⟨2, _⟩ => exact fun _ => rfl
  · rfl

/-- Row 2 of the stack is slab 2. -/
theorem res_v55_at2 (d : DistArr) (e : Fin 500000) (k : Fin 6) :
    res_v55 (F := Ideal) d (ix3 e (2 : Fin 7) k) = res_v50 d (ix3 e (0 : Fin 1) k) := by
  unfold res_v55
  refine concatenate_apply_piece _ _ _ _ 2 ?_ S500000x1x6 (res_v50 d) ?_ ?_ 2 ?_ (ix3 e (0 : Fin 1) k) ?_ ?_
  · exact (by decide : 2 < 7)
  · rfl
  · rfl
  · rfl
  · intro b
    match b with
    | ⟨0, _⟩ => exact fun _ => rfl
    | ⟨1, _⟩ => exact fun h => absurd rfl h
    | ⟨2, _⟩ => exact fun _ => rfl
  · rfl

/-- Row 3 of the stack is slab 3. -/
theorem res_v55_at3 (d : DistArr) (e : Fin 500000) (k : Fin 6) :
    res_v55 (F := Ideal) d (ix3 e (3 : Fin 7) k) = res_v51 d (ix3 e (0 : Fin 1) k) := by
  unfold res_v55
  refine concatenate_apply_piece _ _ _ _ 3 ?_ S500000x1x6 (res_v51 d) ?_ ?_ 3 ?_ (ix3 e (0 : Fin 1) k) ?_ ?_
  · exact (by decide : 3 < 7)
  · rfl
  · rfl
  · rfl
  · intro b
    match b with
    | ⟨0, _⟩ => exact fun _ => rfl
    | ⟨1, _⟩ => exact fun h => absurd rfl h
    | ⟨2, _⟩ => exact fun _ => rfl
  · rfl

/-- Row 4 of the stack is slab 4. -/
theorem res_v55_at4 (d : DistArr) (e : Fin 500000) (k : Fin 6) :
    res_v55 (F := Ideal) d (ix3 e (4 : Fin 7) k) = res_v52 d (ix3 e (0 : Fin 1) k) := by
  unfold res_v55
  refine concatenate_apply_piece _ _ _ _ 4 ?_ S500000x1x6 (res_v52 d) ?_ ?_ 4 ?_ (ix3 e (0 : Fin 1) k) ?_ ?_
  · exact (by decide : 4 < 7)
  · rfl
  · rfl
  · rfl
  · intro b
    match b with
    | ⟨0, _⟩ => exact fun _ => rfl
    | ⟨1, _⟩ => exact fun h => absurd rfl h
    | ⟨2, _⟩ => exact fun _ => rfl
  · rfl

/-- Row 5 of the stack is slab 5. -/
theorem res_v55_at5 (d : DistArr) (e : Fin 500000) (k : Fin 6) :
    res_v55 (F := Ideal) d (ix3 e (5 : Fin 7) k) = res_v53 d (ix3 e (0 : Fin 1) k) := by
  unfold res_v55
  refine concatenate_apply_piece _ _ _ _ 5 ?_ S500000x1x6 (res_v53 d) ?_ ?_ 5 ?_ (ix3 e (0 : Fin 1) k) ?_ ?_
  · exact (by decide : 5 < 7)
  · rfl
  · rfl
  · rfl
  · intro b
    match b with
    | ⟨0, _⟩ => exact fun _ => rfl
    | ⟨1, _⟩ => exact fun h => absurd rfl h
    | ⟨2, _⟩ => exact fun _ => rfl
  · rfl

/-- Row 6 of the stack is slab 6. -/
theorem res_v55_at6 (d : DistArr) (e : Fin 500000) (k : Fin 6) :
    res_v55 (F := Ideal) d (ix3 e (6 : Fin 7) k) = res_v54 d (ix3 e (0 : Fin 1) k) := by
  unfold res_v55
  refine concatenate_apply_piece _ _ _ _ 6 ?_ S500000x1x6 (res_v54 d) ?_ ?_ 6 ?_ (ix3 e (0 : Fin 1) k) ?_ ?_
  · exact (by decide : 6 < 7)
  · rfl
  · rfl
  · rfl
  · intro b
    match b with
    | ⟨0, _⟩ => exact fun _ => rfl
    | ⟨1, _⟩ => exact fun h => absurd rfl h
    | ⟨2, _⟩ => exact fun _ => rfl
  · rfl

/-- The stack at `(e, l, k)` is the specification's Bessel term of family `l` at the argument of that entry. -/
theorem res_v55_apply (d : DistArr) (e : Fin 500000) (l : Fin 7) (k : Fin 6) :
    res_v55 (F := Ideal) d (ix3 e l k) = Cert.Spec.bes (res_v6 d (ix3 e l k)) l := by
  rw [bes_eq]
  match l with
  | ⟨0, _⟩ => exact (res_v55_at0 d e k).trans (slab0 d e k)
  | ⟨1, _⟩ => exact (res_v55_at1 d e k).trans (slab1 d e k)
  | ⟨2, _⟩ => exact (res_v55_at2 d e k).trans (slab2 d e k)
  | ⟨3, _⟩ => exact (res_v55_at3 d e k).trans (slab3 d e k)
  | ⟨4, _⟩ => exact (res_v55_at4 d e k).trans (slab4 d e k)
  | ⟨5, _⟩ => exact (res_v55_at5 d e k).trans (slab5 d e k)
  | ⟨6, _⟩ => exact (res_v55_at6 d e k).trans (slab6 d e k)

/-! ## The product with the normalisers and the envelope, and the flattening -/

/-- The [500000, 7, 6] product at `(e, l, k)`: the radial factor of family `l` at the zero and normaliser of `(l, k)`. -/
theorem res_v81_apply (d : DistArr) (e : Fin 500000) (l : Fin 7) (k : Fin 6) :
    res_v81 (F := Ideal) d (ix3 e l k)
      = Cert.Spec.radR (lit (lit0 (S7x6.rowMajor (ix2 l k)))) (lit (lit1 (S7x6.rowMajor (ix2 l k)))) (d (ix1 e)) l := by
  show res_v80 d (ix3 e l k) * (res_v55 d (ix3 e l k) * res_v57 (ix3 e l k)) = _
  rw [res_v80_apply, res_v55_apply, res_v57_apply, res_v6_apply]
  rfl

theorem res_v82_apply (d : (⟨S500000, .f32⟩ : BufTy).Contents (Elt Ideal)) (e : Fin 500000) (j : Fin 42) :
    res_v82 (F := Ideal) d (ix2 e j)
      = Cert.Spec.radR (Ideal.ofBits .f32 (lit0 j)) (Ideal.ofBits .f32 (lit1 j)) (d (ix1 e)) (Cert.Spec.fam j) := by
  have hl : j.val / 6 < 7 := by have := j.isLt; omega
  have hk : j.val % 6 < 6 := Nat.mod_lt _ (by decide)
  -- column `j` of the flattened axis is `(j / 6, j % 6)` of the last two axes
  have hcast : res_v82 (F := Ideal) d (ix2 e j) = res_v81 d (ix3 e (⟨j.val / 6, hl⟩ : Fin 7) (⟨j.val % 6, hk⟩ : Fin 6)) := by
    unfold res_v82
    refine shapeCast_apply _ _ _ _ ?_
    rw [Shape.rowMajor_val_three, Shape.rowMajor_val_two]
    show (e.val * 7 + j.val / 6) * 6 + j.val % 6 = e.val * 42 + j.val
    omega
  -- and `(j / 6, j % 6)` is position `j` of the 7 x 6 tables
  have hj : S7x6.rowMajor (ix2 (⟨j.val / 6, hl⟩ : Fin 7) (⟨j.val % 6, hk⟩ : Fin 6)) = j := by
    apply Fin.ext
    rw [Shape.rowMajor_val_two]
    show j.val / 6 * 6 + j.val % 6 = j.val
    omega
  rw [hcast, res_v81_apply, hj]
  rfl

end Cert.ReferenceIdeal.Radial

end
-- ==== Proof.RefAngular.lean ====
/-
  The reference's angular table read at an entry, at the extended reals: row `a`, column `j` of the [2000000, 42]
  table is the specification's angular factor of the angle `ang a` in the family `j / 6`: the seven normalised
  Legendre values are stacked as the columns of a [2000000, 7] array, each repeated six times along a new last axis,
  and the last two axes flattened.
-/
import proofs.«404429_j65481071394972_3_alg».proof.Proof.RefStages
import proofs.«404429_j65481071394972_3_alg».proof.Proof.Spec
import Idealize.ShloMosaic.PureOps.Ideal
import Idealize.ShloMosaic.Lib.Pipeline.Value
import Idealize.ShloMosaic.Lib.ValueIdx
import Idealize.ShloMosaic.Lib.ValueLayout

set_option maxRecDepth 16384

noncomputable section

namespace Cert.ReferenceIdeal.Angular

open Cert.ReferenceIdeal Cert.ReferenceIdeal.Gen Cert.ReferenceIdeal.Stages
open Idealize.ShloMosaic Idealize.ShloMosaic.ValueIdx

/-! ## The rank-1 chain at a position: Bonnet's recurrence, one stage at a time

Every stage of the chain is a pointwise operation of earlier stages and of scalar constants laid along the array, so at
a position `i` it is the scalar operation of the earlier stages' values at `i`. -/

section Chain
variable (ang : (⟨S2000000, .f32⟩ : BufTy).Contents (Elt Ideal)) (i : S2000000.Idx)

/-- The cosine of the angle. -/
theorem v90_at : res_v90 (F := Ideal) ang i = Ideal.cos (ang i) := rfl

/-- `c_0 · P_0`. -/
theorem v93_at : res_v93 (F := Ideal) i = Cert.Spec.lit 0x3F800000#32 * Cert.Spec.lit 0x3E906EBB#32 := rfl

/-- `c_1 · P_1`. -/
theorem v95_at : res_v95 (F := Ideal) ang i = Ideal.cos (ang i) * Cert.Spec.lit 0x3EFA2A1C#32 := rfl

/-- `P_2 = (3·ct·ct − 1·1) / 2`. -/
theorem v103_at : res_v103 (F := Ideal) ang i
    = Ideal.div ((Cert.Spec.lit 0x40400000#32 * Ideal.cos (ang i)) * Ideal.cos (ang i)
        - Cert.Spec.lit 0x3F800000#32 * Cert.Spec.lit 0x3F800000#32) (Cert.Spec.lit 0x40000000#32) := rfl

/-- `P_3 = (5·ct·P_2 − 2·ct) / 3`. -/
theorem v113_at : res_v113 (F := Ideal) ang i
    = Ideal.div ((Cert.Spec.lit 0x40A00000#32 * Ideal.cos (ang i)) * res_v103 (F := Ideal) ang i
        - Cert.Spec.lit 0x40000000#32 * Ideal.cos (ang i)) (Cert.Spec.lit 0x40400000#32) := rfl

/-- `P_4 = (7·ct·P_3 − 3·P_2) / 4`. -/
theorem v123_at : res_v123 (F := Ideal) ang i
    = Ideal.div ((Cert.Spec.lit 0x40E00000#32 * Ideal.cos (ang i)) * res_v113 (F := Ideal) ang i
        - Cert.Spec.lit 0x40400000#32 * res_v103 (F := Ideal) ang i) (Cert.Spec.lit 0x40800000#32) := rfl

/-- `P_5 = (9·ct·P_4 − 4·P_3) / 5`. -/
theorem v133_at : res_v133 (F := Ideal) ang i
    = Ideal.div ((Cert.Spec.lit 0x41100000#32 * Ideal.cos (ang i)) * res_v123 (F := Ideal) ang i
        - Cert.Spec.lit 0x40800000#32 * res_v113 (F := Ideal) ang i) (Cert.Spec.lit 0x40A00000#32) := rfl

/-- `P_6 = (11·ct·P_5 − 5·P_4) / 6`. -/
theorem v143_at : res_v143 (F := Ideal) ang i
    = Ideal.div ((Cert.Spec.lit 0x41300000#32 * Ideal.cos (ang i)) * res_v133 (F := Ideal) ang i
        - Cert.Spec.lit 0x40A00000#32 * res_v123 (F := Ideal) ang i) (Cert.Spec.lit 0x40C00000#32) := rfl

theorem v105_at : res_v105 (F := Ideal) ang i = res_v103 (F := Ideal) ang i * Cert.Spec.lit 0x3F217B01#32 := rfl
theorem v115_at : res_v115 (F := Ideal) ang i = res_v113 (F := Ideal) ang i * Cert.Spec.lit 0x3F3F10F8#32 := rfl
theorem v125_at : res_v125 (F := Ideal) ang i = res_v123 (F := Ideal) ang i * Cert.Spec.lit 0x3F58A618#32 := rfl
theorem v135_at : res_v135 (F := Ideal) ang i = res_v133 (F := Ideal) ang i * Cert.Spec.lit 0x3F6F83A7#32 := rfl
theorem v145_at : res_v145 (F := Ideal) ang i = res_v143 (F := Ideal) ang i * Cert.Spec.lit 0x3F823092#32 := rfl

end Chain

/-! ## The layout stages at an index -/

section Layout
variable (ang : (⟨S2000000, .f32⟩ : BufTy).Contents (Elt Ideal)) (a : Fin 2000000)

/-- A vector kept as a [2000000, 1] column reads, at row `a`, the vector at `a`. -/
theorem col_at (v : (⟨S2000000, .f32⟩ : BufTy).Contents (Elt Ideal)) :
    (broadcastInDim S2000000x1 ![0] bcast_S2000000_S2000000x1_0 v) (ix2 a (0 : Fin 1)) = v (ix1 a) := by
  refine broadcastInDim_apply _ _ _ _ (ix1 a) ?_
  intro b
  match b with
  | ⟨0, _⟩ => rfl

/-- The seven columns stacked along axis 1: column `l` of row `a` is the `l`-th vector at `a`. -/
theorem v153_at : ∀ l : Fin 7, res_v153 (F := Ideal) ang (ix2 a l)
    = (![res_v93 (F := Ideal), res_v95 ang, res_v105 ang, res_v115 ang, res_v125 ang, res_v135 ang, res_v145 ang] l) (ix1 a)
  | ⟨0, _⟩ => by
    unfold res_v153
    refine Eq.trans (concatenate_apply_piece (t := S2000000x7) (1 : Fin 2) _ _ _ 0 (by show (0 : Nat) < 7; decide) S2000000x1 (res_v146 (F := Ideal)) rfl rfl 0 rfl
      (ix2 a (0 : Fin 1)) ?_ rfl) (col_at a _)
    intro b hb
    match b with
    | ⟨0, _⟩ => rfl
    | ⟨1, _⟩ => exact absurd rfl hb
  | ⟨1, _⟩ => by
    unfold res_v153
    refine Eq.trans (concatenate_apply_piece (t := S2000000x7) (1 : Fin 2) _ _ _ 1 (by show (1 : Nat) < 7; decide) S2000000x1 (res_v147 ang) rfl rfl 1 rfl
      (ix2 a (0 : Fin 1)) ?_ rfl) (col_at a _)
    intro b hb
    match b with
    | ⟨0, _⟩ => rfl
    | ⟨1, _⟩ => exact absurd rfl hb
  | ⟨2, _⟩ => by
    unfold res_v153
    refine Eq.trans (concatenate_apply_piece (t := S2000000x7) (1 : Fin 2) _ _ _ 2 (by show (2 : Nat) < 7; decide) S2000000x1 (res_v148 ang) rfl rfl 2 rfl
      (ix2 a (0 : Fin 1)) ?_ rfl) (col_at a _)
    intro b hb
    match b with
    | ⟨0, _⟩ => rfl
    | ⟨1, _⟩ => exact absurd rfl hb
  | ⟨3, _⟩ => by
    unfold res_v153
    refine Eq.trans (concatenate_apply_piece (t := S2000000x7) (1 : Fin 2) _ _ _ 3 (by show (3 : Nat) < 7; decide) S2000000x1 (res_v149 ang) rfl rfl 3 rfl
      (ix2 a (0 : Fin 1)) ?_ rfl) (col_at a _)
    intro b hb
    match b with
    | ⟨0, _⟩ => rfl
    | ⟨1, _⟩ => exact absurd rfl hb
  | ⟨4, _⟩ => by
    unfold res_v153
    refine Eq.trans (concatenate_apply_piece (t := S2000000x7) (1 : Fin 2) _ _ _ 4 (by show (4 : Nat) < 7; decide) S2000000x1 (res_v150 ang) rfl rfl 4 rfl
      (ix2 a (0 : Fin 1)) ?_ rfl) (col_at a _)
    intro b hb
    match b with
    | ⟨0, _⟩ => rfl
    | ⟨1, _⟩ => exact absurd rfl hb
  | ⟨5, _⟩ => by
    unfold res_v153
    refine Eq.trans (concatenate_apply_piece (t := S2000000x7) (1 : Fin 2) _ _ _ 5 (by show (5 : Nat) < 7; decide) S2000000x1 (res_v151 ang) rfl rfl 5 rfl
      (ix2 a (0 : Fin 1)) ?_ rfl) (col_at a _)
    intro b hb
    match b with
    | ⟨0, _⟩ => rfl
    | ⟨1, _⟩ => exact absurd rfl hb
  | ⟨6, _⟩ => by
    unfold res_v153
    refine Eq.trans (concatenate_apply_piece (t := S2000000x7) (1 : Fin 2) _ _ _ 6 (by show (6 : Nat) < 7; decide) S2000000x1 (res_v152 ang) rfl rfl 6 rfl
      (ix2 a (0 : Fin 1)) ?_ rfl) (col_at a _)
    intro b hb
    match b with
    | ⟨0, _⟩ => rfl
    | ⟨1, _⟩ => exact absurd rfl hb

/-- Each column repeated along a new last axis. -/
theorem v154_at (l : Fin 7) (k : Fin 6) :
    res_v154 (F := Ideal) ang (ix3 a l k) = res_v153 (F := Ideal) ang (ix2 a l) := by
  refine broadcastInDim_apply _ _ _ _ (ix2 a l) ?_
  intro b
  match b with
  | ⟨0, _⟩ => rfl
  | ⟨1, _⟩ => rfl

/-- The last two axes flattened: column `j` of the 42 is `(j / 6, j % 6)` of the `[7, 6]` axes. -/
theorem v155_at (j : Fin 42) :
    res_v155 (F := Ideal) ang (ix2 a j)
      = res_v154 (F := Ideal) ang (ix3 a (Cert.Spec.fam j) (⟨j.val % 6, Nat.mod_lt _ (by decide)⟩ : Fin 6)) := by
  refine shapeCast_apply _ _ _ _ ?_
  rw [Shape.rowMajor_val_three, Shape.rowMajor_val_two]
  show (a.val * 7 + j.val / 6) * 6 + j.val % 6 = a.val * 42 + j.val
  omega

end Layout

/-! ## The stacked values are the specification's -/

/-- The `l`-th stacked vector at a position is `c_l · P_l` of the angle's cosine. -/
theorem stack_at (ang : (⟨S2000000, .f32⟩ : BufTy).Contents (Elt Ideal)) (i : S2000000.Idx) : ∀ l : Fin 7,
    (![res_v93 (F := Ideal), res_v95 ang, res_v105 ang, res_v115 ang, res_v125 ang, res_v135 ang, res_v145 ang] l) i
      = Cert.Spec.angf (ang i) l
  | ⟨0, _⟩ => by
    show res_v93 (F := Ideal) i = _
    rw [v93_at]; rfl
  | ⟨1, _⟩ => by
    show res_v95 (F := Ideal) ang i = _
    rw [v95_at]; rfl
  | ⟨2, _⟩ => by
    show res_v105 (F := Ideal) ang i = _
    rw [v105_at, v103_at]; rfl
  | ⟨3, _⟩ => by
    show res_v115 (F := Ideal) ang i = _
    rw [v115_at, v113_at, v103_at]; rfl
  | ⟨4, _⟩ => by
    show res_v125 (F := Ideal) ang i = _
    rw [v125_at, v123_at, v113_at, v103_at]; rfl
  | ⟨5, _⟩ => by
    show res_v135 (F := Ideal) ang i = _
    rw [v135_at, v133_at, v123_at, v113_at, v103_at]; rfl
  | ⟨6, _⟩ => by
    show res_v145 (F := Ideal) ang i = _
    rw [v145_at, v143_at, v133_at, v123_at, v113_at, v103_at]; rfl

theorem res_v155_apply (ang : (⟨S2000000, .f32⟩ : BufTy).Contents (Elt Ideal)) (a : Fin 2000000) (j : Fin 42) :
    res_v155 (F := Ideal) ang (ix2 a j) = Cert.Spec.angf (ang (ix1 a)) (Cert.Spec.fam j) := by
  rw [v155_at, v154_at, v153_at]
  exact stack_at ang (ix1 a) (Cert.Spec.fam j)

end Cert.ReferenceIdeal.Angular

end
-- ==== Proof.LibScatterRows.lean ====
import Mathlib.Data.EReal.Basic
import Mathlib.Algebra.BigOperators.Group.Finset.Basic
import Idealize.ShloMosaic.PureOps.Ideal
import Idealize.ShloMosaic.Lib.ValueIdx
import Idealize.ShloMosaic.Lib.StableHlo.Predicate

/-!
# Row scatters and row gathers read at an index

A scatter whose indices are an [n × 1] column of row numbers adds update row `e` onto operand row
`idx e` (read signed; a row number outside the operand drops the update), and a gather whose start
indices are such a column reads operand row `idx e` (read signed and clamped into the operand).
Read at one element, each is a sum, or a single read, over the positions `e` of the column.
-/

open scoped BigOperators
open Idealize.ShloMosaic Idealize.ShloMosaic.ValueIdx Idealize.ShloMosaic.StableHlo.Predicate

noncomputable section

namespace Cert.ScatterRows

/-- An entry of a one-element list is that element. -/
theorem getElem_of_eq_singleton {α : Type} (l : List α) (a : α) (k : Nat) (h : k < l.length) (hl : l = [a]) :
    l[k] = a := by
  subst hl
  have hk : k = 0 := by simpa using h
  subst hk; rfl

section Vec
variable {N n w : Nat} (d : ScatterDims ⟨1, ![N]⟩ ⟨2, ![n, 1]⟩ ⟨1, ![n]⟩)

/-- The scatter-indices position an update entry reads: row `j 0` of the column. -/
theorem vec_siIdx (hsd : d.scatterDimsToOperandDims = [0]) (hivd : d.indexVectorDim = 1)
    (j : (⟨1, ![n]⟩ : Shape).Idx) (c : Fin d.scatterDimsToOperandDims.length) :
    d.siIdx j c = ixP (j 0) := by
  funext b
  match b with
  | ⟨0, _⟩ =>
    unfold ScatterDims.siIdx
    rw [dif_neg (by rw [hivd]; simp)]
    unfold ScatterDims.siCoord
    apply Fin.ext
    simp only [Fin.val_cast]
    -- the updates have one axis, so whichever of their axes is read it is that one
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- The window starts at the update's position, read signed. -/
theorem vec_start0 (hsd : d.scatterDimsToOperandDims = [0]) (hivd : d.indexVectorDim = 1)
    (j : (⟨1, ![n]⟩ : Shape).Idx) (idx : IVec ⟨2, ![n, 1]⟩ w) :
    d.start j idx 0 = (idx (ixP (j 0))).toInt := by
  have hm : (0 : Fin 1) ∈ d.scatterDimsToOperandDims := by rw [hsd]; exact List.mem_singleton.mpr rfl
  unfold ScatterDims.start
  rw [dif_pos hm, vec_siIdx d hsd hivd]
  rfl

/-- The operand's one axis is an inserted one: no window coordinate is added. -/
theorem vec_window0 (hiw : d.insertedWindowDims = [0]) (j : (⟨1, ![n]⟩ : Shape).Idx) :
    d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- Where an update entry lands: update entry `j` lands on operand entry `i` exactly when its position, read
    signed, is `i`. -/
theorem vec_resultIdx (hiw : d.insertedWindowDims = [0])
    (hsd : d.scatterDimsToOperandDims = [0]) (hivd : d.indexVectorDim = 1)
    (j : (⟨1, ![n]⟩ : Shape).Idx) (idx : IVec ⟨2, ![n, 1]⟩ w) (i : Fin N) :
    d.resultIdx? j idx = some (ix1 i) ↔ (idx (ixP (j 0))).toInt = (i.val : Int) := by
  have h0 := vec_start0 d hsd hivd j idx
  have w0 := vec_window0 d hiw j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have r0 := (hr 0).1
      rw [h0, w0] at e0 r0
      omega
    · exact absurd h (by simp)
  · intro hz
    have hr : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
    rw [dif_pos hr]
    congr 1
    funext a
    apply Fin.ext
    match a with
    | ⟨0, _⟩ =>
      show (d.start j idx 0 + (d.window j 0 : Int)).toNat = i.val
      rw [h0, w0, hz]; omega

end Vec

/-- A rank-1 index set is its one coordinate's range. -/
def idxEquiv1 {n : Nat} : (⟨1, ![n]⟩ : Shape).Idx ≃ Fin n where
  toFun a := a 0
  invFun e := ix1 e
  left_inv a := (eq_ix1 a).symm
  right_inv _ := rfl

/-- An accumulating scatter of a vector of `n` updates onto a vector of `N` entries along an
    [n × 1] column of positions: entry `i` ends at its old value plus the sum of the updates whose
    position, read signed, is `i`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (i : Fin N) :
    Ideal.hostScatterAdd d x idx upd (ix1 i)
      = x (ix1 i) + ∑ e : Fin n, if (idx (ixP e)).toInt = (i.val : Int) then upd (ix1 e) else 0 := by
  unfold Ideal.hostScatterAdd
  congr 1
  rw [Finset.sum_filter]
  simp only [vec_resultIdx d hiw hsd hivd]
  refine Fintype.sum_equiv idxEquiv1 _ _ fun a => ?_
  show _ = (if (idx (ixP (a 0))).toInt = (i.val : Int) then upd (ix1 (a 0)) else 0)
  rw [congrArg upd (eq_ix1 a)]
  rfl

section Rows
variable {N D n w : Nat} (d : ScatterDims ⟨2, ![N, D]⟩ ⟨2, ![n, 1]⟩ ⟨2, ![n, D]⟩)

/-- The scatter-indices position an update row reads: row `j 0` of the column. -/
theorem rows_siIdx (huw : d.updateWindowDims = [1]) (hsd : d.scatterDimsToOperandDims = [0])
    (hivd : d.indexVectorDim = 1) (j : (⟨2, ![n, D]⟩ : Shape).Idx) (c : Fin d.scatterDimsToOperandDims.length) :
    d.siIdx j c = ixP (j 0) := by
  have husc : d.uScatter = [0] := by
    show Shape.kept _ d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    rw [getElem_of_eq_singleton _ _ _ _ husc]
  | ⟨1, _⟩ =>
    unfold ScatterDims.siIdx
    rw [dif_pos (by rw [hivd])]
    apply Fin.ext
    have hc : c.val < d.scatterDimsToOperandDims.length := c.isLt
    have hl : d.scatterDimsToOperandDims.length = 1 := by rw [hsd]; rfl
    show c.val = 0
    omega

/-- On the row axis the window starts at the update's row number, read signed. -/
theorem rows_start0 (huw : d.updateWindowDims = [1]) (hsd : d.scatterDimsToOperandDims = [0])
    (hivd : d.indexVectorDim = 1) (j : (⟨2, ![n, D]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm, rows_siIdx d huw hsd hivd]
  rfl

/-- On the column axis, which the scatter indices do not address, the window starts at `0`. -/
theorem rows_start1 (hsd : d.scatterDimsToOperandDims = [0])
    (j : (⟨2, ![n, D]⟩ : Shape).Idx) (idx : IVec ⟨2, ![n, 1]⟩ w) :
    d.start j idx 1 = 0 := by
  have hm : (1 : Fin 2) ∉ d.scatterDimsToOperandDims := by rw [hsd]; simp
  unfold ScatterDims.start
  rw [dif_neg hm]

/-- The row axis is an inserted one: no window coordinate is added there. -/
theorem rows_window0 (hiw : d.insertedWindowDims = [0]) (j : (⟨2, ![n, D]⟩ : Shape).Idx) :
    d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- On the column axis the window coordinate is the update's own column. -/
theorem rows_window1 (huw : d.updateWindowDims = [1]) (hiw : d.insertedWindowDims = [0])
    (j : (⟨2, ![n, D]⟩ : Shape).Idx) :
    d.window j 1 = (j 1).val := by
  have hk : (1 : Fin 2) ∈ d.sKept := by
    show (1 : Fin 2) ∈ Shape.kept _ d.insertedWindowDims
    rw [hiw]; simp [Shape.kept]
  unfold ScatterDims.window
  rw [dif_pos hk, getElem_of_eq_singleton _ _ _ _ huw]

/-- Where an update element lands: update element `j` lands on operand element `(i, q)` exactly when its row
    number, read signed, is `i` and its column is `q`. -/
theorem rows_resultIdx (huw : d.updateWindowDims = [1]) (hiw : d.insertedWindowDims = [0])
    (hsd : d.scatterDimsToOperandDims = [0]) (hivd : d.indexVectorDim = 1)
    (j : (⟨2, ![n, D]⟩ : Shape).Idx) (idx : IVec ⟨2, ![n, 1]⟩ w) (i : Fin N) (q : Fin D) :
    d.resultIdx? j idx = some (ix2 i q) ↔ (idx (ixP (j 0))).toInt = (i.val : Int) ∧ (j 1).val = q.val := by
  have h0 := rows_start0 d huw hsd hivd j idx
  have h1 := rows_start1 d hsd j idx
  have w0 := rows_window0 d hiw j
  have w1 := rows_window1 d huw hiw j
  have hj1 : (j 1).val < D := idx2_lt1 j
  have hi : i.val < N := i.isLt
  unfold ScatterDims.resultIdx?
  constructor
  · intro h
    split at h
    · next hr =>
      have hf := Option.some.inj h
      have e0 : (d.start j idx 0 + (d.window j 0 : Int)).toNat = i.val := congrArg (fun f => (f 0).val) hf
      have e1 : (d.start j idx 1 + (d.window j 1 : Int)).toNat = q.val := congrArg (fun f => (f 1).val) hf
      have r0 := (hr 0).1
      rw [h0, w0] at e0 r0
      rw [h1, w1] at e1
      exact ⟨by omega, by omega⟩
    · exact absurd h (by simp)
  · rintro ⟨hz, hq⟩
    have hr : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [h0, w0, hz]; omega
      | ⟨1, _⟩ =>
        show 0 ≤ d.start j idx 1 + (d.window j 1 : Int) ∧ d.start j idx 1 + (d.window j 1 : Int) < (D : Int)
        rw [h1, w1]; omega
    rw [dif_pos hr]
    congr 1
    funext a
    apply Fin.ext
    match a with
    | ⟨0, _⟩ =>
      show (d.start j idx 0 + (d.window j 0 : Int)).toNat = i.val
      rw [h0, w0, hz]; omega
    | ⟨1, _⟩ =>
      show (d.start j idx 1 + (d.window j 1 : Int)).toNat = q.val
      rw [h1, w1]; omega

end Rows

/-- An accumulating scatter of `n` update rows of width `D` onto an [N × D] operand along an
    [n × 1] column of row numbers: element `(i, q)` ends at its old value plus the sum over the
    update rows whose row number, read signed, is `i` of their element `q`. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (q : Fin D) :
    Ideal.hostScatterAdd d x idx upd (ix2 i q)
      = x (ix2 i q) + ∑ e : Fin n, if (idx (ixP e)).toInt = (i.val : Int) then upd (ix2 e q) else 0 := by
  unfold Ideal.hostScatterAdd
  congr 1
  rw [Finset.sum_filter]
  simp only [rows_resultIdx d huw hiw hsd hivd]
  rw [sum_idx2]
  refine Finset.sum_congr rfl fun e _ => ?_
  show (∑ b : Fin D, if (idx (ixP e)).toInt = (i.val : Int) ∧ b.val = q.val then upd (ix2 e b) else 0) = _
  by_cases hz : (idx (ixP e)).toInt = (i.val : Int)
  · simp only [hz, true_and, if_true]
    rw [Finset.sum_eq_single q]
    · rw [if_pos rfl]
    · intro b _ hb; rw [if_neg (fun h => hb (Fin.ext h))]
    · intro h; exact absurd (Finset.mem_univ q) h
  · simp only [hz, false_and, if_false, Finset.sum_const_zero]

section Gather
variable {N D n w : Nat} (d : GatherDims ⟨2, ![N, D]⟩ ⟨2, ![n, 1]⟩ ⟨2, ![n, D]⟩)

/-- The start-indices position a result row reads: row `e` of the column. -/
theorem gather_siIdx (hoff : d.offsetDims = [1]) (hsim : d.startIndexMap = [0]) (hivd : d.indexVectorDim = 1)
    (e : Fin n) (q : Fin D) (c : Fin d.startIndexMap.length) : d.siIdx (ix2 e q) c = ixP e := by
  have hbatch : d.batchDims = [0] := by
    show Shape.kept _ d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    rw [getElem_of_eq_singleton _ _ _ _ hbatch]
    rfl
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the row axis the operand index is the start index, read signed and clamped into `[0, N − 1]`
    (the slice there has size one; no batching or offset coordinate is added). -/
theorem gather_rows_coord0 (hoff : d.offsetDims = [1]) (hcoll : d.collapsedSliceDims = [0])
    (hob : d.operandBatchingDims = []) (hsim : d.startIndexMap = [0]) (hivd : d.indexVectorDim = 1)
    (idx : IVec ⟨2, ![n, 1]⟩ w) (e : Fin n) (q : Fin D) :
    (d.operandIdx (ix2 e q) idx 0).val = min (idx (ixP e)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [gather_siIdx d hoff hsim hivd, hsl]
  rfl

/-- On the column axis the operand index is the result's own column: the start is `0` (the axis is not
    start-indexed) and the offset coordinate is the result's second coordinate. -/
theorem gather_rows_coord1 (hoff : d.offsetDims = [1]) (hcoll : d.collapsedSliceDims = [0])
    (hob : d.operandBatchingDims = []) (hsim : d.startIndexMap = [0])
    (idx : IVec ⟨2, ![n, 1]⟩ w) (e : Fin n) (q : Fin D) :
    (d.operandIdx (ix2 e q) idx 1).val = q.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, GatherDims.offCoord, dif_pos hk,
    Nat.add_zero, GatherDims.start, dif_neg hm, Nat.zero_add]
  rw [getElem_of_eq_singleton _ _ _ _ hoff]
  rfl

end Gather

/-- A gather of rows of an [N × D] operand along an [n × 1] column of row numbers: element `(e, q)`
    of the result is the operand's element `q` of the row whose number is position `e`'s, read
    signed and clamped into `[0, N − 1]`. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (q : Fin D) (hN : 0 < N) :
    Host.gather d x idx (ix2 e q)
      = x (ix2 (⟨min (idx (ixP e)).toInt.toNat (N - 1), by omega⟩ : Fin N) q) := by
  unfold Host.gather
  congr 1
  funext a
  apply Fin.ext
  match a with
  | ⟨0, _⟩ => exact gather_rows_coord0 d hoff hcoll hob hsim hivd idx e q
  | ⟨1, _⟩ => exact gather_rows_coord1 d hoff hcoll hob hsim idx e q

end Cert.ScatterRows

end
-- ==== Proof.RefFinal.lean ====
/-
  The reference's result read at an entry, at the extended reals: row `a` gathers the row of the radial table that
  position `a`'s start index names (normalised, read signed and clamped into the table) and multiplies it, column by
  column, by the angular table's row `a`.
-/
import proofs.«404429_j65481071394972_3_alg».proof.Proof.RefRadial
import proofs.«404429_j65481071394972_3_alg».proof.Proof.RefAngular
import Idealize.ShloMosaic.Lib.StableHlo.Predicate
import proofs.«404429_j65481071394972_3_alg».proof.Proof.LibScatterRows

set_option maxRecDepth 16384

noncomputable section

namespace Cert.ReferenceIdeal.Final

open Cert.ReferenceIdeal Cert.ReferenceIdeal.Gen Cert.ReferenceIdeal.Stages
open Idealize.ShloMosaic Idealize.ShloMosaic.ValueIdx
open Idealize.ShloMosaic.StableHlo.Predicate (ixP)

/-! ## The start indices -/

/-- A start index, normalised: a negative one wraps by the table's length. -/
theorem res_v87_at (kj : (⟨S2000000, .i32⟩ : BufTy).Contents (Elt Ideal)) (i : S2000000.Idx) :
    res_v87 (F := Ideal) kj i = Cert.Spec.nrm (kj i) := rfl

/-- The start indices kept as a [2000000, 1] column: row `a` is position `a`'s normalised index. -/
theorem res_v88_at (kj : (⟨S2000000, .i32⟩ : BufTy).Contents (Elt Ideal)) (a : Fin 2000000) :
    res_v88 (F := Ideal) kj (ixP a) = Cert.Spec.nrm (kj (ix1 a)) := by
  unfold res_v88
  refine (broadcastInDim_apply _ _ _ (ixP a) (ix1 a) ?_).trans (res_v87_at kj _)
  intro b
  match b with
  | ⟨0, _⟩ => rfl

/-! ## The gathered rows -/

/-- Row `a` of the gathered table is the radial table's row `rowOf kj a`. -/
theorem res_v89_at (d : (⟨S500000, .f32⟩ : BufTy).Contents (Elt Ideal)) (kj : (⟨S2000000, .i32⟩ : BufTy).Contents (Elt Ideal))
    (a : Fin 2000000) (j : Fin 42) :
    res_v89 (F := Ideal) d kj (ix2 a j) = res_v82 (F := Ideal) d (ix2 (Cert.Spec.rowOf kj a) j) := by
  unfold res_v89
  refine (Cert.ScatterRows.gather_rows gather_S500000x42_S2000000x1_S2000000x42_1_0_n_n_0_1_142 rfl rfl rfl rfl rfl rfl
    (res_v82 (F := Ideal) d) (res_v88 (F := Ideal) kj) a j (by decide)).trans ?_
  congr 2
  apply Fin.ext
  show min (res_v88 (F := Ideal) kj (ixP a)).toInt.toNat (500000 - 1) = min (Cert.Spec.nrm (kj (ix1 a))).toInt.toNat (500000 - 1)
  rw [res_v88_at]

theorem res_v156_apply (d : (⟨S500000, .f32⟩ : BufTy).Contents (Elt Ideal)) (ang : (⟨S2000000, .f32⟩ : BufTy).Contents (Elt Ideal))
    (kj : (⟨S2000000, .i32⟩ : BufTy).Contents (Elt Ideal)) (a : Fin 2000000) (j : Fin 42) :
    res_v156 (F := Ideal) d ang kj (ix2 a j)
      = Cert.Spec.cellR (Ideal.ofBits .f32 (lit0 j)) (Ideal.ofBits .f32 (lit1 j)) (d (ix1 (Cert.Spec.rowOf kj a))) (ang (ix1 a))
          (Cert.Spec.fam j) := by
  show res_v89 (F := Ideal) d kj (ix2 a j) * res_v155 (F := Ideal) ang (ix2 a j) = _
  rw [res_v89_at, Cert.ReferenceIdeal.Radial.res_v82_apply, Cert.ReferenceIdeal.Angular.res_v155_apply]
  rfl

end Cert.ReferenceIdeal.Final

end
-- ==== Proof.lean ====
/-
  A fused basis kernel against its reference, over the extended reals.

  For 2,000,000 (angle, index) pairs and 500,000 distances, both programs compute, for pair `a` and column `6·l + k`,
      N_{l,k} · j_l(z_{l,k} · x/5) · u(x/5) · c_l · P_l(cos θ_a),     x = d[idx_a],
  the reference by building the whole [500000, 42] radial table and gathering rows of it, the kernel by gathering the
  distances first and computing the entries row block by row block, choosing the Bessel family of a lane by selects.
  A gathered index is normalised (a negative one wraps by 500000) by both; out of [-500000, 500000) the reference's
  gather clamps while the kernel's `take` fills, so the statement is over start indices in that range, where both read
  the same row. On every such input the two results agree entry by entry: the operations coincide one by one, except
  that the kernel multiplies the Bessel part by the envelope on the right and the reference on the left.
-/
import proofs.«404429_j65481071394972_3_alg».proof.Defs
import proofs.«404429_j65481071394972_3_alg».proof.Proof.Gen.Kernel
import proofs.«404429_j65481071394972_3_alg».proof.Proof.Gen.KernelIdeal
import proofs.«404429_j65481071394972_3_alg».proof.Proof.Gen.ReferenceIdeal
import proofs.«404429_j65481071394972_3_alg».proof.Proof.Gen.Pre_finite_inputs
import proofs.«404429_j65481071394972_3_alg».proof.Proof.BodyK
import proofs.«404429_j65481071394972_3_alg».proof.Proof.BodyKI
import proofs.«404429_j65481071394972_3_alg».proof.Proof.KValue
import proofs.«404429_j65481071394972_3_alg».proof.Proof.Prefix
import proofs.«404429_j65481071394972_3_alg».proof.Proof.KCell
import proofs.«404429_j65481071394972_3_alg».proof.Proof.RefRun
import proofs.«404429_j65481071394972_3_alg».proof.Proof.RefFinal
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The two programs carry the same table of Bessel zeros, -/
theorem zeros_eq : ∀ j : Fin 42, Cert.KernelIdeal.lit0 j = Cert.ReferenceIdeal.lit0 j := by decide
/-- and the same table of normalisers. -/
theorem norms_eq : ∀ j : Fin 42, Cert.KernelIdeal.lit1 j = Cert.ReferenceIdeal.lit1 j := by decide

/-- Column `l` of the one-row table is entry `l` of its row-major listing. -/
theorem rowMajor_row (l : Fin 42) : Cert.KernelIdeal.S1x42.rowMajor (ix2 (0 : Fin 1) l) = l := by
  apply Fin.ext
  rw [Shape.rowMajor_val_two]
  show 0 * 42 + l.val = l.val
  omega

theorem frame_k : Cert.frame_Kernel := fun m ρ _ =>
  Cert.Kernel.Gen.frame_of m ρ (Cert.Kernel.Body.dats m) (fun _ _ => rfl) (Cert.Kernel.Body.run_main (F := Bits) m ρ)

theorem frame_ki : Cert.frame_KernelIdeal := fun m ρ _ =>
  Cert.KernelIdeal.Gen.frame_of m ρ (Cert.KernelIdeal.Body.dats m) (fun _ _ => rfl) (Cert.KernelIdeal.Body.run_main (F := Ideal) m ρ)

theorem frame_ri : Cert.frame_ReferenceIdeal := fun m ρ _ =>
  (θ_run Cert.ReferenceIdeal.defs _ _).mono (fun _ h c => (h c).2) (Cert.ReferenceIdeal.RefRun.run (F := Ideal) m ρ)

/-- Entry `(a, j)` of the kernel's result, under the precondition: the specification's entry at the row the start
    index names. -/
theorem kernel_entry (m : (ℓ : Loc Cert.KernelIdeal.nD Cert.KernelIdeal.τ Cert.KernelIdeal.sig) → Buf (Elt Ideal) ℓ)
    (hpre : Cert.Pre_KernelIdeal m) (c : Dev Cert.KernelIdeal.nD) (a : Fin 2000000) (j : Fin 42) :
    Cert.KernelIdeal.KValue.KG (Cert.KernelIdeal.Gen.V m c Cert.KernelIdeal.main_cst) (Cert.KernelIdeal.Gen.V m c Cert.KernelIdeal.main_cst_0)
        (Cert.KernelIdeal.Gen.V m c Cert.KernelIdeal.main_v0) (m ((c.tc : Thread Cert.KernelIdeal.nD Cert.KernelIdeal.τ).loc Cert.KernelIdeal.main_arg1)) (ix2 a j)
      = Cert.Spec.cellK (Ideal.ofBits .f32 (Cert.KernelIdeal.lit0 j)) (Ideal.ofBits .f32 (Cert.KernelIdeal.lit1 j))
          (m ((c.tc : Thread Cert.KernelIdeal.nD Cert.KernelIdeal.τ).loc Cert.KernelIdeal.main_arg0)
            (ix1 (Cert.Spec.rowOf (m ((c.tc : Thread Cert.KernelIdeal.nD Cert.KernelIdeal.τ).loc Cert.KernelIdeal.main_arg2)) a)))
          (m ((c.tc : Thread Cert.KernelIdeal.nD Cert.KernelIdeal.τ).loc Cert.KernelIdeal.main_arg1) (ix1 a)) (Cert.Spec.fam j) := by
  unfold Cert.KernelIdeal.KValue.KG
  rw [Cert.KernelIdeal.KCell.outOf_cell, Cert.KernelIdeal.Prefix.V_cst, Cert.KernelIdeal.Prefix.V_cst_0,
    Cert.KernelIdeal.Prefix.V_v0_of_pre m c (hpre c)]
  simp only [rowMajor_row]
  rfl

theorem algebraic : Cert.algebraic_KernelIdeal_ReferenceIdeal := by
  intro m ρ m' ρ' hpre hagree
  refine ⟨fun c => Cert.KernelIdeal.KValue.KG (Cert.KernelIdeal.Gen.V m c Cert.KernelIdeal.main_cst)
      (Cert.KernelIdeal.Gen.V m c Cert.KernelIdeal.main_cst_0) (Cert.KernelIdeal.Gen.V m c Cert.KernelIdeal.main_v0)
      (m ((c.tc : Thread Cert.KernelIdeal.nD Cert.KernelIdeal.τ).loc Cert.KernelIdeal.main_arg1)),
    Cert.KernelIdeal.KValue.run_value (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  funext i
  obtain ⟨a, j, rfl⟩ : ∃ (a : Fin 2000000) (j : Fin 42), i = ix2 a j := ⟨i 0, i 1, eq_ix2 i⟩
  beta_reduce
  rw [kernel_entry m hpre c a j, zeros_eq, norms_eq]
  exact (Cert.ReferenceIdeal.Final.res_v156_apply _ _ _ a j).trans (Cert.Spec.cellR_eq_cellK _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
